-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v147)) (v1 : (c : Dev Cert.KernelIdeal.nD) → Buf (Elt Ideal) ((c.tc : Thread Cert.KernelIdeal.nD Cert.KernelIdeal.τ).loc Cert.KernelIdeal.main_v149)) (v2 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_v149) = v1 c
          ∧ r.2.mem ((c.tc : Thread Cert.KernelIdeal.nD Cert.KernelIdeal.τ).loc Cert.KernelIdeal.main_v175) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S524288x16 : Shape := ⟨2, ![524288, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S128x16 : Shape := ⟨2, ![128, 16]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S524288x16 : S_.BroadcastsInDim S524288x16 (![] : Fin 0 → Fin S524288x16.rank)
  reducesTo_S524288x16_S_d0_1 : S524288x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  main_v88

def fn_part4 {F : FTy → Type} [FloatOps F] (main_arg15 : FVec F S64x10 .f32) (main_arg16 : FVec F S10 .f32) (main_arg17 : FVec F S128x16 .f32) (main_arg18 : FVec F S16 .f32) (main_v63 : IVec S_ 1) (main_v67 : IVec S_ 1) : IVec S_ 1 :=
  let main_v68 : IVec S_ 1 := andi main_v63 main_v67
  let main_v69 : FVec F S64x10 .f32 := Host.absf main_arg15
  let main_cst_26 : FVec F S_ .f32 := constant S_ .f32 0x7F800000#32
  let main_v70 : FVec F S64x10 .f32 := broadcastInDim S64x10 ![] bcast_S_S64x10 main_cst_26
  let main_v71 : IVec S64x10 1 := cmpf .olt main_v69 main_v70
  let main_c_27 : IVec S_ 1 := constantI S_ 1 1#1
  let main_v72 : IVec S_ 1 := (fun x v => Host.reduce IntOp.andi x v reducesTo_S64x10_S_d0_1 h_S_) main_v71 main_c_27
  let main_v73 : IVec S_ 1 := andi main_v68 main_v72
  let main_v74 : FVec F S10 .f32 := Host.absf main_arg16
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S128x16 .f32 := Host.absf main_arg17
  let main_cst_30 : FVec F S_ .f32 := constant S_ .f32 0x7F800000#32
  let main_v80 : FVec F S128x16 .f32 := broadcastInDim S128x16 ![] bcast_S_S128x16 main_cst_30
  let main_v81 : IVec S128x16 1 := cmpf .olt main_v79 main_v80
  let main_c_31 : IVec S_ 1 := constantI S_ 1 1#1
  let main_v82 : IVec S_ 1 := (fun x v => Host.reduce IntOp.andi x v reducesTo_S128x16_S_d0_1 h_S_) main_v81 main_c_31
  let main_v83 : IVec S_ 1 := andi main_v78 main_v82
  let main_v84 : FVec F S16 .f32 := Host.absf main_arg18
  let main_cst_32 : FVec F S_ .f32 := constant S_ .f32 0x7F800000#32
  fn_part5 (F := F) main_v83 main_v84 main_cst_32

def fn_part3 {F : FTy → Type} [FloatOps F] (main_arg12 : FVec F S10 .f32) (main_arg13 : FVec F S64x10 .f32) (main_arg14 : FVec F S10 .f32) (main_arg15 : FVec F S64x10 .f32) (main_arg16 : FVec F S10 .f32) (main_arg17 : FVec F S128x16 .f32) (main_arg18 : FVec F S16 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg12
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S64x10 .f32 := Host.absf main_arg13
  let main_cst_22 : FVec F S_ .f32 := constant S_ .f32 0x7F800000#32
  let main_v60 : FVec F S64x10 .f32 := broadcastInDim S64x10 ![] bcast_S_S64x10 main_cst_22
  let main_v61 : IVec S64x10 1 := cmpf .olt main_v59 main_v60
  let main_c_23 : IVec S_ 1 := constantI S_ 1 1#1
  let main_v62 : IVec S_ 1 := (fun x v => Host.reduce IntOp.andi x v reducesTo_S64x10_S_d0_1 h_S_) main_v61 main_c_23
  let main_v63 : IVec S_ 1 := andi main_v58 main_v62
  let main_v64 : FVec F S10 .f32 := Host.absf main_arg14
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64 .f32) (main_arg10 : FVec F S64 .f32) (main_arg11 : FVec F S64x10 .f32) (main_arg12 : FVec F S10 .f32) (main_arg13 : FVec F S64x10 .f32) (main_arg14 : FVec F S10 .f32) (main_arg15 : FVec F S64x10 .f32) (main_arg16 : FVec F S10 .f32) (main_arg17 : FVec F S128x16 .f32) (main_arg18 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg11
  let main_cst_18 : FVec F S_ .f32 := constant S_ .f32 0x7F800000#32
  let main_v50 : FVec F S64x10 .f32 := broadcastInDim S64x10 ![] bcast_S_S64x10 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128x64 .f32) (main_arg8 : FVec F S64 .f32) (main_arg9 : FVec F S64 .f32) (main_arg10 : FVec F S64 .f32) (main_arg11 : FVec F S64x10 .f32) (main_arg12 : FVec F S10 .f32) (main_arg13 : FVec F S64x10 .f32) (main_arg14 : FVec F S10 .f32) (main_arg15 : FVec F S64x10 .f32) (main_arg16 : FVec F S10 .f32) (main_arg17 : FVec F S128x16 .f32) (main_arg18 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S16384x128 .f32) (main_arg1 : IVec S2x524288 32) (main_arg2 : FVec F S524288x16 .f32) (main_arg3 : FVec F S128x128 .f32) (main_arg4 : FVec F S128 .f32) (main_arg5 : FVec F S128 .f32) (main_arg6 : FVec F S128 .f32) (main_arg7 : FVec F S128x64 .f32) (main_arg8 : FVec F S64 .f32) (main_arg9 : FVec F S64 .f32) (main_arg10 : FVec F S64 .f32) (main_arg11 : FVec F S64x10 .f32) (main_arg12 : FVec F S10 .f32) (main_arg13 : FVec F S64x10 .f32) (main_arg14 : FVec F S10 .f32) (main_arg15 : FVec F S64x10 .f32) (main_arg16 : FVec F S10 .f32) (main_arg17 : FVec F S128x16 .f32) (main_arg18 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S524288x16 .f32 := Host.absf main_arg2
  let main_cst_0 : FVec F S_ .f32 := constant S_ .f32 0x7F800000#32
  let main_v5 : FVec F S524288x16 .f32 := broadcastInDim S524288x16 ![] bcast_S_S524288x16 main_cst_0
  let main_v6 : IVec S524288x16 1 := cmpf .olt main_v4 main_v5
  let main_c_1 : IVec S_ 1 := constantI S_ 1 1#1
  let main_v7 : IVec S_ 1 := (fun x v => Host.reduce IntOp.andi x v reducesTo_S524288x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S16384x128 : Shape := ⟨2, ![16384, 128]⟩
abbrev S2x524288 : Shape := ⟨2, ![2, 524288]⟩
abbrev S524288x16 : Shape := ⟨2, ![524288, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S128x16 : Shape := ⟨2, ![128, 16]⟩
abbrev S16 : Shape := ⟨1, ![16]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S2048x128 : Shape := ⟨2, ![2048, 128]⟩
abbrev S540672x128 : Shape := ⟨2, ![540672, 128]⟩
abbrev S1x128 : Shape := ⟨2, ![1, 128]⟩
abbrev S16384x64 : Shape := ⟨2, ![16384, 64]⟩
abbrev S2048x64 : Shape := ⟨2, ![2048, 64]⟩
abbrev S540672x64 : Shape := ⟨2, ![540672, 64]⟩
abbrev S1x64 : Shape := ⟨2, ![1, 64]⟩
abbrev S16384x10 : Shape := ⟨2, ![16384, 10]⟩
abbrev S1x10 : Shape := ⟨2, ![1, 10]⟩
abbrev S16384x4 : Shape := ⟨2, ![16384, 4]⟩
abbrev S16384x1 : Shape := ⟨2, ![16384, 1]⟩
abbrev S16384x6 : Shape := ⟨2, ![16384, 6]⟩
abbrev S16384x30 : Shape := ⟨2, ![16384, 30]⟩
abbrev S16384x16384 : Shape := ⟨2, ![16384, 16384]⟩
abbrev S2048x2048 : Shape := ⟨2, ![2048, 2048]⟩
abbrev S64x16 : Shape := ⟨2, ![64, 16]⟩
abbrev S16384x16 : Shape := ⟨2, ![16384, 16]⟩
abbrev S524288x1 : Shape := ⟨2, ![524288, 1]⟩
abbrev S1x16 : Shape := ⟨2, ![1, 16]⟩

abbrev nBuf : Space → Nat
  | .hbm => 273
  | .vmem => 16
  | .smem => 0
  | _ => 0

abbrev hbmTy0_0 (i : Nat) : BufTy := match i % 128 with
  | 0 => ⟨S16384x128, .f32⟩
  | 1 => ⟨S2x524288, .i32⟩
  | 2 => ⟨S524288x16, .f32⟩
  | 3 => ⟨S128x128, .f32⟩
  | 4 => ⟨S128, .f32⟩
  | 5 => ⟨S128, .f32⟩
  | 6 => ⟨S128, .f32⟩
  | 7 => ⟨S128x64, .f32⟩
  | 8 => ⟨S64, .f32⟩
  | 9 => ⟨S64, .f32⟩
  | 10 => ⟨S64, .f32⟩
  | 11 => ⟨S64x10, .f32⟩
  | 12 => ⟨S10, .f32⟩
  | 13 => ⟨S64x10, .f32⟩
  | 14 => ⟨S10, .f32⟩
  | 15 => ⟨S64x10, .f32⟩
  | 16 => ⟨S10, .f32⟩
  | 17 => ⟨S128x16, .f32⟩
  | 18 => ⟨S16, .f32⟩
  | 19 => ⟨S16384, .i32⟩
  | 20 => ⟨S1x524288, .i32⟩
  | 21 => ⟨S524288, .i32⟩
  | 22 => ⟨S540672, .i32⟩
  | 23 => ⟨S1x524288, .i32⟩
  | 24 => ⟨S524288, .i32⟩
  | 25 => ⟨S540672, .i32⟩
  | 26 => ⟨S_, .f32⟩
  | 27 => ⟨S540672, .f32⟩
  | 28 => ⟨S_, .f32⟩
  | 29 => ⟨S16384, .f32⟩
  | 30 => ⟨S540672x1, .i32⟩
  | 31 => ⟨S16384, .f32⟩
  | 32 => ⟨S16384, .f32⟩
  | 33 => ⟨S_, .i32⟩
  | 34 => ⟨S540672, .i32⟩
  | 35 => ⟨S540672, .i1⟩
  | 36 => ⟨S_, .i32⟩
  | 37 => ⟨S540672, .i32⟩
  | 38 => ⟨S540672, .i32⟩
  | 39 => ⟨S540672, .i32⟩
  | 40 => ⟨S540672x1, .i32⟩
  | 41 => ⟨S540672, .f32⟩
  | 42 => ⟨S_, .i32⟩
  | 43 => ⟨S540672, .i32⟩
  | 44 => ⟨S540672, .i1⟩
  | 45 => ⟨S_, .i32⟩
  | 46 => ⟨S540672, .i32⟩
  | 47 => ⟨S540672, .i32⟩
  | 48 => ⟨S540672, .i32⟩
  | 49 => ⟨S540672x1, .i32⟩
  | 50 => ⟨S540672, .f32⟩
  | 51 => ⟨S540672, .f32⟩
  | 52 => ⟨S16384x128, .bf16⟩
  | 53 => ⟨S128x128, .bf16⟩
  | 54 => ⟨S16384x128, .f32⟩
  | 55 => ⟨S_, .i32⟩
  | 56 => ⟨S540672, .i32⟩
  | 57 => ⟨S540672, .i1⟩
  | 58 => ⟨S_, .i32⟩
  | 59 => ⟨S540672, .i32⟩
  | 60 => ⟨S540672, .i32⟩
  | 61 => ⟨S540672, .i32⟩
  | 62 => ⟨S540672x1, .i32⟩
  | 63 => ⟨S540672x128, .f32⟩
  | 64 => ⟨S540672x1, .f32⟩
  | 65 => ⟨S540672x128, .f32⟩
  | 66 => ⟨S540672x128, .f32⟩
  | 67 => ⟨S_, .f32⟩
  | 68 => ⟨S16384x128, .f32⟩
  | 69 => ⟨S540672x1, .i32⟩
  | 70 => ⟨S16384x128, .f32⟩
  | 71 => ⟨S1x128, .f32⟩
  | 72 => ⟨S16384x128, .f32⟩
  | 73 => ⟨S16384x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S16384x128, .f32⟩
  | 87 => ⟨S16384x128, .f32⟩
  | 88 => ⟨S16384x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S16384x128, .f32⟩
  | 104 => ⟨S16384x128, .f32⟩
  | 105 => ⟨S1x128, .f32⟩
  | 106 => ⟨S16384x128, .f32⟩
  | 107 => ⟨S16384x128, .f32⟩
  | 108 => ⟨S_, .f32⟩
  | 109 => ⟨S128, .f32⟩
  | 110 => ⟨S128, .f32⟩
  | 111 => ⟨S128, .f32⟩
  | 112 => ⟨S1x128, .f32⟩
  | 113 => ⟨S16384x128, .f32⟩
  | 114 => ⟨S16384x128, .f32⟩
  | 115 => ⟨S1x128, .f32⟩
  | 116 => ⟨S16384x128, .f32⟩
  | 117 => ⟨S16384x128, .f32⟩
  | 118 => ⟨S_, .f32⟩
  | 119 => ⟨S16384x128, .f32⟩
  | 120 => ⟨S16384x128, .f32⟩
  | 121 => ⟨S16384x128, .bf16⟩
  | 122 => ⟨S128x64, .bf16⟩
  | 123 => ⟨S16384x64, .f32⟩
  | 124 => ⟨S_, .i32⟩
  | 125 => ⟨S540672, .i32⟩
  | 126 => ⟨S540672, .i1⟩
  | 127 => ⟨S_, .i32⟩
  | _ => ⟨S16384x128, .f32⟩

abbrev hbmTy0_1 (i : Nat) : BufTy := match i % 128 with
  | 0 => ⟨S540672, .i32⟩
  | 1 => ⟨S540672, .i32⟩
  | 2 => ⟨S540672, .i32⟩
  | 3 => ⟨S540672x1, .i32⟩
  | 4 => ⟨S540672x64, .f32⟩
  | 5 => ⟨S540672x1, .f32⟩
  | 6 => ⟨S540672x64, .f32⟩
  | 7 => ⟨S540672x64, .f32⟩
  | 8 => ⟨S_, .f32⟩
  | 9 => ⟨S16384x64, .f32⟩
  | 10 => ⟨S540672x1, .i32⟩
  | 11 => ⟨S16384x64, .f32⟩
  | 12 => ⟨S1x64, .f32⟩
  | 13 => ⟨S16384x64, .f32⟩
  | 14 => ⟨S16384x64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S16384x64, .f32⟩
  | 28 => ⟨S16384x64, .f32⟩
  | 29 => ⟨S16384x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S16384x64, .f32⟩
  | 45 => ⟨S16384x64, .f32⟩
  | 46 => ⟨S1x64, .f32⟩
  | 47 => ⟨S16384x64, .f32⟩
  | 48 => ⟨S16384x64, .f32⟩
  | 49 => ⟨S_, .f32⟩
  | 50 => ⟨S64, .f32⟩
  | 51 => ⟨S64, .f32⟩
  | 52 => ⟨S64, .f32⟩
  | 53 => ⟨S1x64, .f32⟩
  | 54 => ⟨S16384x64, .f32⟩
  | 55 => ⟨S16384x64, .f32⟩
  | 56 => ⟨S1x64, .f32⟩
  | 57 => ⟨S16384x64, .f32⟩
  | 58 => ⟨S16384x64, .f32⟩
  | 59 => ⟨S_, .f32⟩
  | 60 => ⟨S16384x64, .f32⟩
  | 61 => ⟨S16384x64, .f32⟩
  | 62 => ⟨S16384x10, .f32⟩
  | 63 => ⟨S1x10, .f32⟩
  | 64 => ⟨S16384x10, .f32⟩
  | 65 => ⟨S16384x10, .f32⟩
  | 66 => ⟨S16384x10, .f32⟩
  | 67 => ⟨S16384x10, .f32⟩
  | 68 => ⟨S_, .f32⟩
  | 69 => ⟨S16384x10, .f32⟩
  | 70 => ⟨S16384x10, .f32⟩
  | 71 => ⟨S_, .f32⟩
  | 72 => ⟨S16384x10, .f32⟩
  | 73 => ⟨S16384x10, .f32⟩
  | 74 => ⟨S16384x10, .f32⟩
  | 75 => ⟨S1x10, .f32⟩
  | 76 => ⟨S16384x10, .f32⟩
  | 77 => ⟨S16384x10, .f32⟩
  | 78 => ⟨S16384x4, .f32⟩
  | 79 => ⟨S_, .f32⟩
  | 80 => ⟨S16384, .f32⟩
  | 81 => ⟨S_, .f32⟩
  | 82 => ⟨S16384, .f32⟩
  | 83 => ⟨S16384, .f32⟩
  | 84 => ⟨S16384x1, .f32⟩
  | 85 => ⟨S16384x4, .f32⟩
  | 86 => ⟨S16384x4, .f32⟩
  | 87 => ⟨S16384x4, .f32⟩
  | 88 => ⟨S_, .f32⟩
  | 89 => ⟨S16384, .f32⟩
  | 90 => ⟨S16384x1, .f32⟩
  | 91 => ⟨S16384x4, .f32⟩
  | 92 => ⟨S16384x4, .f32⟩
  | 93 => ⟨S16384x6, .f32⟩
  | 94 => ⟨S_, .f32⟩
  | 95 => ⟨S16384, .f32⟩
  | 96 => ⟨S_, .f32⟩
  | 97 => ⟨S16384, .f32⟩
  | 98 => ⟨S16384, .f32⟩
  | 99 => ⟨S16384x1, .f32⟩
  | 100 => ⟨S16384x6, .f32⟩
  | 101 => ⟨S16384x6, .f32⟩
  | 102 => ⟨S16384x6, .f32⟩
  | 103 => ⟨S_, .f32⟩
  | 104 => ⟨S16384, .f32⟩
  | 105 => ⟨S16384x1, .f32⟩
  | 106 => ⟨S16384x6, .f32⟩
  | 107 => ⟨S16384x6, .f32⟩
  | 108 => ⟨S16384x10, .f32⟩
  | 109 => ⟨S1x10, .f32⟩
  | 110 => ⟨S16384x10, .f32⟩
  | 111 => ⟨S16384x10, .f32⟩
  | 112 => ⟨S16384x30, .f32⟩
  | 113 => ⟨S16384x64, .bf16⟩
  | 114 => ⟨S16384x16384, .f32⟩
  | 115 => ⟨S64x16, .f32⟩
  | 116 => ⟨S16384x16, .f32⟩
  | 117 => ⟨S64x16, .f32⟩
  | 118 => ⟨S16384x16, .f32⟩
  | 119 => ⟨S1x524288, .i32⟩
  | 120 => ⟨S524288, .i32⟩
  | 121 => ⟨S_, .i32⟩
  | 122 => ⟨S524288, .i32⟩
  | 123 => ⟨S524288, .i1⟩
  | 124 => ⟨S_, .i32⟩
  | 125 => ⟨S524288, .i32⟩
  | 126 => ⟨S524288, .i32⟩
  | 127 => ⟨S524288, .i32⟩
  | _ => ⟨S16384x128, .f32⟩

abbrev hbmTy0_2 (i : Nat) : BufTy := match i % 128 with
  | 0 => ⟨S524288x1, .i32⟩
  | 1 => ⟨S524288x16, .f32⟩
  | 2 => ⟨S1x524288, .i32⟩
  | 3 => ⟨S524288, .i32⟩
  | 4 => ⟨S_, .i32⟩
  | 5 => ⟨S524288, .i32⟩
  | 6 => ⟨S524288, .i1⟩
  | 7 => ⟨S_, .i32⟩
  | 8 => ⟨S524288, .i32⟩
  | 9 => ⟨S524288, .i32⟩
  | 10 => ⟨S524288, .i32⟩
  | 11 => ⟨S524288x1, .i32⟩
  | 12 => ⟨S524288x16, .f32⟩
  | 13 => ⟨S524288x16, .f32⟩
  | 14 => ⟨S1x16, .f32⟩
  | 15 => ⟨S524288x16, .f32⟩
  | 16 => ⟨S524288x16, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S128x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S128x64, .bf16⟩
  | .local _ .vmem, ⟨8, _⟩ => ⟨S2048x64, .f32⟩
  | .local _ .vmem, ⟨9, _⟩ => ⟨S2048x64, .f32⟩
  | .local _ .vmem, ⟨10, _⟩ => ⟨S2048x64, .bf16⟩
  | .local _ .vmem, ⟨11, _⟩ => ⟨S2048x64, .bf16⟩
  | .local _ .vmem, ⟨12, _⟩ => ⟨S2048x64, .bf16⟩
  | .local _ .vmem, ⟨13, _⟩ => ⟨S2048x64, .bf16⟩
  | .local _ .vmem, ⟨14, _⟩ => ⟨S2048x2048, .f32⟩
  | .local _ .vmem, ⟨15, _⟩ => ⟨S2048x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_cst_0 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_cst_1 : Ref sig .tc := ⟨.hbm, 90, rfl⟩
abbrev main_call0_v8 : Ref sig .tc := ⟨.hbm, 91, rfl⟩
abbrev main_call0_cst_2 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_cst_3 : Ref sig .tc := ⟨.hbm, 96, rfl⟩
abbrev main_call0_v12 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_10 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_call1_cst : Ref sig .tc := ⟨.hbm, 118, rfl⟩
abbrev main_call1_v0 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_11 : Ref sig .tc := ⟨.hbm, 124, rfl⟩
abbrev main_v69 : Ref sig .tc := ⟨.hbm, 125, rfl⟩
abbrev main_v70 : Ref sig .tc := ⟨.hbm, 126, rfl⟩
abbrev main_c_12 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_13 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_14 : Ref sig .tc := ⟨.hbm, 143, rfl⟩
abbrev main_v85 : Ref sig .tc := ⟨.hbm, 144, rfl⟩
abbrev main_cst_15 : Ref sig .tc := ⟨.hbm, 145, rfl⟩
abbrev main_v86 : Ref sig .tc := ⟨.hbm, 146, rfl⟩
abbrev main_v87 : Ref sig .tc := ⟨.hbm, 147, rfl⟩
abbrev main_c_16 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_cst_0 : Ref sig .tc := ⟨.hbm, 152, rfl⟩
abbrev main_call2_v2 : Ref sig .tc := ⟨.hbm, 153, rfl⟩
abbrev main_call2_v3 : Ref sig .tc := ⟨.hbm, 154, rfl⟩
abbrev main_call2_v4 : Ref sig .tc := ⟨.hbm, 155, rfl⟩
abbrev main_call2_v5 : Ref sig .tc := ⟨.hbm, 156, rfl⟩
abbrev main_call2_v6 : Ref sig .tc := ⟨.hbm, 157, rfl⟩
abbrev main_call2_v7 : Ref sig .tc := ⟨.hbm, 158, rfl⟩
abbrev main_call2_cst_1 : Ref sig .tc := ⟨.hbm, 159, rfl⟩
abbrev main_call2_v8 : Ref sig .tc := ⟨.hbm, 160, rfl⟩
abbrev main_call2_cst_2 : Ref sig .tc := ⟨.hbm, 161, rfl⟩
abbrev main_call2_v9 : Ref sig .tc := ⟨.hbm, 162, rfl⟩
abbrev main_call2_v10 : Ref sig .tc := ⟨.hbm, 163, rfl⟩
abbrev main_call2_v11 : Ref sig .tc := ⟨.hbm, 164, rfl⟩
abbrev main_call2_cst_3 : Ref sig .tc := ⟨.hbm, 165, rfl⟩
abbrev main_call2_v12 : Ref sig .tc := ⟨.hbm, 166, rfl⟩
abbrev main_call2_cst_4 : Ref sig .tc := ⟨.hbm, 167, rfl⟩
abbrev main_call2_call0_v0 : Ref sig .tc := ⟨.hbm, 168, rfl⟩
abbrev main_call2_call0_v1 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_cst_17 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_call3_cst : Ref sig .tc := ⟨.hbm, 187, rfl⟩
abbrev main_call3_v0 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_cst_18 : Ref sig .tc := ⟨.hbm, 196, rfl⟩
abbrev main_v111 : Ref sig .tc := ⟨.hbm, 197, rfl⟩
abbrev main_v112 : Ref sig .tc := ⟨.hbm, 198, rfl⟩
abbrev main_cst_19 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_cst_20 : Ref sig .tc := ⟨.hbm, 207, rfl⟩
abbrev main_v120 : Ref sig .tc := ⟨.hbm, 208, rfl⟩
abbrev main_cst_21 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_22 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_cst_23 : Ref sig .tc := ⟨.hbm, 222, rfl⟩
abbrev main_v132 : Ref sig .tc := ⟨.hbm, 223, rfl⟩
abbrev main_cst_24 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_25 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_c_26 : Ref sig .tc := ⟨.hbm, 249, rfl⟩
abbrev main_v156 : Ref sig .tc := ⟨.hbm, 250, rfl⟩
abbrev main_v157 : Ref sig .tc := ⟨.hbm, 251, rfl⟩
abbrev main_c_27 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_c_28 : Ref sig .tc := ⟨.hbm, 260, rfl⟩
abbrev main_v165 : Ref sig .tc := ⟨.hbm, 261, rfl⟩
abbrev main_v166 : Ref sig .tc := ⟨.hbm, 262, rfl⟩
abbrev main_c_29 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S540672x1_S540672x128_0_1 : S540672x1.BroadcastsInDim S540672x128 (![0, 1] : Fin 2 → Fin S540672x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S128_d0 : S16384x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2048x64_S2048x64_0_0 : ∀ a, (![0, 0] : Fin 2 → Nat) a + S2048x64.size a ≤ S2048x64.size a
  h_S2048x64 : 0 < S2048x64.numel
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  bcast_S_S64 : S_.BroadcastsInDim S64 (![] : Fin 0 → Fin S64.rank)
  bcast_S_S1x64 : S_.BroadcastsInDim S1x64 (![] : Fin 0 → Fin S1x64.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  slices_S16384x10_S16384x4_0_0 : S16384x10.Slices ![0, 0] S16384x4
  reducesTo_S16384x4_S16384_d1 : S16384x4.ReducesTo [1] S16384
  bcast_S16384_S16384x1_0 : S16384.BroadcastsInDim S16384x1 (![0] : Fin 1 → Fin S16384x1.rank)
  bcast_S16384x1_S16384x4_0_1 : S16384x1.BroadcastsInDim S16384x4 (![0, 1] : Fin 2 → Fin S16384x4.rank)
  slices_S16384x10_S16384x6_0_4 : S16384x10.Slices ![0, 4] S16384x6
  reducesTo_S16384x6_S16384_d1 : S16384x6.ReducesTo [1] S16384
  bcast_S16384x1_S16384x6_0_1 : S16384x1.BroadcastsInDim S16384x6 (![0, 1] : Fin 2 → Fin S16384x6.rank)
  concatenates_S16384x10_S16384x4_S16384x6_S16384x10_S16384x30_d1 : Shape.Concatenates [S16384x10, S16384x4, S16384x6, S16384x10] S16384x30 1
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  slices_S128x16_S64x16_0_0 : S128x16.Slices ![0, 0] S64x16
  slices_S128x16_S64x16_64_0 : S128x16.Slices ![64, 0] S64x16
  bcast_S_S524288 : S_.BroadcastsInDim S524288 (![] : Fin 0 → Fin S524288.rank)
  bcast_S524288_S524288x1_0 : S524288.BroadcastsInDim S524288x1 (![0] : Fin 1 → Fin S524288x1.rank)
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S2048x128_S128x128_S2048x128_1_0_0_1_n_n_wf : DotDims.WF S2048x128 S128x128 S2048x128 [1] [0] [0] [1] [] []
  gather_S16384x128_S540672x1_S540672x128_1_0_n_n_0_1_1128_wf : GatherDims.WF S16384x128 S540672x1 S540672x128 [1] [0] [] [0] [] 1 ![1, 128]
  scatter_S16384x128_S540672x1_S540672x128_1_0_0_1_wf : ScatterDims.WF S16384x128 S540672x1 S540672x128 [1] [0] [0] 1
  dot_S2048x128_S128x64_S2048x64_1_0_0_1_n_n_wf : DotDims.WF S2048x128 S128x64 S2048x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x10_S16384x10_1_0_0_1_n_n_wf : DotDims.WF S16384x64 S64x10 S16384x10 [1] [0] [0] [1] [] []
  dot_S2048x64_S2048x64_S2048x2048_1_1_0_0_n_n_wf : DotDims.WF S2048x64 S2048x64 S2048x2048 [1] [1] [0] [0] [] []
  dot_S16384x64_S64x16_S16384x16_1_0_0_1_n_n_wf : DotDims.WF S16384x64 S64x16 S16384x16 [1] [0] [0] [1] [] []
  gather_S16384x16_S524288x1_S524288x16_1_0_n_n_0_1_116_wf : GatherDims.WF S16384x16 S524288x1 S524288x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .bf16 = 32 ∨ (Rect.block (s := S16384x128) S2048x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S16384x64.size a
  hwx1_2 : ∀ i : grid1.Coords, EltTy.bits .f32 = 32 ∨ (Rect.block (s := S16384x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .bf16 = 32 ∨ (Rect.block (s := S16384x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .bf16 = 32 ∨ (Rect.block (s := S16384x64) S2048x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S16384x16384.size a
  hwx2_2 : ∀ i : grid2.Coords, EltTy.bits .f32 = 32 ∨ (Rect.block (s := S16384x16384) S2048x2048.size (cc2_transform_2 i) (hinb2_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S16384x128_S540672x1_S540672x128_1_0_n_n_0_1_1128 : GatherDims S16384x128 S540672x1 S540672x128 where
  offsetDims := [1]
  collapsedSliceDims := [0]
  operandBatchingDims := []
  startIndicesBatchingDims := []
  startIndexMap := [0]
  indexVectorDim := 1
  sliceSizes := ![1, 128]
  wf := gather_S16384x128_S540672x1_S540672x128_1_0_n_n_0_1_1128_wf
def scatter_S16384x128_S540672x1_S540672x128_1_0_0_1 : ScatterDims S16384x128 S540672x1 S540672x128 where
  updateWindowDims := [1]
  insertedWindowDims := [0]
  scatterDimsToOperandDims := [0]
  indexVectorDim := 1
  wf := scatter_S16384x128_S540672x1_S540672x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x10_S16384x10_1_0_0_1_n_n : DotDims S16384x64 S64x10 S16384x10 where
  lhsContracting := [1]
  rhsContracting := [0]
  lhsNonContracting := [0]
  rhsNonContracting := [1]
  lhsBatch := []
  rhsBatch := []
  wf := dot_S16384x64_S64x10_S16384x10_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def gather_S16384x16_S524288x1_S524288x16_1_0_n_n_0_1_116 : GatherDims S16384x16 S524288x1 S524288x16 where
  offsetDims := [1]
  collapsedSliceDims := [0]
  operandBatchingDims := []
  startIndicesBatchingDims := []
  startIndexMap := [0]
  indexVectorDim := 1
  sliceSizes := ![1, 16]
  wf := gather_S16384x16_S524288x1_S524288x16_1_0_n_n_0_1_116_wf

abbrev win0_0 : Pipeline.Window sig grid0 :=
  Pipeline.Window.ofSpec (Memref.whole main_v27) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v148) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v148) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v149) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S524288x16 : Shape := ⟨2, ![524288, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S128x16 : Shape := ⟨2, ![128, 16]⟩
abbrev S16 : Shape := ⟨1, ![16]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S540672x128 : Shape := ⟨2, ![540672, 128]⟩
abbrev S1x128 : Shape := ⟨2, ![1, 128]⟩
abbrev S16384x64 : Shape := ⟨2, ![16384, 64]⟩
abbrev S540672x64 : Shape := ⟨2, ![540672, 64]⟩
abbrev S1x64 : Shape := ⟨2, ![1, 64]⟩
abbrev S16384x10 : Shape := ⟨2, ![16384, 10]⟩
abbrev S1x10 : Shape := ⟨2, ![1, 10]⟩
abbrev S16384x4 : Shape := ⟨2, ![16384, 4]⟩
abbrev S16384x1 : Shape := ⟨2, ![16384, 1]⟩
abbrev S16384x6 : Shape := ⟨2, ![16384, 6]⟩
abbrev S16384x30 : Shape := ⟨2, ![16384, 30]⟩
abbrev S64x16384 : Shape := ⟨2, ![64, 16384]⟩
abbrev S16384x16384 : Shape := ⟨2, ![16384, 16384]⟩
abbrev S524288x1 : Shape := ⟨2, ![524288, 1]⟩
abbrev S524288x64 : Shape := ⟨2, ![524288, 64]⟩
abbrev S524288x128 : Shape := ⟨2, ![524288, 128]⟩
abbrev S1x16 : Shape := ⟨2, ![1, 16]⟩

abbrev nBuf : Space → Nat
  | .hbm => 266
  | .vmem => 0
  | .smem => 0
  | _ => 0

abbrev hbmTy0_0 (i : Nat) : BufTy := match i % 128 with
  | 0 => ⟨S16384x128, .f32⟩
  | 1 => ⟨S2x524288, .i32⟩
  | 2 => ⟨S524288x16, .f32⟩
  | 3 => ⟨S128x128, .f32⟩
  | 4 => ⟨S128, .f32⟩
  | 5 => ⟨S128, .f32⟩
  | 6 => ⟨S128, .f32⟩
  | 7 => ⟨S128x64, .f32⟩
  | 8 => ⟨S64, .f32⟩
  | 9 => ⟨S64, .f32⟩
  | 10 => ⟨S64, .f32⟩
  | 11 => ⟨S64x10, .f32⟩
  | 12 => ⟨S10, .f32⟩
  | 13 => ⟨S64x10, .f32⟩
  | 14 => ⟨S10, .f32⟩
  | 15 => ⟨S64x10, .f32⟩
  | 16 => ⟨S10, .f32⟩
  | 17 => ⟨S128x16, .f32⟩
  | 18 => ⟨S16, .f32⟩
  | 19 => ⟨S16384, .i32⟩
  | 20 => ⟨S1x524288, .i32⟩
  | 21 => ⟨S524288, .i32⟩
  | 22 => ⟨S540672, .i32⟩
  | 23 => ⟨S1x524288, .i32⟩
  | 24 => ⟨S524288, .i32⟩
  | 25 => ⟨S540672, .i32⟩
  | 26 => ⟨S_, .f32⟩
  | 27 => ⟨S540672, .f32⟩
  | 28 => ⟨S_, .f32⟩
  | 29 => ⟨S16384, .f32⟩
  | 30 => ⟨S540672x1, .i32⟩
  | 31 => ⟨S16384, .f32⟩
  | 32 => ⟨S16384, .f32⟩
  | 33 => ⟨S_, .i32⟩
  | 34 => ⟨S540672, .i32⟩
  | 35 => ⟨S540672, .i1⟩
  | 36 => ⟨S_, .i32⟩
  | 37 => ⟨S540672, .i32⟩
  | 38 => ⟨S540672, .i32⟩
  | 39 => ⟨S540672, .i32⟩
  | 40 => ⟨S540672x1, .i32⟩
  | 41 => ⟨S540672, .f32⟩
  | 42 => ⟨S_, .i32⟩
  | 43 => ⟨S540672, .i32⟩
  | 44 => ⟨S540672, .i1⟩
  | 45 => ⟨S_, .i32⟩
  | 46 => ⟨S540672, .i32⟩
  | 47 => ⟨S540672, .i32⟩
  | 48 => ⟨S540672, .i32⟩
  | 49 => ⟨S540672x1, .i32⟩
  | 50 => ⟨S540672, .f32⟩
  | 51 => ⟨S540672, .f32⟩
  | 52 => ⟨S16384x128, .f32⟩
  | 53 => ⟨S_, .i32⟩
  | 54 => ⟨S540672, .i32⟩
  | 55 => ⟨S540672, .i1⟩
  | 56 => ⟨S_, .i32⟩
  | 57 => ⟨S540672, .i32⟩
  | 58 => ⟨S540672, .i32⟩
  | 59 => ⟨S540672, .i32⟩
  | 60 => ⟨S540672x1, .i32⟩
  | 61 => ⟨S540672x128, .f32⟩
  | 62 => ⟨S540672x1, .f32⟩
  | 63 => ⟨S540672x128, .f32⟩
  | 64 => ⟨S540672x128, .f32⟩
  | 65 => ⟨S_, .f32⟩
  | 66 => ⟨S16384x128, .f32⟩
  | 67 => ⟨S540672x1, .i32⟩
  | 68 => ⟨S16384x128, .f32⟩
  | 69 => ⟨S1x128, .f32⟩
  | 70 => ⟨S16384x128, .f32⟩
  | 71 => ⟨S16384x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S16384x128, .f32⟩
  | 85 => ⟨S16384x128, .f32⟩
  | 86 => ⟨S16384x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S16384x128, .f32⟩
  | 102 => ⟨S16384x128, .f32⟩
  | 103 => ⟨S1x128, .f32⟩
  | 104 => ⟨S16384x128, .f32⟩
  | 105 => ⟨S16384x128, .f32⟩
  | 106 => ⟨S_, .f32⟩
  | 107 => ⟨S128, .f32⟩
  | 108 => ⟨S128, .f32⟩
  | 109 => ⟨S128, .f32⟩
  | 110 => ⟨S1x128, .f32⟩
  | 111 => ⟨S16384x128, .f32⟩
  | 112 => ⟨S16384x128, .f32⟩
  | 113 => ⟨S1x128, .f32⟩
  | 114 => ⟨S16384x128, .f32⟩
  | 115 => ⟨S16384x128, .f32⟩
  | 116 => ⟨S_, .f32⟩
  | 117 => ⟨S16384x128, .f32⟩
  | 118 => ⟨S16384x128, .f32⟩
  | 119 => ⟨S16384x64, .f32⟩
  | 120 => ⟨S_, .i32⟩
  | 121 => ⟨S540672, .i32⟩
  | 122 => ⟨S540672, .i1⟩
  | 123 => ⟨S_, .i32⟩
  | 124 => ⟨S540672, .i32⟩
  | 125 => ⟨S540672, .i32⟩
  | 126 => ⟨S540672, .i32⟩
  | 127 => ⟨S540672x1, .i32⟩
  | _ => ⟨S16384x128, .f32⟩

abbrev hbmTy0_1 (i : Nat) : BufTy := match i % 128 with
  | 0 => ⟨S540672x64, .f32⟩
  | 1 => ⟨S540672x1, .f32⟩
  | 2 => ⟨S540672x64, .f32⟩
  | 3 => ⟨S540672x64, .f32⟩
  | 4 => ⟨S_, .f32⟩
  | 5 => ⟨S16384x64, .f32⟩
  | 6 => ⟨S540672x1, .i32⟩
  | 7 => ⟨S16384x64, .f32⟩
  | 8 => ⟨S1x64, .f32⟩
  | 9 => ⟨S16384x64, .f32⟩
  | 10 => ⟨S16384x64, .f32⟩
  | 11 => ⟨S_, .f32⟩
  | 12 => ⟨S64, .f32⟩
  | 13 => ⟨S_, .f32⟩
  | 14 => ⟨S64, .f32⟩
  | 15 => ⟨S64, .f32⟩
  | 16 => ⟨S_, .i32⟩
  | 17 => ⟨S_, .f32⟩
  | 18 => ⟨S64, .f32⟩
  | 19 => ⟨S1x64, .f32⟩
  | 20 => ⟨S_, .f32⟩
  | 21 => ⟨S1x64, .f32⟩
  | 22 => ⟨S1x64, .f32⟩
  | 23 => ⟨S16384x64, .f32⟩
  | 24 => ⟨S16384x64, .f32⟩
  | 25 => ⟨S16384x64, .f32⟩
  | 26 => ⟨S_, .f32⟩
  | 27 => ⟨S_, .f32⟩
  | 28 => ⟨S_, .f32⟩
  | 29 => ⟨S_, .f32⟩
  | 30 => ⟨S64, .f32⟩
  | 31 => ⟨S64, .f32⟩
  | 32 => ⟨S64, .f32⟩
  | 33 => ⟨S_, .f32⟩
  | 34 => ⟨S_, .i1⟩
  | 35 => ⟨S_, .f32⟩
  | 36 => ⟨S_, .f32⟩
  | 37 => ⟨S64, .f32⟩
  | 38 => ⟨S64, .f32⟩
  | 39 => ⟨S1x64, .f32⟩
  | 40 => ⟨S16384x64, .f32⟩
  | 41 => ⟨S16384x64, .f32⟩
  | 42 => ⟨S1x64, .f32⟩
  | 43 => ⟨S16384x64, .f32⟩
  | 44 => ⟨S16384x64, .f32⟩
  | 45 => ⟨S_, .f32⟩
  | 46 => ⟨S64, .f32⟩
  | 47 => ⟨S64, .f32⟩
  | 48 => ⟨S64, .f32⟩
  | 49 => ⟨S1x64, .f32⟩
  | 50 => ⟨S16384x64, .f32⟩
  | 51 => ⟨S16384x64, .f32⟩
  | 52 => ⟨S1x64, .f32⟩
  | 53 => ⟨S16384x64, .f32⟩
  | 54 => ⟨S16384x64, .f32⟩
  | 55 => ⟨S_, .f32⟩
  | 56 => ⟨S16384x64, .f32⟩
  | 57 => ⟨S16384x64, .f32⟩
  | 58 => ⟨S16384x10, .f32⟩
  | 59 => ⟨S1x10, .f32⟩
  | 60 => ⟨S16384x10, .f32⟩
  | 61 => ⟨S16384x10, .f32⟩
  | 62 => ⟨S16384x10, .f32⟩
  | 63 => ⟨S16384x10, .f32⟩
  | 64 => ⟨S_, .f32⟩
  | 65 => ⟨S16384x10, .f32⟩
  | 66 => ⟨S16384x10, .f32⟩
  | 67 => ⟨S_, .f32⟩
  | 68 => ⟨S16384x10, .f32⟩
  | 69 => ⟨S16384x10, .f32⟩
  | 70 => ⟨S16384x10, .f32⟩
  | 71 => ⟨S1x10, .f32⟩
  | 72 => ⟨S16384x10, .f32⟩
  | 73 => ⟨S16384x10, .f32⟩
  | 74 => ⟨S16384x4, .f32⟩
  | 75 => ⟨S_, .f32⟩
  | 76 => ⟨S16384, .f32⟩
  | 77 => ⟨S_, .f32⟩
  | 78 => ⟨S16384, .f32⟩
  | 79 => ⟨S16384, .f32⟩
  | 80 => ⟨S16384x1, .f32⟩
  | 81 => ⟨S16384x4, .f32⟩
  | 82 => ⟨S16384x4, .f32⟩
  | 83 => ⟨S16384x4, .f32⟩
  | 84 => ⟨S_, .f32⟩
  | 85 => ⟨S16384, .f32⟩
  | 86 => ⟨S16384x1, .f32⟩
  | 87 => ⟨S16384x4, .f32⟩
  | 88 => ⟨S16384x4, .f32⟩
  | 89 => ⟨S16384x6, .f32⟩
  | 90 => ⟨S_, .f32⟩
  | 91 => ⟨S16384, .f32⟩
  | 92 => ⟨S_, .f32⟩
  | 93 => ⟨S16384, .f32⟩
  | 94 => ⟨S16384, .f32⟩
  | 95 => ⟨S16384x1, .f32⟩
  | 96 => ⟨S16384x6, .f32⟩
  | 97 => ⟨S16384x6, .f32⟩
  | 98 => ⟨S16384x6, .f32⟩
  | 99 => ⟨S_, .f32⟩
  | 100 => ⟨S16384, .f32⟩
  | 101 => ⟨S16384x1, .f32⟩
  | 102 => ⟨S16384x6, .f32⟩
  | 103 => ⟨S16384x6, .f32⟩
  | 104 => ⟨S16384x10, .f32⟩
  | 105 => ⟨S1x10, .f32⟩
  | 106 => ⟨S16384x10, .f32⟩
  | 107 => ⟨S16384x10, .f32⟩
  | 108 => ⟨S16384x30, .f32⟩
  | 109 => ⟨S64x16384, .f32⟩
  | 110 => ⟨S16384x16384, .f32⟩
  | 111 => ⟨S1x524288, .i32⟩
  | 112 => ⟨S524288, .i32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S524288x64, .f32⟩
  | 122 => ⟨S1x524288, .i32⟩
  | 123 => ⟨S524288, .i32⟩
  | 124 => ⟨S_, .i32⟩
  | 125 => ⟨S524288, .i32⟩
  | 126 => ⟨S524288, .i1⟩
  | 127 => ⟨S_, .i32⟩
  | _ => ⟨S16384x128, .f32⟩

abbrev hbmTy0_2 (i : Nat) : BufTy := match i % 128 with
  | 0 => ⟨S524288, .i32⟩
  | 1 => ⟨S524288, .i32⟩
  | 2 => ⟨S524288, .i32⟩
  | 3 => ⟨S524288x1, .i32⟩
  | 4 => ⟨S524288x64, .f32⟩
  | 5 => ⟨S524288x128, .f32⟩
  | 6 => ⟨S524288x16, .f32⟩
  | 7 => ⟨S1x16, .f32⟩
  | 8 => ⟨S524288x16, .f32⟩
  | 9 => ⟨S524288x16, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_c_9 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_10 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_call1_cst : Ref sig .tc := ⟨.hbm, 116, rfl⟩
abbrev main_call1_v0 : Ref sig .tc := ⟨.hbm, 117, rfl⟩
abbrev main_v63 : Ref sig .tc := ⟨.hbm, 118, rfl⟩
abbrev main_v64 : Ref sig .tc := ⟨.hbm, 119, rfl⟩
abbrev main_c_11 : Ref sig .tc := ⟨.hbm, 120, rfl⟩
abbrev main_v65 : Ref sig .tc := ⟨.hbm, 121, rfl⟩
abbrev main_v66 : Ref sig .tc := ⟨.hbm, 122, rfl⟩
abbrev main_c_12 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_13 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_14 : Ref sig .tc := ⟨.hbm, 139, rfl⟩
abbrev main_v81 : Ref sig .tc := ⟨.hbm, 140, rfl⟩
abbrev main_cst_15 : Ref sig .tc := ⟨.hbm, 141, rfl⟩
abbrev main_v82 : Ref sig .tc := ⟨.hbm, 142, rfl⟩
abbrev main_v83 : Ref sig .tc := ⟨.hbm, 143, rfl⟩
abbrev main_c_16 : Ref sig .tc := ⟨.hbm, 144, rfl⟩
abbrev main_call2_cst : Ref sig .tc := ⟨.hbm, 145, rfl⟩
abbrev main_call2_v0 : Ref sig .tc := ⟨.hbm, 146, rfl⟩
abbrev main_call2_v1 : Ref sig .tc := ⟨.hbm, 147, rfl⟩
abbrev main_call2_cst_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_cst_1 : Ref sig .tc := ⟨.hbm, 155, rfl⟩
abbrev main_call2_v8 : Ref sig .tc := ⟨.hbm, 156, rfl⟩
abbrev main_call2_cst_2 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_cst_3 : Ref sig .tc := ⟨.hbm, 161, rfl⟩
abbrev main_call2_v12 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_17 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_call3_cst : Ref sig .tc := ⟨.hbm, 183, rfl⟩
abbrev main_call3_v0 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_cst_18 : Ref sig .tc := ⟨.hbm, 192, rfl⟩
abbrev main_v107 : Ref sig .tc := ⟨.hbm, 193, rfl⟩
abbrev main_v108 : Ref sig .tc := ⟨.hbm, 194, rfl⟩
abbrev main_cst_19 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_cst_20 : Ref sig .tc := ⟨.hbm, 203, rfl⟩
abbrev main_v116 : Ref sig .tc := ⟨.hbm, 204, rfl⟩
abbrev main_cst_21 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_22 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_cst_23 : Ref sig .tc := ⟨.hbm, 218, rfl⟩
abbrev main_v128 : Ref sig .tc := ⟨.hbm, 219, rfl⟩
abbrev main_cst_24 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_cst_25 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_c_26 : Ref sig .tc := ⟨.hbm, 241, rfl⟩
abbrev main_v148 : Ref sig .tc := ⟨.hbm, 242, rfl⟩
abbrev main_v149 : Ref sig .tc := ⟨.hbm, 243, rfl⟩
abbrev main_c_27 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_c_28 : Ref sig .tc := ⟨.hbm, 252, rfl⟩
abbrev main_v157 : Ref sig .tc := ⟨.hbm, 253, rfl⟩
abbrev main_v158 : Ref sig .tc := ⟨.hbm, 254, rfl⟩
abbrev main_c_29 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x128_0_1 : S540672x1.BroadcastsInDim S540672x128 (![0, 1] : Fin 2 → Fin S540672x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S128_d0 : S16384x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  bcast_S_S64 : S_.BroadcastsInDim S64 (![] : Fin 0 → Fin S64.rank)
  bcast_S_S1x64 : S_.BroadcastsInDim S1x64 (![] : Fin 0 → Fin S1x64.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  slices_S16384x10_S16384x4_0_0 : S16384x10.Slices ![0, 0] S16384x4
  reducesTo_S16384x4_S16384_d1 : S16384x4.ReducesTo [1] S16384
  bcast_S16384_S16384x1_0 : S16384.BroadcastsInDim S16384x1 (![0] : Fin 1 → Fin S16384x1.rank)
  bcast_S16384x1_S16384x4_0_1 : S16384x1.BroadcastsInDim S16384x4 (![0, 1] : Fin 2 → Fin S16384x4.rank)
  slices_S16384x10_S16384x6_0_4 : S16384x10.Slices ![0, 4] S16384x6
  reducesTo_S16384x6_S16384_d1 : S16384x6.ReducesTo [1] S16384
  bcast_S16384x1_S16384x6_0_1 : S16384x1.BroadcastsInDim S16384x6 (![0, 1] : Fin 2 → Fin S16384x6.rank)
  concatenates_S16384x10_S16384x4_S16384x6_S16384x10_S16384x30_d1 : Shape.Concatenates [S16384x10, S16384x4, S16384x6, S16384x10] S16384x30 1
  transposes_S16384x64_S64x16384_1_0 : S16384x64.Transposes [1, 0] S64x16384
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x128_S128x128_S16384x128_1_0_0_1_n_n_wf : DotDims.WF S16384x128 S128x128 S16384x128 [1] [0] [0] [1] [] []
  gather_S16384x128_S540672x1_S540672x128_1_0_n_n_0_1_1128_wf : GatherDims.WF S16384x128 S540672x1 S540672x128 [1] [0] [] [0] [] 1 ![1, 128]
  scatter_S16384x128_S540672x1_S540672x128_1_0_0_1_wf : ScatterDims.WF S16384x128 S540672x1 S540672x128 [1] [0] [0] 1
  dot_S16384x128_S128x64_S16384x64_1_0_0_1_n_n_wf : DotDims.WF S16384x128 S128x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x10_S16384x10_1_0_0_1_n_n_wf : DotDims.WF S16384x64 S64x10 S16384x10 [1] [0] [0] [1] [] []
  dot_S16384x64_S64x16384_S16384x16384_1_0_0_1_n_n_wf : DotDims.WF S16384x64 S64x16384 S16384x16384 [1] [0] [0] [1] [] []
  gather_S16384x64_S524288x1_S524288x64_1_0_n_n_0_1_164_wf : GatherDims.WF S16384x64 S524288x1 S524288x64 [1] [0] [] [0] [] 1 ![1, 64]
  dot_S524288x128_S128x16_S524288x16_1_0_0_1_n_n_wf : DotDims.WF S524288x128 S128x16 S524288x16 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S16384x128_S540672x1_S540672x128_1_0_n_n_0_1_1128 : GatherDims S16384x128 S540672x1 S540672x128 where
  offsetDims := [1]
  collapsedSliceDims := [0]
  operandBatchingDims := []
  startIndicesBatchingDims := []
  startIndexMap := [0]
  indexVectorDim := 1
  sliceSizes := ![1, 128]
  wf := gather_S16384x128_S540672x1_S540672x128_1_0_n_n_0_1_1128_wf
def scatter_S16384x128_S540672x1_S540672x128_1_0_0_1 : ScatterDims S16384x128 S540672x1 S540672x128 where
  updateWindowDims := [1]
  insertedWindowDims := [0]
  scatterDimsToOperandDims := [0]
  indexVectorDim := 1
  wf := scatter_S16384x128_S540672x1_S540672x128_1_0_0_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x10_S16384x10_1_0_0_1_n_n : DotDims S16384x64 S64x10 S16384x10 where
  lhsContracting := [1]
  rhsContracting := [0]
  lhsNonContracting := [0]
  rhsNonContracting := [1]
  lhsBatch := []
  rhsBatch := []
  wf := dot_S16384x64_S64x10_S16384x10_1_0_0_1_n_n_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def dot_S524288x128_S128x16_S524288x16_1_0_0_1_n_n : DotDims S524288x128 S128x16 S524288x16 where
  lhsContracting := [1]
  rhsContracting := [0]
  lhsNonContracting := [0]
  rhsNonContracting := [1]
  lhsBatch := []
  rhsBatch := []
  wf := dot_S524288x128_S128x16_S524288x16_1_0_0_1_n_n_wf

class Facts : Prop extends Facts₀ where

variable [Facts]
-- ==== Proof.KB.Reg0.lean ====
/- The word-level kernel program is the idealized one's text under another name, and these modules are generic in the element interpretation. -/
/-
  Pallas call 0 (x·w1, an [16384,128] by [128,128] product tiled in eight row blocks of 2048) as the pipeline sees it,
  at ANY contents V of the TensorCore's buffers when the call is entered: each window's block at a grid point, what
  the body leaves in the output window's staging buffer (the one store's value over the two loaded blocks), the body's
  triple, the proof data, and the body obligation at every point.
-/
import proofs.«422874_j81398220194430_3_alg».proof.Proof.Gen.Kernel.Launch
import proofs.«422874_j81398220194430_3_alg».proof.Proof.Gen.Kernel.Skeleton
import proofs.«422874_j81398220194430_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S2048x128 := Rect.unit (s := S2048x128) ![0, 0] S2048x128.size inb_S2048x128_S2048x128_0_0
abbrev rw0 : Rect S128x128 := Rect.unit (s := S128x128) ![0, 0] S128x128.size inb_S128x128_S128x128_0_0
abbrev ro0 : Rect S2048x128 := Rect.unit (s := S2048x128) ![0, 0] S2048x128.size inb_S2048x128_S2048x128_0_0

/-- The output window's staging buffer after the body: its one store, of the product of the two loaded blocks. -/
def out0_2 (x0 : Vec F S2048x128 .bf16) (x1 : Vec F S128x128 .bf16) : Vec F S2048x128 .f32 :=
  View.canon [⟨ro0, k0_pay1 (View.ld x0 rx0) (View.ld x1 rw0)⟩]

/-- The one store covers the buffer. -/
theorem cover0_2 (p0 : Vec F S2048x128 .f32) (y : S2048x128.Idx) :
    ∃ pc ∈ ([⟨ro0, p0⟩] : List (View.Piece (Elt F) S2048x128 .f32)), y ∈ pc.1.set :=
  View.cover_of_tiled [⟨ro0, p0⟩] S2048x128.size (by rfl) y

set_option maxHeartbeats 1000000 in
/-- The body on whole staging memrefs: the inputs' at contents x0, x1 and the output's at anything; it returns with
    the inputs' as they were and the output's at out0_2 x0 x1. -/
theorem sound_kernel0 (c : Dev nD) (E : Set ℕ) (i : grid0.Coords)
    (arg1 : Memref sig .tc .vmem S2048x128 .bf16) (harg1 : arg1.IsWhole) (arg2 : Memref sig .tc .vmem S128x128 .bf16) (harg2 : arg2.IsWhole)
    (arg3 : Memref sig .tc .vmem S2048x128 .f32) (harg3 : arg3.IsWhole)
    (x0 : Vec F S2048x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the call finds them; after the body at point t each input's
    buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/- The word-level kernel program is the idealized one's text under another name, and these modules are generic in the element interpretation. -/
/- GENERATED by: python3 scratch/mksiblings.py   (run in the unit directory; template proof/Proof/KI/Reg0.lean; substitutions: call 0 -> 1, blocks S2048x128 / S128x64 -> S2048x64)
   Pallas call 1 (h·w2, an [16384,128] by [128,64] product in eight row blocks of 2048) as the pipeline sees it, at any entry contents V: the text of call 0's module at call 1's sizes. -/
import proofs.«422874_j81398220194430_3_alg».proof.Proof.Gen.Kernel.Launch
import proofs.«422874_j81398220194430_3_alg».proof.Proof.Gen.Kernel.Skeleton
import proofs.«422874_j81398220194430_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rx1 : Rect S2048x128 := Rect.unit (s := S2048x128) ![0, 0] S2048x128.size inb_S2048x128_S2048x128_0_0
abbrev rw1 : Rect S128x64 := Rect.unit (s := S128x64) ![0, 0] S128x64.size inb_S128x64_S128x64_0_0
abbrev ro1 : Rect S2048x64 := Rect.unit (s := S2048x64) ![0, 0] S2048x64.size inb_S2048x64_S2048x64_0_0

/-- The output window's staging buffer after the body: its one store, of the product of the two loaded blocks. -/
def out1_2 (x0 : Vec F S2048x128 .bf16) (x1 : Vec F S128x64 .bf16) : Vec F S2048x64 .f32 :=
  View.canon [⟨ro1, k1_pay1 (View.ld x0 rx1) (View.ld x1 rw1)⟩]

/-- The one store covers the buffer. -/
theorem cover1_2 (p0 : Vec F S2048x64 .f32) (y : S2048x64.Idx) :
    ∃ pc ∈ ([⟨ro1, p0⟩] : List (View.Piece (Elt F) S2048x64 .f32)), y ∈ pc.1.set :=
  View.cover_of_tiled [⟨ro1, p0⟩] S2048x64.size (by rfl) y

set_option maxHeartbeats 1000000 in
/-- The body on whole staging memrefs: the inputs' at contents x0, x1 and the output's at anything; it returns with
    the inputs' as they were and the output's at out1_2 x0 x1. -/
theorem sound_kernel1 (c : Dev nD) (E : Set ℕ) (i : grid1.Coords)
    (arg1 : Memref sig .tc .vmem S2048x128 .bf16) (harg1 : arg1.IsWhole) (arg2 : Memref sig .tc .vmem S128x64 .bf16) (harg2 : arg2.IsWhole)
    (arg3 : Memref sig .tc .vmem S2048x64 .f32) (harg3 : arg3.IsWhole)
    (x0 : Vec F S2048x128 .bf16) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 0 on core c: the arrays as the call finds them; after the body at point t each input's
    buffer at its block and the output's at the product of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/- The word-level kernel program is the idealized one's text under another name, and these modules are generic in the element interpretation. -/
/- GENERATED by: python3 scratch/mksiblings.py   (run in the unit directory; template proof/Proof/KI/Reg0.lean; substitutions: call 0 -> 2, blocks S2048x64 / S2048x64 -> S2048x2048)
   Pallas call 2 (z·zᵀ, tiled 8 by 8 in blocks of 2048 rows by 2048 columns; both input windows read the SAME array, so each holds half of its share) as the pipeline sees it, at any entry contents V: the text of call 0's module at call 2's sizes. -/
import proofs.«422874_j81398220194430_3_alg».proof.Proof.Gen.Kernel.Launch
import proofs.«422874_j81398220194430_3_alg».proof.Proof.Gen.Kernel.Skeleton
import proofs.«422874_j81398220194430_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rx2 : Rect S2048x64 := Rect.unit (s := S2048x64) ![0, 0] S2048x64.size inb_S2048x64_S2048x64_0_0
abbrev rw2 : Rect S2048x64 := Rect.unit (s := S2048x64) ![0, 0] S2048x64.size inb_S2048x64_S2048x64_0_0
abbrev ro2 : Rect S2048x2048 := Rect.unit (s := S2048x2048) ![0, 0] S2048x2048.size inb_S2048x2048_S2048x2048_0_0

/-- The output window's staging buffer after the body: its one store, of the product of the two loaded blocks. -/
def out2_2 (x0 : Vec F S2048x64 .bf16) (x1 : Vec F S2048x64 .bf16) : Vec F S2048x2048 .f32 :=
  View.canon [⟨ro2, k2_pay1 (View.ld x0 rx2) (View.ld x1 rw2)⟩]

/-- The one store covers the buffer. -/
theorem cover2_2 (p0 : Vec F S2048x2048 .f32) (y : S2048x2048.Idx) :
    ∃ pc ∈ ([⟨ro2, p0⟩] : List (View.Piece (Elt F) S2048x2048 .f32)), y ∈ pc.1.set :=
  View.cover_of_tiled [⟨ro2, p0⟩] S2048x2048.size (by rfl) y

set_option maxHeartbeats 1000000 in
/-- The body on whole staging memrefs: the inputs' at contents x0, x1 and the output's at anything; it returns with
    the inputs' as they were and the output's at out2_2 x0 x1. -/
theorem sound_kernel2 (c : Dev nD) (E : Set ℕ) (i : grid2.Coords)
    (arg1 : Memref sig .tc .vmem S2048x64 .bf16) (harg1 : arg1.IsWhole) (arg2 : Memref sig .tc .vmem S2048x64 .bf16) (harg2 : arg2.IsWhole)
    (arg3 : Memref sig .tc .vmem S2048x2048 .f32) (harg3 : arg3.IsWhole)
    (x0 : Vec F S2048x64 .bf16) (x1 : Vec F S2048x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__zzt_kernel i arg1 harg1 arg2 harg2 arg3 harg3) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 0 on core c: the arrays as the call finds them; after the body at point t each input's
    buffer at its block and the output's at the product of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Data.lean ====
/- The word-level kernel program is the idealized one's text under another name, and these modules are generic in the element interpretation. -/
/-
  The arrays the three matrix products leave behind, and the pipelines' proof data at the contents each product is
  entered from. Product 0 is entered from the launch contents run through the opening host operations, and leaves
  its output array; product 1 is entered from those contents with that array in place, run through the first
  layer's host operations; product 2 likewise after the second layer's. Each output array is the fold of the
  write-backs of that product's grid points.
-/
import proofs.«422874_j81398220194430_3_alg».proof.Proof.KB.RunCond
import proofs.«422874_j81398220194430_3_alg».proof.Proof.KB.Reg0
import proofs.«422874_j81398220194430_3_alg».proof.Proof.KB.Reg1
import proofs.«422874_j81398220194430_3_alg».proof.Proof.KB.Reg2

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- A valuation of a core's buffers read at the TensorCore's references. -/
abbrev atRefs (W : Dev nD → Valuation τ sig (Elt F)) :
    (c : Dev nD) → (b : Ref sig .tc) → Buf (Elt F) ((c : Thread nD τ).loc b) := fun c b => W c b

/-- What product 0 leaves in its output array. -/
abbrev arr0 (c : Dev nD) : Buf (Elt F) ((c : Thread nD τ).loc main_v29) := (dat0 (atRefs (V1 m)) c).arrAt 2 cfg0.N

/-- The regions' leavings with only product 0's known. -/
def outsA : Outs (F := F) := fun _ r c => Function.update (V1 m c) main_v29 (arr0 m c) r

/-- What product 1 leaves in its output array. -/
abbrev arr1 (c : Dev nD) : Buf (Elt F) ((c : Thread nD τ).loc main_v68) := (dat1 (atRefs (V7 m (outsA m))) c).arrAt 2 cfg1.N

/-- The regions' leavings with products 0 and 1 known. -/
def outsB : Outs (F := F) := fun J r c =>
  if J = 8 then Function.update (V7 m (outsA m) c) main_v68 (arr1 m c) r else outsA m J r c

/-- What product 2 leaves in its output array. -/
abbrev arr2 (c : Dev nD) : Buf (Elt F) ((c : Thread nD τ).loc main_v149) := (dat2 (atRefs (V13 m (outsB m))) c).arrAt 2 cfg2.N

/-- What each product leaves in its output array: the unknowns of the run, now known. -/
def outs : Outs (F := F) := fun J r c =>
  if J = 14 then Function.update (V13 m (outsB m) c) main_v149 (arr2 m c) r else outsB m J r c

theorem outs_2A (c : Dev nD) : outs m 2 main_v29 c = outsA m 2 main_v29 c := rfl
theorem outs_8B (c : Dev nD) : outs m 8 main_v68 c = outsB m 8 main_v68 c := rfl
theorem outsB_2A (c : Dev nD) : outsB m 2 main_v29 c = outsA m 2 main_v29 c := rfl

theorem V7_outs (c : Dev nD) : V7 m (outs m) c = V7 m (outsA m) c := by
  show StableHlo.after hostOps1_4 (StableHlo.after hostOps1_3 (StableHlo.after hostOps1_2 (StableHlo.after hostOps1_1
    (StableHlo.after hostOps1 (Function.update (V1 m c) main_v29 (outs m 2 main_v29 c)))))) = _
  rw [outs_2A]

theorem V13_outs (c : Dev nD) : V13 m (outs m) c = V13 m (outsB m) c := by
  show StableHlo.after hostOps2_4 (StableHlo.after hostOps2_3 (StableHlo.after hostOps2_2 (StableHlo.after hostOps2_1
    (StableHlo.after hostOps2 (Function.update (V7 m (outs m) c) main_v68 (outs m 8 main_v68 c)))))) = _
  rw [outs_8B, V7_outs]
  show _ = StableHlo.after hostOps2_4 (StableHlo.after hostOps2_3 (StableHlo.after hostOps2_2 (StableHlo.after hostOps2_1
    (StableHlo.after hostOps2 (Function.update (V7 m (outsB m) c) main_v68 (outsB m 8 main_v68 c))))))
  have h7 : V7 m (outsB m) c = V7 m (outsA m) c := by
    show StableHlo.after hostOps1_4 (StableHlo.after hostOps1_3 (StableHlo.after hostOps1_2 (StableHlo.after hostOps1_1
      (StableHlo.after hostOps1 (Function.update (V1 m c) main_v29 (outsB m 2 main_v29 c)))))) = _
    rw [outsB_2A]
  rw [h7]

/-- Product 0's output array is the fold of its grid points' write-backs from the opening contents. -/
theorem outs_2 (c : Dev nD) : outs m 2 main_v29 c = (dat0 (atRefs (V1 m)) c).arrAt 2 cfg0.N := by
  show Function.update (V1 m c) main_v29 (arr0 m c) main_v29 = _
  rw [Function.update_self]

/-- Product 1's, from the contents it is entered from. -/
theorem outs_8 (c : Dev nD) : outs m 8 main_v68 c = (dat1 (atRefs (V7 m (outs m))) c).arrAt 2 cfg1.N := by
  rw [show atRefs (V7 m (outs m)) = atRefs (V7 m (outsA m)) from funext fun c => funext fun b => congrFun (V7_outs m c) _]
  show Function.update (V7 m (outsA m) c) main_v68 (arr1 m c) main_v68 = _
  rw [Function.update_self]

/-- Product 2's, from the contents it is entered from. -/
theorem outs_14 (c : Dev nD) : outs m 14 main_v149 c = (dat2 (atRefs (V13 m (outs m))) c).arrAt 2 cfg2.N := by
  rw [show atRefs (V13 m (outs m)) = atRefs (V13 m (outsB m)) from funext fun c => funext fun b => congrFun (V13_outs m c) _]
  show Function.update (V13 m (outsB m) c) main_v149 (arr2 m c) main_v149 = _
  rw [Function.update_self]

/-- Every pipeline's proof data, each at the contents its product is entered from. -/
def pdats : (p : Fin 3) → (c : Dev nD) → Dat τ (Elt F) Unit ℕ (UR sig nD τ) ℕ (cfgs p) c
  | ⟨0, _⟩ => fun c => dat0 (atRefs (V1 m)) c
  | ⟨1, _⟩ => fun c => dat1 (atRefs (V7 m (outs m))) c
  | ⟨2, _⟩ => fun c => dat2 (atRefs (V13 m (outs m))) c

local notation "𝕄" => MT nD τ sig Unit (Elt F) ℕ (UR sig nD τ) ℕ

/-- What rides beside the buffers between two items of the program: the core's generator register at some state, and
    the core owing nothing. -/
abbrev Rr (c : Dev nD) : sProp 𝕄 :=
  iprop((∃ r, prngReg c r) ∗ ∃ W, owes (c : Thread nD τ) (0 : CellTallies nD τ sig Unit) W)

/-- No core owes another anything: no level is assigned. -/
abbrev Lz : GSem nD τ sig → Finset Unit := fun _ => ∅
abbrev lvz : GSem nD τ sig → Unit → ℕ := fun _ _ => 0

end Cert.Kernel.Hand

end
-- ==== Proof.KB.Run.lean ====
/- The word-level kernel program is the idealized one's text under another name, and these modules are generic in the element interpretation. -/
/-
  The kernel program's run: every weakly fair execution of @main from any memory with zero counters terminates, and
  every final memory holds each unscoped TensorCore buffer at the last valuation — the launch contents run through the
  host stretches, with each matrix product's output array in place at what its pipeline leaves. Given here for any
  three segment records of the regions that are entered from and left at the thread states "every unscoped buffer held
  at the valuation, the generator register at some state, nothing owed".
-/
import proofs.«422874_j81398220194430_3_alg».proof.Proof.KB.Data
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The run over the three regions' records. -/
theorem run_of_regions (ρ : Dev nD → PrngReg)
    (R0 : RegionSeg (pcfgs (F := F)) adm (pdats m) () defs₀ Variants.none Lz lvz 0)
    (hpre0 : ∀ c : Dev nD, R0.pre c = iprop(StableHlo.held (c : Thread nD τ) (Pipeline.ucRefs τ sig) (V1 m c) ∗ Rr c))
    (hpost0 : ∀ c : Dev nD, R0.post c = iprop(StableHlo.held (c : Thread nD τ) (Pipeline.ucRefs τ sig) (V2 m (outs m) c) ∗ Rr c))
    (R1 : RegionSeg (pcfgs (F := F)) adm (pdats m) () defs₀ Variants.none Lz lvz 1)
    (hpre1 : ∀ c : Dev nD, R1.pre c = iprop(StableHlo.held (c : Thread nD τ) (Pipeline.ucRefs τ sig) (V7 m (outs m) c) ∗ Rr c))
    (hpost1 : ∀ c : Dev nD, R1.post c = iprop(StableHlo.held (c : Thread nD τ) (Pipeline.ucRefs τ sig) (V8 m (outs m) c) ∗ Rr c))
    (R2 : RegionSeg (pcfgs (F := F)) adm (pdats m) () defs₀ Variants.none Lz lvz 2)
    (hpre2 : ∀ c : Dev nD, R2.pre c = iprop(StableHlo.held (c : Thread nD τ) (Pipeline.ucRefs τ sig) (V13 m (outs m) c) ∗ Rr c))
    (hpost2 : ∀ c : Dev nD, R2.post c = iprop(StableHlo.held (c : Thread nD τ) (Pipeline.ucRefs τ sig) (V14 m (outs m) c) ∗ Rr c)) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_cond m (emb₁) () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rr c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ bigSep Finset.univ (fun c : Dev nD => (Rr c : sProp 𝕄)) :=
        bigSep_mono fun c _ => hc c
      iintro ⟨H, -⟩
      imodintro
      iapply hmono
      iexact H)
    (hE3 := fun c => by
      iintro ⟨-, HO⟩
      iexact HO)
    R0 (fun c => by rw [hpre0]) (fun c => by rw [hpost0])
    R1 (fun c => by rw [hpre1]) (fun c => by rw [hpost1])
    R2 (fun c => by rw [hpre2]) (fun c => by rw [hpost2])

end Cert.Kernel.Hand

end
-- ==== Proof.KB.Seg0.lean ====
/- The word-level kernel program is the idealized one's text under another name, and these modules are generic in the element interpretation. -/
/-
  The segment record of matrix product 0 over the thread state "every unscoped buffer of the core held at a
  valuation, beside the generator register at some state and the core owing nothing". The product is entered from
  the valuation before it and left at that valuation with its output array replaced by the fold of its grid points'
  write-backs. Its three arrays are split out of the unscoped buffers at entry and put back at exit: the two input
  arrays are never written, the output array holds the fold, every other buffer is untouched.
-/
import proofs.«422874_j81398220194430_3_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

variable (m : (ℓ : Loc nD τ sig) → Buf (Elt F) ℓ)

local notation "𝕄" => MT nD τ sig Unit (Elt F) ℕ (UR sig nD τ) ℕ

/-- At the product's exit each of its arrays holds what the valuation after it says: an input array is never
    written and the valuation keeps it; the output array is the fold of the write-backs, which is what the
    valuation puts there. -/
theorem hF0 (c : Dev nD) (w : Fin cfg0.W) :
    (pdats m 0 c).arrAt w cfg0.N = atRefs (V2 m (outs m)) c (Pipeline.arrRef spec0 w) :=
  match w with
  | ⟨0, _⟩ =>
    (((dat0 (atRefs (V1 m)) c).arrAt_in 0 rfl _).trans (A_eq0 (atRefs (V1 m)) c 0)).trans
      (V2_of m (outs m) c (Pipeline.arrRef spec0 0) (by decide)).symm
  | ⟨1, _⟩ =>
    (((dat0 (atRefs (V1 m)) c).arrAt_in 1 rfl _).trans (A_eq0 (atRefs (V1 m)) c 1)).trans
      (V2_of m (outs m) c (Pipeline.arrRef spec0 1) (by decide)).symm
  | ⟨2, _⟩ => by
    show (dat0 (atRefs (V1 m)) c).arrAt 2 cfg0.N
      = Function.update (V1 m c) main_v29 (outs m 2 main_v29 c) main_v29
    rw [Function.update_self, outs_2]
  | ⟨_ + 3, h⟩ => absurd h (Nat.not_lt.2 (Nat.le_add_left _ _))

/-- Every buffer that is none of the product's arrays is as the product found it. -/
theorem hrest0 (c : Dev nD) : ∀ b, b ∉ Finset.univ.image (Pipeline.arrRef spec0) →
    atRefs (V2 m (outs m)) c b = atRefs (V1 m) c b := fun b hb =>
  V2_of m (outs m) c b fun hm => hb (Finset.mem_image.mpr ⟨2, Finset.mem_univ _, (List.mem_singleton.mp hm).symm⟩)

set_option backward.isDefEq.respectTransparency.types false in
/-- Matrix product 0 over the thread state: entered from every unscoped buffer at the valuation before it, left at
    the valuation after it. Its arrays split out of the unscoped buffers and put back at the exit contents; the
    generator register into the pipeline's invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atRefs (V1 m)) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V1 m) c) (atRefs (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c
    = iprop(StableHlo.held (c : Thread nD τ) (Pipeline.ucRefs τ sig) (V1 m c) ∗ Rr c) := rfl
theorem reg0_post (c : Dev nD) : (reg0 m).post c
    = iprop(StableHlo.held (c : Thread nD τ) (Pipeline.ucRefs τ sig) (V2 m (outs m) c) ∗ Rr c) := rfl

end Cert.Kernel.Hand

end
-- ==== Proof.KB.Seg1.lean ====
/- The word-level kernel program is the idealized one's text under another name, and these modules are generic in the element interpretation. -/
/-
  The segment record of matrix product 1 over the thread state "every unscoped buffer of the core held at a
  valuation, beside the generator register at some state and the core owing nothing". The product is entered from
  the valuation before it and left at that valuation with its output array replaced by the fold of its grid points'
  write-backs. Its three arrays are split out of the unscoped buffers at entry and put back at exit: the two input
  arrays are never written, the output array holds the fold, every other buffer is untouched.
-/
import proofs.«422874_j81398220194430_3_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

variable (m : (ℓ : Loc nD τ sig) → Buf (Elt F) ℓ)

local notation "𝕄" => MT nD τ sig Unit (Elt F) ℕ (UR sig nD τ) ℕ

/-- At the product's exit each of its arrays holds what the valuation after it says: an input array is never
    written and the valuation keeps it; the output array is the fold of the write-backs, which is what the
    valuation puts there. -/
theorem hF1 (c : Dev nD) (w : Fin cfg1.W) :
    (pdats m 1 c).arrAt w cfg1.N = atRefs (V8 m (outs m)) c (Pipeline.arrRef spec1 w) :=
  match w with
  | ⟨0, _⟩ =>
    (((dat1 (atRefs (V7 m (outs m))) c).arrAt_in 0 rfl _).trans (A_eq1 (atRefs (V7 m (outs m))) c 0)).trans
      (V8_of m (outs m) c (Pipeline.arrRef spec1 0) (by decide)).symm
  | ⟨1, _⟩ =>
    (((dat1 (atRefs (V7 m (outs m))) c).arrAt_in 1 rfl _).trans (A_eq1 (atRefs (V7 m (outs m))) c 1)).trans
      (V8_of m (outs m) c (Pipeline.arrRef spec1 1) (by decide)).symm
  | ⟨2, _⟩ => by
    show (dat1 (atRefs (V7 m (outs m))) c).arrAt 2 cfg1.N
      = Function.update (V7 m (outs m) c) main_v68 (outs m 8 main_v68 c) main_v68
    rw [Function.update_self, outs_8]
  | ⟨_ + 3, h⟩ => absurd h (Nat.not_lt.2 (Nat.le_add_left _ _))

/-- Every buffer that is none of the product's arrays is as the product found it. -/
theorem hrest1 (c : Dev nD) : ∀ b, b ∉ Finset.univ.image (Pipeline.arrRef spec1) →
    atRefs (V8 m (outs m)) c b = atRefs (V7 m (outs m)) c b := fun b hb =>
  V8_of m (outs m) c b fun hm => hb (Finset.mem_image.mpr ⟨2, Finset.mem_univ _, (List.mem_singleton.mp hm).symm⟩)

set_option backward.isDefEq.respectTransparency.types false in
/-- Matrix product 1 over the thread state: entered from every unscoped buffer at the valuation before it, left at
    the valuation after it. Its arrays split out of the unscoped buffers and put back at the exit contents; the
    generator register into the pipeline's invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atRefs (V7 m (outs m))) c).loose
  hwaits := Pipeline.hwaits_of_owed_zero _ _ _ _ Lz lvz 1 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (atRefs (V7 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V7 m (outs m)) c) (atRefs (V8 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c
    = iprop(StableHlo.held (c : Thread nD τ) (Pipeline.ucRefs τ sig) (V7 m (outs m) c) ∗ Rr c) := rfl
theorem reg1_post (c : Dev nD) : (reg1 m).post c
    = iprop(StableHlo.held (c : Thread nD τ) (Pipeline.ucRefs τ sig) (V8 m (outs m) c) ∗ Rr c) := rfl

end Cert.Kernel.Hand

end
-- ==== Proof.KB.Seg2.lean ====
/- The word-level kernel program is the idealized one's text under another name, and these modules are generic in the element interpretation. -/
/-
  The third matrix product, z·zᵀ, as a segment of the run over the thread state "every unscoped buffer at a valuation".
  Its two input windows read ONE array (block row i and block row j of z), so the pipeline holds that array twice, at
  the two halves of its full share, and its output array once at the full share. At entry the array's full share is
  split in its left and right halves; at exit the halves, both still at the entry contents, are joined back; the
  output array ends at the fold of the grid points' write-backs, and every other buffer bypasses the product unchanged.
-/
import proofs.«422874_j81398220194430_3_alg».proof.Proof.KB.Data

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

section AnyContents

variable (V : (c : Dev nD) → (b : Ref sig .tc) → Buf (Elt F) ((c : Thread nD τ).loc b))

/-- The buffers behind product 2's three windows are two: both input windows read one array. -/
theorem arrRefs2 : Finset.univ.image (Pipeline.arrRef spec2) = {main_v148, main_v149} := by decide

/-- Those two buffers, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v148) ↦{fullShare} W main_v148) ∗ (((c : Thread nD τ).loc main_v149) ↦{fullShare} W main_v149)) := by
  unfold Pipeline.arrBufs
  rw [arrRefs2, bigSep_insert (by decide), bigSep_singleton]
  rfl

/-- The pipeline's arrays: the shared input array once at each half share, the output array at the full share. -/
theorem arrays2_eq (c : Dev nD) (G : (w : Fin cfg2.W) → Buf (Elt F) ((cfg2.win w).arr.view.loc (c : Thread nD τ))) :
    (dat2 V c).arrays G
      = iprop((((c : Thread nD τ).loc main_v148) ↦{fullShare.left} G 0) ∗ (((c : Thread nD τ).loc main_v148) ↦{fullShare.right} G 1)
        ∗ (((c : Thread nD τ).loc main_v149) ↦{fullShare} G 2)) := by
  unfold Dat.arrays
  rw [bigSep_W2, (arr_whole2 0).set_eq_univ, (arr_whole2 2).set_eq_univ]
  rfl

/-- A core's unscoped buffers are the two buffers behind product 2's windows and the rest. -/
theorem split2 (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs (Ix := Unit) (Name := ℕ) (U := UR sig nD τ) (Lvl := ℕ) spec2 c W : sProp 𝕄)
          ∗ Pipeline.unscopedRest (Ix := Unit) (Name := ℕ) (U := UR sig nD τ) (Lvl := ℕ) spec2 c W) :=
  Pipeline.unscopedBufs_split₀ cfgs 2 winFacts₀2.arr_unscoped c W

/-- ENTRY, the arrays' part: a core's unscoped buffers at the contents the product is entered from are the pipeline's
    arrays at their entry contents (the shared input array's full share dealt in its two halves) and the rest. -/
theorem entry2 (c : Dev nD) :
    (unscopedBufs (Ix := Unit) (Name := ℕ) (U := UR sig nD τ) (Lvl := ℕ) c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [split2 c (V c), arrBufs2_eq, arrays2_eq]
  refine sep_mono ?_ .rfl
  rw [show (dat2 V c).arrAt 0 0 = V c main_v148 from rfl, show (dat2 V c).arrAt 1 0 = V c main_v148 from rfl,
    show (dat2 V c).arrAt 2 0 = V c main_v149 from rfl]
  iintro ⟨H, Ho⟩
  ihave H' := (pointsTo_share (PosShare.mem_left_op_right fullShare)).1 $$ H
  icases H' with ⟨Hl, Hr⟩
  isplitl [Hl]; · iexact Hl
  isplitl [Hr]; · iexact Hr
  iexact Ho

/-- EXIT, the arrays' part: the pipeline's arrays at their exit contents (the input array as entered, its two halves
    joined; the output array at the fold of the write-backs) and the rest are the core's unscoped buffers at any
    contents that have the output array there and agree with the entry contents elsewhere. -/
theorem exit2 (c : Dev nD) (W' : (b : Ref sig .tc) → Buf (Elt F) ((c : Thread nD τ).loc b))
    (h148 : W' main_v148 = V c main_v148) (h149 : W' main_v149 = (dat2 V c).arrAt 2 cfg2.N)
    (hrest : ∀ b, b ∉ Finset.univ.image (Pipeline.arrRef spec2) → W' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c W' : sProp 𝕄) := by
  rw [split2 c W', arrBufs2_eq, arrays2_eq]
  refine sep_mono ?_ (Entails.of_eq ?_)
  · rw [show (dat2 V c).arrAt 0 cfg2.N = V c main_v148 from ((dat2 V c).arrAt_in 0 rfl _).trans (A_eq2 V c 0),
      show (dat2 V c).arrAt 1 cfg2.N = V c main_v148 from ((dat2 V c).arrAt_in 1 rfl _).trans (A_eq2 V c 1), h148, h149]
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    exact bigSep_congr fun b hb => by rw [hrest b (Finset.mem_sdiff.mp hb).2]

end AnyContents

variable (m : (ℓ : Loc nD τ sig) → Buf (Elt F) ℓ)

/-- At product 2's exit the shared input array holds what it held at entry, -/
theorem V14_v148 (c : Dev nD) : atRefs (V14 m (outs m)) c main_v148 = atRefs (V13 m (outs m)) c main_v148 :=
  V14_of m (outs m) c main_v148 (by decide)

/-- the output array the fold of the grid points' write-backs, -/
theorem V14_v149 (c : Dev nD) : atRefs (V14 m (outs m)) c main_v149 = (dat2 (atRefs (V13 m (outs m))) c).arrAt 2 cfg2.N := by
  show Function.update (V13 m (outs m) c) main_v149 (outs m 14 main_v149 c) main_v149 = _
  rw [Function.update_self, outs_14]

/-- and every other buffer what it held at entry. -/
theorem V14_rest (c : Dev nD) (b : Ref sig .tc) (hb : b ∉ Finset.univ.image (Pipeline.arrRef spec2)) :
    atRefs (V14 m (outs m)) c b = atRefs (V13 m (outs m)) c b := by
  rw [arrRefs2] at hb
  exact V14_of m (outs m) c b fun h => hb (by rw [List.mem_singleton.mp h]; decide)

set_option backward.isDefEq.respectTransparency.types false in
/-- Product 2 (z·zᵀ) over the thread state: entered from every unscoped buffer at the contents after the second
    layer's host operations, left at those contents with the output array in place. Its two input windows read one
    array: that array's full share is dealt in halves at entry and joined at exit; the output array and every other
    buffer are routed as for a product on distinct arrays. The generator register goes into the class invariant and
    comes back; nothing is owed; the kernel has no semaphore of its own. -/
def reg2 : Pipeline.RegionSeg (pcfgs (F := F)) adm (pdats m) () defs₀ Variants.none Lz lvz 2 where
  win := winFacts₀2
  block_pos := block_pos2
  stage_whole := stage_whole2
  K := PEmpty
  osem k := k.elim
  ho := Pipeline.OwnSemFacts.none _
  hbody c := (body_obligation2 (atRefs (V13 m (outs m))) c).loose
  hwaits := Pipeline.hwaits_of_owed_zero _ _ _ _ Lz lvz 2 fun _ _ => rfl
  pre c := iprop(StableHlo.held (c : Thread nD τ) (Pipeline.ucRefs τ sig) (V13 m (outs m) c) ∗ Rr c)
  post c := iprop(StableHlo.held (c : Thread nD τ) (Pipeline.ucRefs τ sig) (V14 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (atRefs (V13 m (outs m)) c)
  hentry c := by
    rw [Pipeline.ownSems0_none]
    have hsplit := entry2 (atRefs (V13 m (outs m))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (atRefs (V13 m (outs m))) c (atRefs (V14 m (outs m)) c) (V14_v148 m c) (V14_v149 m c) (V14_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg2_pre (c : Dev nD) :
    (reg2 m).pre c = iprop(StableHlo.held (c : Thread nD τ) (Pipeline.ucRefs τ sig) (V13 m (outs m) c) ∗ Rr c) := rfl
theorem reg2_post (c : Dev nD) :
    (reg2 m).post c = iprop(StableHlo.held (c : Thread nD τ) (Pipeline.ucRefs τ sig) (V14 m (outs m) c) ∗ Rr c) := rfl

end Cert.Kernel.Hand

end
-- ==== Proof.KB.Frame.lean ====
/- The word-level kernel program is the idealized one's text under another name, and these modules are generic in the element interpretation. -/
/-
  The kernel program's run with the three regions' records in place, read three ways: every unscoped buffer at the last
  valuation; the argument arrays unchanged (no host operation writes one and no matrix product's output array is one);
  the three results at the last valuation beside the unchanged arguments.
-/
import proofs.«422874_j81398220194430_3_alg».proof.Proof.KB.Run
import proofs.«422874_j81398220194430_3_alg».proof.Proof.KB.Seg0
import proofs.«422874_j81398220194430_3_alg».proof.Proof.KB.Seg1
import proofs.«422874_j81398220194430_3_alg».proof.Proof.KB.Seg2

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Every unscoped buffer of every core ends at the last valuation. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_of_regions m ρ (reg0 m) (reg0_pre m) (reg0_post m) (reg1 m) (reg1_pre m) (reg1_post m) (reg2 m) (reg2_pre m) (reg2_post m)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run leaves every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c (Proc.devRef .tc main_arg0) (mem_uc main_arg0 (by decide))).trans (V15_main_arg0 m (outs m) c),
     (h c (Proc.devRef .tc main_arg1) (mem_uc main_arg1 (by decide))).trans (V15_main_arg1 m (outs m) c),
     (h c (Proc.devRef .tc main_arg2) (mem_uc main_arg2 (by decide))).trans (V15_main_arg2 m (outs m) c),
     (h c (Proc.devRef .tc main_arg3) (mem_uc main_arg3 (by decide))).trans (V15_main_arg3 m (outs m) c),
     (h c (Proc.devRef .tc main_arg4) (mem_uc main_arg4 (by decide))).trans (V15_main_arg4 m (outs m) c),
     (h c (Proc.devRef .tc main_arg5) (mem_uc main_arg5 (by decide))).trans (V15_main_arg5 m (outs m) c),
     (h c (Proc.devRef .tc main_arg6) (mem_uc main_arg6 (by decide))).trans (V15_main_arg6 m (outs m) c),
     (h c (Proc.devRef .tc main_arg7) (mem_uc main_arg7 (by decide))).trans (V15_main_arg7 m (outs m) c),
     (h c (Proc.devRef .tc main_arg8) (mem_uc main_arg8 (by decide))).trans (V15_main_arg8 m (outs m) c),
     (h c (Proc.devRef .tc main_arg9) (mem_uc main_arg9 (by decide))).trans (V15_main_arg9 m (outs m) c),
     (h c (Proc.devRef .tc main_arg10) (mem_uc main_arg10 (by decide))).trans (V15_main_arg10 m (outs m) c),
     (h c (Proc.devRef .tc main_arg11) (mem_uc main_arg11 (by decide))).trans (V15_main_arg11 m (outs m) c),
     (h c (Proc.devRef .tc main_arg12) (mem_uc main_arg12 (by decide))).trans (V15_main_arg12 m (outs m) c),
     (h c (Proc.devRef .tc main_arg13) (mem_uc main_arg13 (by decide))).trans (V15_main_arg13 m (outs m) c),
     (h c (Proc.devRef .tc main_arg14) (mem_uc main_arg14 (by decide))).trans (V15_main_arg14 m (outs m) c),
     (h c (Proc.devRef .tc main_arg15) (mem_uc main_arg15 (by decide))).trans (V15_main_arg15 m (outs m) c),
     (h c (Proc.devRef .tc main_arg16) (mem_uc main_arg16 (by decide))).trans (V15_main_arg16 m (outs m) c),
     (h c (Proc.devRef .tc main_arg17) (mem_uc main_arg17 (by decide))).trans (V15_main_arg17 m (outs m) c),
     (h c (Proc.devRef .tc main_arg18) (mem_uc main_arg18 (by decide))).trans (V15_main_arg18 m (outs m) c)⟩) (run_main m ρ)

/-- The run's three results, each at the last valuation, beside the unchanged arguments. -/
theorem run_values (ρ : Dev nD → PrngReg) :
    θ_run defs (onTc (τ := τ) (main (F := F))) ⟨m, fun _ => 0, ρ⟩ (fun r => ∀ c : Dev nD,
      r.2.mem ((c.tc : Thread nD τ).loc main_v147) = V15 m (outs m) c main_v147
      ∧ r.2.mem ((c.tc : Thread nD τ).loc main_v149) = V15 m (outs m) c main_v149
      ∧ r.2.mem ((c.tc : Thread nD τ).loc main_v175) = V15 m (outs m) c main_v175
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c (Proc.devRef .tc main_v147) (mem_uc main_v147 (by decide)),
     h c (Proc.devRef .tc main_v149) (mem_uc main_v149 (by decide)),
     h c (Proc.devRef .tc main_v175) (mem_uc main_v175 (by decide)),
     (h c (Proc.devRef .tc main_arg0) (mem_uc main_arg0 (by decide))).trans (V15_main_arg0 m (outs m) c),
     (h c (Proc.devRef .tc main_arg1) (mem_uc main_arg1 (by decide))).trans (V15_main_arg1 m (outs m) c),
     (h c (Proc.devRef .tc main_arg2) (mem_uc main_arg2 (by decide))).trans (V15_main_arg2 m (outs m) c),
     (h c (Proc.devRef .tc main_arg3) (mem_uc main_arg3 (by decide))).trans (V15_main_arg3 m (outs m) c),
     (h c (Proc.devRef .tc main_arg4) (mem_uc main_arg4 (by decide))).trans (V15_main_arg4 m (outs m) c),
     (h c (Proc.devRef .tc main_arg5) (mem_uc main_arg5 (by decide))).trans (V15_main_arg5 m (outs m) c),
     (h c (Proc.devRef .tc main_arg6) (mem_uc main_arg6 (by decide))).trans (V15_main_arg6 m (outs m) c),
     (h c (Proc.devRef .tc main_arg7) (mem_uc main_arg7 (by decide))).trans (V15_main_arg7 m (outs m) c),
     (h c (Proc.devRef .tc main_arg8) (mem_uc main_arg8 (by decide))).trans (V15_main_arg8 m (outs m) c),
     (h c (Proc.devRef .tc main_arg9) (mem_uc main_arg9 (by decide))).trans (V15_main_arg9 m (outs m) c),
     (h c (Proc.devRef .tc main_arg10) (mem_uc main_arg10 (by decide))).trans (V15_main_arg10 m (outs m) c),
     (h c (Proc.devRef .tc main_arg11) (mem_uc main_arg11 (by decide))).trans (V15_main_arg11 m (outs m) c),
     (h c (Proc.devRef .tc main_arg12) (mem_uc main_arg12 (by decide))).trans (V15_main_arg12 m (outs m) c),
     (h c (Proc.devRef .tc main_arg13) (mem_uc main_arg13 (by decide))).trans (V15_main_arg13 m (outs m) c),
     (h c (Proc.devRef .tc main_arg14) (mem_uc main_arg14 (by decide))).trans (V15_main_arg14 m (outs m) c),
     (h c (Proc.devRef .tc main_arg15) (mem_uc main_arg15 (by decide))).trans (V15_main_arg15 m (outs m) c),
     (h c (Proc.devRef .tc main_arg16) (mem_uc main_arg16 (by decide))).trans (V15_main_arg16 m (outs m) c),
     (h c (Proc.devRef .tc main_arg17) (mem_uc main_arg17 (by decide))).trans (V15_main_arg17 m (outs m) c),
     (h c (Proc.devRef .tc main_arg18) (mem_uc main_arg18 (by decide))).trans (V15_main_arg18 m (outs m) c)⟩) (run_main m ρ)

end Cert.Kernel.Hand

end
-- ==== Proof.KI.Reg0.lean ====
/-
  Pallas call 0 (x·w1, an [16384,128] by [128,128] product tiled in eight row blocks of 2048) as the pipeline sees it,
  at ANY contents V of the TensorCore's buffers when the call is entered: each window's block at a grid point, what
  the body leaves in the output window's staging buffer (the one store's value over the two loaded blocks), the body's
  triple, the proof data, and the body obligation at every point.
-/
import proofs.«422874_j81398220194430_3_alg».proof.Proof.Gen.KernelIdeal.Launch
import proofs.«422874_j81398220194430_3_alg».proof.Proof.Gen.KernelIdeal.Skeleton
import proofs.«422874_j81398220194430_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rx0 : Rect S2048x128 := Rect.unit (s := S2048x128) ![0, 0] S2048x128.size inb_S2048x128_S2048x128_0_0
abbrev rw0 : Rect S128x128 := Rect.unit (s := S128x128) ![0, 0] S128x128.size inb_S128x128_S128x128_0_0
abbrev ro0 : Rect S2048x128 := Rect.unit (s := S2048x128) ![0, 0] S2048x128.size inb_S2048x128_S2048x128_0_0

/-- The output window's staging buffer after the body: its one store, of the product of the two loaded blocks. -/
def out0_2 (x0 : Vec F S2048x128 .bf16) (x1 : Vec F S128x128 .bf16) : Vec F S2048x128 .f32 :=
  View.canon [⟨ro0, k0_pay1 (View.ld x0 rx0) (View.ld x1 rw0)⟩]

/-- The one store covers the buffer. -/
theorem cover0_2 (p0 : Vec F S2048x128 .f32) (y : S2048x128.Idx) :
    ∃ pc ∈ ([⟨ro0, p0⟩] : List (View.Piece (Elt F) S2048x128 .f32)), y ∈ pc.1.set :=
  View.cover_of_tiled [⟨ro0, p0⟩] S2048x128.size (by rfl) y

set_option maxHeartbeats 1000000 in
/-- The body on whole staging memrefs: the inputs' at contents x0, x1 and the output's at anything; it returns with
    the inputs' as they were and the output's at out0_2 x0 x1. -/
theorem sound_kernel0 (c : Dev nD) (E : Set ℕ) (i : grid0.Coords)
    (arg1 : Memref sig .tc .vmem S2048x128 .bf16) (harg1 : arg1.IsWhole) (arg2 : Memref sig .tc .vmem S128x128 .bf16) (harg2 : arg2.IsWhole)
    (arg3 : Memref sig .tc .vmem S2048x128 .f32) (harg3 : arg3.IsWhole)
    (x0 : Vec F S2048x128 .bf16) (x1 : Vec F S128x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the call finds them; after the body at point t each input's
    buffer at its block and the output's at the product of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Pallas call 1 (h·w2, an [16384,128] by [128,64] product in eight row blocks of 2048) as the pipeline sees it, at any entry contents V: the text of call 0's module at call 1's sizes. -/
import proofs.«422874_j81398220194430_3_alg».proof.Proof.Gen.KernelIdeal.Launch
import proofs.«422874_j81398220194430_3_alg».proof.Proof.Gen.KernelIdeal.Skeleton
import proofs.«422874_j81398220194430_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev rx1 : Rect S2048x128 := Rect.unit (s := S2048x128) ![0, 0] S2048x128.size inb_S2048x128_S2048x128_0_0
abbrev rw1 : Rect S128x64 := Rect.unit (s := S128x64) ![0, 0] S128x64.size inb_S128x64_S128x64_0_0
abbrev ro1 : Rect S2048x64 := Rect.unit (s := S2048x64) ![0, 0] S2048x64.size inb_S2048x64_S2048x64_0_0

/-- The output window's staging buffer after the body: its one store, of the product of the two loaded blocks. -/
def out1_2 (x0 : Vec F S2048x128 .bf16) (x1 : Vec F S128x64 .bf16) : Vec F S2048x64 .f32 :=
  View.canon [⟨ro1, k1_pay1 (View.ld x0 rx1) (View.ld x1 rw1)⟩]

/-- The one store covers the buffer. -/
theorem cover1_2 (p0 : Vec F S2048x64 .f32) (y : S2048x64.Idx) :
    ∃ pc ∈ ([⟨ro1, p0⟩] : List (View.Piece (Elt F) S2048x64 .f32)), y ∈ pc.1.set :=
  View.cover_of_tiled [⟨ro1, p0⟩] S2048x64.size (by rfl) y

set_option maxHeartbeats 1000000 in
/-- The body on whole staging memrefs: the inputs' at contents x0, x1 and the output's at anything; it returns with
    the inputs' as they were and the output's at out1_2 x0 x1. -/
theorem sound_kernel1 (c : Dev nD) (E : Set ℕ) (i : grid1.Coords)
    (arg1 : Memref sig .tc .vmem S2048x128 .bf16) (harg1 : arg1.IsWhole) (arg2 : Memref sig .tc .vmem S128x64 .bf16) (harg2 : arg2.IsWhole)
    (arg3 : Memref sig .tc .vmem S2048x64 .f32) (harg3 : arg3.IsWhole)
    (x0 : Vec F S2048x128 .bf16) (x1 : Vec F S128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 0 on core c: the arrays as the call finds them; after the body at point t each input's
    buffer at its block and the output's at the product of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Pallas call 2 (z·zᵀ, tiled 8 by 8 in blocks of 2048 rows by 2048 columns; both input windows read the SAME array, so each holds half of its share) as the pipeline sees it, at any entry contents V: the text of call 0's module at call 2's sizes. -/
import proofs.«422874_j81398220194430_3_alg».proof.Proof.Gen.KernelIdeal.Launch
import proofs.«422874_j81398220194430_3_alg».proof.Proof.Gen.KernelIdeal.Skeleton
import proofs.«422874_j81398220194430_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev rx2 : Rect S2048x64 := Rect.unit (s := S2048x64) ![0, 0] S2048x64.size inb_S2048x64_S2048x64_0_0
abbrev rw2 : Rect S2048x64 := Rect.unit (s := S2048x64) ![0, 0] S2048x64.size inb_S2048x64_S2048x64_0_0
abbrev ro2 : Rect S2048x2048 := Rect.unit (s := S2048x2048) ![0, 0] S2048x2048.size inb_S2048x2048_S2048x2048_0_0

/-- The output window's staging buffer after the body: its one store, of the product of the two loaded blocks. -/
def out2_2 (x0 : Vec F S2048x64 .bf16) (x1 : Vec F S2048x64 .bf16) : Vec F S2048x2048 .f32 :=
  View.canon [⟨ro2, k2_pay1 (View.ld x0 rx2) (View.ld x1 rw2)⟩]

/-- The one store covers the buffer. -/
theorem cover2_2 (p0 : Vec F S2048x2048 .f32) (y : S2048x2048.Idx) :
    ∃ pc ∈ ([⟨ro2, p0⟩] : List (View.Piece (Elt F) S2048x2048 .f32)), y ∈ pc.1.set :=
  View.cover_of_tiled [⟨ro2, p0⟩] S2048x2048.size (by rfl) y

set_option maxHeartbeats 1000000 in
/-- The body on whole staging memrefs: the inputs' at contents x0, x1 and the output's at anything; it returns with
    the inputs' as they were and the output's at out2_2 x0 x1. -/
theorem sound_kernel2 (c : Dev nD) (E : Set ℕ) (i : grid2.Coords)
    (arg1 : Memref sig .tc .vmem S2048x64 .bf16) (harg1 : arg1.IsWhole) (arg2 : Memref sig .tc .vmem S2048x64 .bf16) (harg2 : arg2.IsWhole)
    (arg3 : Memref sig .tc .vmem S2048x2048 .f32) (harg3 : arg3.IsWhole)
    (x0 : Vec F S2048x64 .bf16) (x1 : Vec F S2048x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__zzt_kernel i arg1 harg1 arg2 harg2 arg3 harg3) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 0 on core c: the arrays as the call finds them; after the body at point t each input's
    buffer at its block and the output's at the product of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Data.lean ====
/-
  The arrays the three matrix products leave behind, and the pipelines' proof data at the contents each product is
  entered from. Product 0 is entered from the launch contents run through the opening host operations, and leaves
  its output array; product 1 is entered from those contents with that array in place, run through the first
  layer's host operations; product 2 likewise after the second layer's. Each output array is the fold of the
  write-backs of that product's grid points.
-/
import proofs.«422874_j81398220194430_3_alg».proof.Proof.KI.RunCond
import proofs.«422874_j81398220194430_3_alg».proof.Proof.KI.Reg0
import proofs.«422874_j81398220194430_3_alg».proof.Proof.KI.Reg1
import proofs.«422874_j81398220194430_3_alg».proof.Proof.KI.Reg2

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

/-- A valuation of a core's buffers read at the TensorCore's references. -/
abbrev atRefs (W : Dev nD → Valuation τ sig (Elt F)) :
    (c : Dev nD) → (b : Ref sig .tc) → Buf (Elt F) ((c : Thread nD τ).loc b) := fun c b => W c b

/-- What product 0 leaves in its output array. -/
abbrev arr0 (c : Dev nD) : Buf (Elt F) ((c : Thread nD τ).loc main_v29) := (dat0 (atRefs (V1 m)) c).arrAt 2 cfg0.N

/-- The regions' leavings with only product 0's known. -/
def outsA : Outs (F := F) := fun _ r c => Function.update (V1 m c) main_v29 (arr0 m c) r

/-- What product 1 leaves in its output array. -/
abbrev arr1 (c : Dev nD) : Buf (Elt F) ((c : Thread nD τ).loc main_v68) := (dat1 (atRefs (V7 m (outsA m))) c).arrAt 2 cfg1.N

/-- The regions' leavings with products 0 and 1 known. -/
def outsB : Outs (F := F) := fun J r c =>
  if J = 8 then Function.update (V7 m (outsA m) c) main_v68 (arr1 m c) r else outsA m J r c

/-- What product 2 leaves in its output array. -/
abbrev arr2 (c : Dev nD) : Buf (Elt F) ((c : Thread nD τ).loc main_v149) := (dat2 (atRefs (V13 m (outsB m))) c).arrAt 2 cfg2.N

/-- What each product leaves in its output array: the unknowns of the run, now known. -/
def outs : Outs (F := F) := fun J r c =>
  if J = 14 then Function.update (V13 m (outsB m) c) main_v149 (arr2 m c) r else outsB m J r c

theorem outs_2A (c : Dev nD) : outs m 2 main_v29 c = outsA m 2 main_v29 c := rfl
theorem outs_8B (c : Dev nD) : outs m 8 main_v68 c = outsB m 8 main_v68 c := rfl
theorem outsB_2A (c : Dev nD) : outsB m 2 main_v29 c = outsA m 2 main_v29 c := rfl

theorem V7_outs (c : Dev nD) : V7 m (outs m) c = V7 m (outsA m) c := by
  show StableHlo.after hostOps1_4 (StableHlo.after hostOps1_3 (StableHlo.after hostOps1_2 (StableHlo.after hostOps1_1
    (StableHlo.after hostOps1 (Function.update (V1 m c) main_v29 (outs m 2 main_v29 c)))))) = _
  rw [outs_2A]

theorem V13_outs (c : Dev nD) : V13 m (outs m) c = V13 m (outsB m) c := by
  show StableHlo.after hostOps2_4 (StableHlo.after hostOps2_3 (StableHlo.after hostOps2_2 (StableHlo.after hostOps2_1
    (StableHlo.after hostOps2 (Function.update (V7 m (outs m) c) main_v68 (outs m 8 main_v68 c)))))) = _
  rw [outs_8B, V7_outs]
  show _ = StableHlo.after hostOps2_4 (StableHlo.after hostOps2_3 (StableHlo.after hostOps2_2 (StableHlo.after hostOps2_1
    (StableHlo.after hostOps2 (Function.update (V7 m (outsB m) c) main_v68 (outsB m 8 main_v68 c))))))
  have h7 : V7 m (outsB m) c = V7 m (outsA m) c := by
    show StableHlo.after hostOps1_4 (StableHlo.after hostOps1_3 (StableHlo.after hostOps1_2 (StableHlo.after hostOps1_1
      (StableHlo.after hostOps1 (Function.update (V1 m c) main_v29 (outsB m 2 main_v29 c)))))) = _
    rw [outsB_2A]
  rw [h7]

/-- Product 0's output array is the fold of its grid points' write-backs from the opening contents. -/
theorem outs_2 (c : Dev nD) : outs m 2 main_v29 c = (dat0 (atRefs (V1 m)) c).arrAt 2 cfg0.N := by
  show Function.update (V1 m c) main_v29 (arr0 m c) main_v29 = _
  rw [Function.update_self]

/-- Product 1's, from the contents it is entered from. -/
theorem outs_8 (c : Dev nD) : outs m 8 main_v68 c = (dat1 (atRefs (V7 m (outs m))) c).arrAt 2 cfg1.N := by
  rw [show atRefs (V7 m (outs m)) = atRefs (V7 m (outsA m)) from funext fun c => funext fun b => congrFun (V7_outs m c) _]
  show Function.update (V7 m (outsA m) c) main_v68 (arr1 m c) main_v68 = _
  rw [Function.update_self]

/-- Product 2's, from the contents it is entered from. -/
theorem outs_14 (c : Dev nD) : outs m 14 main_v149 c = (dat2 (atRefs (V13 m (outs m))) c).arrAt 2 cfg2.N := by
  rw [show atRefs (V13 m (outs m)) = atRefs (V13 m (outsB m)) from funext fun c => funext fun b => congrFun (V13_outs m c) _]
  show Function.update (V13 m (outsB m) c) main_v149 (arr2 m c) main_v149 = _
  rw [Function.update_self]

/-- Every pipeline's proof data, each at the contents its product is entered from. -/
def pdats : (p : Fin 3) → (c : Dev nD) → Dat τ (Elt F) Unit ℕ (UR sig nD τ) ℕ (cfgs p) c
  | ⟨0, _⟩ => fun c => dat0 (atRefs (V1 m)) c
  | ⟨1, _⟩ => fun c => dat1 (atRefs (V7 m (outs m))) c
  | ⟨2, _⟩ => fun c => dat2 (atRefs (V13 m (outs m))) c

local notation "𝕄" => MT nD τ sig Unit (Elt F) ℕ (UR sig nD τ) ℕ

/-- What rides beside the buffers between two items of the program: the core's generator register at some state, and
    the core owing nothing. -/
abbrev Rr (c : Dev nD) : sProp 𝕄 :=
  iprop((∃ r, prngReg c r) ∗ ∃ W, owes (c : Thread nD τ) (0 : CellTallies nD τ sig Unit) W)

/-- No core owes another anything: no level is assigned. -/
abbrev Lz : GSem nD τ sig → Finset Unit := fun _ => ∅
abbrev lvz : GSem nD τ sig → Unit → ℕ := fun _ _ => 0

end Cert.KernelIdeal.Hand

end
-- ==== Proof.KI.Run.lean ====
/-
  The kernel program's run: every weakly fair execution of @main from any memory with zero counters terminates, and
  every final memory holds each unscoped TensorCore buffer at the last valuation — the launch contents run through the
  host stretches, with each matrix product's output array in place at what its pipeline leaves. Given here for any
  three segment records of the regions that are entered from and left at the thread states "every unscoped buffer held
  at the valuation, the generator register at some state, nothing owed".
-/
import proofs.«422874_j81398220194430_3_alg».proof.Proof.KI.Data
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The run over the three regions' records. -/
theorem run_of_regions (ρ : Dev nD → PrngReg)
    (R0 : RegionSeg (pcfgs (F := F)) adm (pdats m) () defs₀ Variants.none Lz lvz 0)
    (hpre0 : ∀ c : Dev nD, R0.pre c = iprop(StableHlo.held (c : Thread nD τ) (Pipeline.ucRefs τ sig) (V1 m c) ∗ Rr c))
    (hpost0 : ∀ c : Dev nD, R0.post c = iprop(StableHlo.held (c : Thread nD τ) (Pipeline.ucRefs τ sig) (V2 m (outs m) c) ∗ Rr c))
    (R1 : RegionSeg (pcfgs (F := F)) adm (pdats m) () defs₀ Variants.none Lz lvz 1)
    (hpre1 : ∀ c : Dev nD, R1.pre c = iprop(StableHlo.held (c : Thread nD τ) (Pipeline.ucRefs τ sig) (V7 m (outs m) c) ∗ Rr c))
    (hpost1 : ∀ c : Dev nD, R1.post c = iprop(StableHlo.held (c : Thread nD τ) (Pipeline.ucRefs τ sig) (V8 m (outs m) c) ∗ Rr c))
    (R2 : RegionSeg (pcfgs (F := F)) adm (pdats m) () defs₀ Variants.none Lz lvz 2)
    (hpre2 : ∀ c : Dev nD, R2.pre c = iprop(StableHlo.held (c : Thread nD τ) (Pipeline.ucRefs τ sig) (V13 m (outs m) c) ∗ Rr c))
    (hpost2 : ∀ c : Dev nD, R2.post c = iprop(StableHlo.held (c : Thread nD τ) (Pipeline.ucRefs τ sig) (V14 m (outs m) c) ∗ Rr c)) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_cond m (emb₁) () Variants.none Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ Rr c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄)
          ⊢ bigSep Finset.univ (fun c : Dev nD => (Rr c : sProp 𝕄)) :=
        bigSep_mono fun c _ => hc c
      iintro ⟨H, -⟩
      imodintro
      iapply hmono
      iexact H)
    (hE3 := fun c => by
      iintro ⟨-, HO⟩
      iexact HO)
    R0 (fun c => by rw [hpre0]) (fun c => by rw [hpost0])
    R1 (fun c => by rw [hpre1]) (fun c => by rw [hpost1])
    R2 (fun c => by rw [hpre2]) (fun c => by rw [hpost2])

end Cert.KernelIdeal.Hand

end
-- ==== Proof.KI.Seg0.lean ====
/-
  The segment record of matrix product 0 over the thread state "every unscoped buffer of the core held at a
  valuation, beside the generator register at some state and the core owing nothing". The product is entered from
  the valuation before it and left at that valuation with its output array replaced by the fold of its grid points'
  write-backs. Its three arrays are split out of the unscoped buffers at entry and put back at exit: the two input
  arrays are never written, the output array holds the fold, every other buffer is untouched.
-/
import proofs.«422874_j81398220194430_3_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

variable (m : (ℓ : Loc nD τ sig) → Buf (Elt F) ℓ)

local notation "𝕄" => MT nD τ sig Unit (Elt F) ℕ (UR sig nD τ) ℕ

/-- At the product's exit each of its arrays holds what the valuation after it says: an input array is never
    written and the valuation keeps it; the output array is the fold of the write-backs, which is what the
    valuation puts there. -/
theorem hF0 (c : Dev nD) (w : Fin cfg0.W) :
    (pdats m 0 c).arrAt w cfg0.N = atRefs (V2 m (outs m)) c (Pipeline.arrRef spec0 w) :=
  match w with
  | ⟨0, _⟩ =>
    (((dat0 (atRefs (V1 m)) c).arrAt_in 0 rfl _).trans (A_eq0 (atRefs (V1 m)) c 0)).trans
      (V2_of m (outs m) c (Pipeline.arrRef spec0 0) (by decide)).symm
  | ⟨1, _⟩ =>
    (((dat0 (atRefs (V1 m)) c).arrAt_in 1 rfl _).trans (A_eq0 (atRefs (V1 m)) c 1)).trans
      (V2_of m (outs m) c (Pipeline.arrRef spec0 1) (by decide)).symm
  | ⟨2, _⟩ => by
    show (dat0 (atRefs (V1 m)) c).arrAt 2 cfg0.N
      = Function.update (V1 m c) main_v29 (outs m 2 main_v29 c) main_v29
    rw [Function.update_self, outs_2]
  | ⟨_ + 3, h⟩ => absurd h (Nat.not_lt.2 (Nat.le_add_left _ _))

/-- Every buffer that is none of the product's arrays is as the product found it. -/
theorem hrest0 (c : Dev nD) : ∀ b, b ∉ Finset.univ.image (Pipeline.arrRef spec0) →
    atRefs (V2 m (outs m)) c b = atRefs (V1 m) c b := fun b hb =>
  V2_of m (outs m) c b fun hm => hb (Finset.mem_image.mpr ⟨2, Finset.mem_univ _, (List.mem_singleton.mp hm).symm⟩)

set_option backward.isDefEq.respectTransparency.types false in
/-- Matrix product 0 over the thread state: entered from every unscoped buffer at the valuation before it, left at
    the valuation after it. Its arrays split out of the unscoped buffers and put back at the exit contents; the
    generator register into the pipeline's invariant and out; nothing owed; no semaphore of the kernel's own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (atRefs (V1 m)) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V1 m) c) (atRefs (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c
    = iprop(StableHlo.held (c : Thread nD τ) (Pipeline.ucRefs τ sig) (V1 m c) ∗ Rr c) := rfl
theorem reg0_post (c : Dev nD) : (reg0 m).post c
    = iprop(StableHlo.held (c : Thread nD τ) (Pipeline.ucRefs τ sig) (V2 m (outs m) c) ∗ Rr c) := rfl

end Cert.KernelIdeal.Hand

end
-- ==== Proof.KI.Seg1.lean ====
/-
  The segment record of matrix product 1 over the thread state "every unscoped buffer of the core held at a
  valuation, beside the generator register at some state and the core owing nothing". The product is entered from
  the valuation before it and left at that valuation with its output array replaced by the fold of its grid points'
  write-backs. Its three arrays are split out of the unscoped buffers at entry and put back at exit: the two input
  arrays are never written, the output array holds the fold, every other buffer is untouched.
-/
import proofs.«422874_j81398220194430_3_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

variable (m : (ℓ : Loc nD τ sig) → Buf (Elt F) ℓ)

local notation "𝕄" => MT nD τ sig Unit (Elt F) ℕ (UR sig nD τ) ℕ

/-- At the product's exit each of its arrays holds what the valuation after it says: an input array is never
    written and the valuation keeps it; the output array is the fold of the write-backs, which is what the
    valuation puts there. -/
theorem hF1 (c : Dev nD) (w : Fin cfg1.W) :
    (pdats m 1 c).arrAt w cfg1.N = atRefs (V8 m (outs m)) c (Pipeline.arrRef spec1 w) :=
  match w with
  | ⟨0, _⟩ =>
    (((dat1 (atRefs (V7 m (outs m))) c).arrAt_in 0 rfl _).trans (A_eq1 (atRefs (V7 m (outs m))) c 0)).trans
      (V8_of m (outs m) c (Pipeline.arrRef spec1 0) (by decide)).symm
  | ⟨1, _⟩ =>
    (((dat1 (atRefs (V7 m (outs m))) c).arrAt_in 1 rfl _).trans (A_eq1 (atRefs (V7 m (outs m))) c 1)).trans
      (V8_of m (outs m) c (Pipeline.arrRef spec1 1) (by decide)).symm
  | ⟨2, _⟩ => by
    show (dat1 (atRefs (V7 m (outs m))) c).arrAt 2 cfg1.N
      = Function.update (V7 m (outs m) c) main_v68 (outs m 8 main_v68 c) main_v68
    rw [Function.update_self, outs_8]
  | ⟨_ + 3, h⟩ => absurd h (Nat.not_lt.2 (Nat.le_add_left _ _))

/-- Every buffer that is none of the product's arrays is as the product found it. -/
theorem hrest1 (c : Dev nD) : ∀ b, b ∉ Finset.univ.image (Pipeline.arrRef spec1) →
    atRefs (V8 m (outs m)) c b = atRefs (V7 m (outs m)) c b := fun b hb =>
  V8_of m (outs m) c b fun hm => hb (Finset.mem_image.mpr ⟨2, Finset.mem_univ _, (List.mem_singleton.mp hm).symm⟩)

set_option backward.isDefEq.respectTransparency.types false in
/-- Matrix product 1 over the thread state: entered from every unscoped buffer at the valuation before it, left at
    the valuation after it. Its arrays split out of the unscoped buffers and put back at the exit contents; the
    generator register into the pipeline's invariant and out; nothing owed; no semaphore of the kernel's own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (atRefs (V7 m (outs m))) c).loose
  hwaits := Pipeline.hwaits_of_owed_zero _ _ _ _ Lz lvz 1 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (atRefs (V7 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V7 m (outs m)) c) (atRefs (V8 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c
    = iprop(StableHlo.held (c : Thread nD τ) (Pipeline.ucRefs τ sig) (V7 m (outs m) c) ∗ Rr c) := rfl
theorem reg1_post (c : Dev nD) : (reg1 m).post c
    = iprop(StableHlo.held (c : Thread nD τ) (Pipeline.ucRefs τ sig) (V8 m (outs m) c) ∗ Rr c) := rfl

end Cert.KernelIdeal.Hand

end
-- ==== Proof.KI.Seg2.lean ====
/-
  The third matrix product, z·zᵀ, as a segment of the run over the thread state "every unscoped buffer at a valuation".
  Its two input windows read ONE array (block row i and block row j of z), so the pipeline holds that array twice, at
  the two halves of its full share, and its output array once at the full share. At entry the array's full share is
  split in its left and right halves; at exit the halves, both still at the entry contents, are joined back; the
  output array ends at the fold of the grid points' write-backs, and every other buffer bypasses the product unchanged.
-/
import proofs.«422874_j81398220194430_3_alg».proof.Proof.KI.Data

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

section AnyContents

variable (V : (c : Dev nD) → (b : Ref sig .tc) → Buf (Elt F) ((c : Thread nD τ).loc b))

/-- The buffers behind product 2's three windows are two: both input windows read one array. -/
theorem arrRefs2 : Finset.univ.image (Pipeline.arrRef spec2) = {main_v148, main_v149} := by decide

/-- Those two buffers, each whole at the full share. -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v148) ↦{fullShare} W main_v148) ∗ (((c : Thread nD τ).loc main_v149) ↦{fullShare} W main_v149)) := by
  unfold Pipeline.arrBufs
  rw [arrRefs2, bigSep_insert (by decide), bigSep_singleton]
  rfl

/-- The pipeline's arrays: the shared input array once at each half share, the output array at the full share. -/
theorem arrays2_eq (c : Dev nD) (G : (w : Fin cfg2.W) → Buf (Elt F) ((cfg2.win w).arr.view.loc (c : Thread nD τ))) :
    (dat2 V c).arrays G
      = iprop((((c : Thread nD τ).loc main_v148) ↦{fullShare.left} G 0) ∗ (((c : Thread nD τ).loc main_v148) ↦{fullShare.right} G 1)
        ∗ (((c : Thread nD τ).loc main_v149) ↦{fullShare} G 2)) := by
  unfold Dat.arrays
  rw [bigSep_W2, (arr_whole2 0).set_eq_univ, (arr_whole2 2).set_eq_univ]
  rfl

/-- A core's unscoped buffers are the two buffers behind product 2's windows and the rest. -/
theorem split2 (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs (Ix := Unit) (Name := ℕ) (U := UR sig nD τ) (Lvl := ℕ) spec2 c W : sProp 𝕄)
          ∗ Pipeline.unscopedRest (Ix := Unit) (Name := ℕ) (U := UR sig nD τ) (Lvl := ℕ) spec2 c W) :=
  Pipeline.unscopedBufs_split₀ cfgs 2 winFacts₀2.arr_unscoped c W

/-- ENTRY, the arrays' part: a core's unscoped buffers at the contents the product is entered from are the pipeline's
    arrays at their entry contents (the shared input array's full share dealt in its two halves) and the rest. -/
theorem entry2 (c : Dev nD) :
    (unscopedBufs (Ix := Unit) (Name := ℕ) (U := UR sig nD τ) (Lvl := ℕ) c (V c) : sProp 𝕄)
      ⊢ iprop((dat2 V c).arrays ((dat2 V c).arrAt · 0)
          ∗ Pipeline.unscopedRest (Ix := Unit) (Name := ℕ) (U := UR sig nD τ) (Lvl := ℕ) spec2 c (V c)) := by
  rw [split2 c (V c), arrBufs2_eq, arrays2_eq]
  refine sep_mono ?_ .rfl
  rw [show (dat2 V c).arrAt 0 0 = V c main_v148 from rfl, show (dat2 V c).arrAt 1 0 = V c main_v148 from rfl,
    show (dat2 V c).arrAt 2 0 = V c main_v149 from rfl]
  iintro ⟨H, Ho⟩
  ihave H' := (pointsTo_share (PosShare.mem_left_op_right fullShare)).1 $$ H
  icases H' with ⟨Hl, Hr⟩
  isplitl [Hl]; · iexact Hl
  isplitl [Hr]; · iexact Hr
  iexact Ho

/-- EXIT, the arrays' part: the pipeline's arrays at their exit contents (the input array as entered, its two halves
    joined; the output array at the fold of the write-backs) and the rest are the core's unscoped buffers at any
    contents that have the output array there and agree with the entry contents elsewhere. -/
theorem exit2 (c : Dev nD) (W' : (b : Ref sig .tc) → Buf (Elt F) ((c : Thread nD τ).loc b))
    (h148 : W' main_v148 = V c main_v148) (h149 : W' main_v149 = (dat2 V c).arrAt 2 cfg2.N)
    (hrest : ∀ b, b ∉ Finset.univ.image (Pipeline.arrRef spec2) → W' b = V c b) :
    iprop((dat2 V c).arrays ((dat2 V c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c W' : sProp 𝕄) := by
  rw [split2 c W', arrBufs2_eq, arrays2_eq]
  refine sep_mono ?_ (Entails.of_eq ?_)
  · rw [show (dat2 V c).arrAt 0 cfg2.N = V c main_v148 from ((dat2 V c).arrAt_in 0 rfl _).trans (A_eq2 V c 0),
      show (dat2 V c).arrAt 1 cfg2.N = V c main_v148 from ((dat2 V c).arrAt_in 1 rfl _).trans (A_eq2 V c 1), h148, h149]
    iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    exact bigSep_congr fun b hb => by rw [hrest b (Finset.mem_sdiff.mp hb).2]

end AnyContents

variable (m : (ℓ : Loc nD τ sig) → Buf (Elt F) ℓ)

/-- At product 2's exit the shared input array holds what it held at entry, -/
theorem V14_v148 (c : Dev nD) : atRefs (V14 m (outs m)) c main_v148 = atRefs (V13 m (outs m)) c main_v148 :=
  V14_of m (outs m) c main_v148 (by decide)

/-- the output array the fold of the grid points' write-backs, -/
theorem V14_v149 (c : Dev nD) : atRefs (V14 m (outs m)) c main_v149 = (dat2 (atRefs (V13 m (outs m))) c).arrAt 2 cfg2.N := by
  show Function.update (V13 m (outs m) c) main_v149 (outs m 14 main_v149 c) main_v149 = _
  rw [Function.update_self, outs_14]

/-- and every other buffer what it held at entry. -/
theorem V14_rest (c : Dev nD) (b : Ref sig .tc) (hb : b ∉ Finset.univ.image (Pipeline.arrRef spec2)) :
    atRefs (V14 m (outs m)) c b = atRefs (V13 m (outs m)) c b := by
  rw [arrRefs2] at hb
  exact V14_of m (outs m) c b fun h => hb (by rw [List.mem_singleton.mp h]; decide)

set_option backward.isDefEq.respectTransparency.types false in
/-- Product 2 (z·zᵀ) over the thread state: entered from every unscoped buffer at the contents after the second
    layer's host operations, left at those contents with the output array in place. Its two input windows read one
    array: that array's full share is dealt in halves at entry and joined at exit; the output array and every other
    buffer are routed as for a product on distinct arrays. The generator register goes into the class invariant and
    comes back; nothing is owed; the kernel has no semaphore of its own. -/
def reg2 : Pipeline.RegionSeg (pcfgs (F := F)) adm (pdats m) () defs₀ Variants.none Lz lvz 2 where
  win := winFacts₀2
  block_pos := block_pos2
  stage_whole := stage_whole2
  K := PEmpty
  osem k := k.elim
  ho := Pipeline.OwnSemFacts.none _
  hbody c := (body_obligation2 (atRefs (V13 m (outs m))) c).loose
  hwaits := Pipeline.hwaits_of_owed_zero _ _ _ _ Lz lvz 2 fun _ _ => rfl
  pre c := iprop(StableHlo.held (c : Thread nD τ) (Pipeline.ucRefs τ sig) (V13 m (outs m) c) ∗ Rr c)
  post c := iprop(StableHlo.held (c : Thread nD τ) (Pipeline.ucRefs τ sig) (V14 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (atRefs (V13 m (outs m)) c)
  hentry c := by
    rw [Pipeline.ownSems0_none]
    have hsplit := entry2 (atRefs (V13 m (outs m))) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (atRefs (V13 m (outs m))) c (atRefs (V14 m (outs m)) c) (V14_v148 m c) (V14_v149 m c) (V14_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg2_pre (c : Dev nD) :
    (reg2 m).pre c = iprop(StableHlo.held (c : Thread nD τ) (Pipeline.ucRefs τ sig) (V13 m (outs m) c) ∗ Rr c) := rfl
theorem reg2_post (c : Dev nD) :
    (reg2 m).post c = iprop(StableHlo.held (c : Thread nD τ) (Pipeline.ucRefs τ sig) (V14 m (outs m) c) ∗ Rr c) := rfl

end Cert.KernelIdeal.Hand

end
-- ==== Proof.KI.Frame.lean ====
/-
  The kernel program's run with the three regions' records in place, read three ways: every unscoped buffer at the last
  valuation; the argument arrays unchanged (no host operation writes one and no matrix product's output array is one);
  the three results at the last valuation beside the unchanged arguments.
-/
import proofs.«422874_j81398220194430_3_alg».proof.Proof.KI.Run
import proofs.«422874_j81398220194430_3_alg».proof.Proof.KI.Seg0
import proofs.«422874_j81398220194430_3_alg».proof.Proof.KI.Seg1
import proofs.«422874_j81398220194430_3_alg».proof.Proof.KI.Seg2

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Every unscoped buffer of every core ends at the last valuation. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) :=
  run_of_regions m ρ (reg0 m) (reg0_pre m) (reg0_post m) (reg1 m) (reg1_pre m) (reg1_post m) (reg2 m) (reg2_pre m) (reg2_post m)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run leaves every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c (Proc.devRef .tc main_arg0) (mem_uc main_arg0 (by decide))).trans (V15_main_arg0 m (outs m) c),
     (h c (Proc.devRef .tc main_arg1) (mem_uc main_arg1 (by decide))).trans (V15_main_arg1 m (outs m) c),
     (h c (Proc.devRef .tc main_arg2) (mem_uc main_arg2 (by decide))).trans (V15_main_arg2 m (outs m) c),
     (h c (Proc.devRef .tc main_arg3) (mem_uc main_arg3 (by decide))).trans (V15_main_arg3 m (outs m) c),
     (h c (Proc.devRef .tc main_arg4) (mem_uc main_arg4 (by decide))).trans (V15_main_arg4 m (outs m) c),
     (h c (Proc.devRef .tc main_arg5) (mem_uc main_arg5 (by decide))).trans (V15_main_arg5 m (outs m) c),
     (h c (Proc.devRef .tc main_arg6) (mem_uc main_arg6 (by decide))).trans (V15_main_arg6 m (outs m) c),
     (h c (Proc.devRef .tc main_arg7) (mem_uc main_arg7 (by decide))).trans (V15_main_arg7 m (outs m) c),
     (h c (Proc.devRef .tc main_arg8) (mem_uc main_arg8 (by decide))).trans (V15_main_arg8 m (outs m) c),
     (h c (Proc.devRef .tc main_arg9) (mem_uc main_arg9 (by decide))).trans (V15_main_arg9 m (outs m) c),
     (h c (Proc.devRef .tc main_arg10) (mem_uc main_arg10 (by decide))).trans (V15_main_arg10 m (outs m) c),
     (h c (Proc.devRef .tc main_arg11) (mem_uc main_arg11 (by decide))).trans (V15_main_arg11 m (outs m) c),
     (h c (Proc.devRef .tc main_arg12) (mem_uc main_arg12 (by decide))).trans (V15_main_arg12 m (outs m) c),
     (h c (Proc.devRef .tc main_arg13) (mem_uc main_arg13 (by decide))).trans (V15_main_arg13 m (outs m) c),
     (h c (Proc.devRef .tc main_arg14) (mem_uc main_arg14 (by decide))).trans (V15_main_arg14 m (outs m) c),
     (h c (Proc.devRef .tc main_arg15) (mem_uc main_arg15 (by decide))).trans (V15_main_arg15 m (outs m) c),
     (h c (Proc.devRef .tc main_arg16) (mem_uc main_arg16 (by decide))).trans (V15_main_arg16 m (outs m) c),
     (h c (Proc.devRef .tc main_arg17) (mem_uc main_arg17 (by decide))).trans (V15_main_arg17 m (outs m) c),
     (h c (Proc.devRef .tc main_arg18) (mem_uc main_arg18 (by decide))).trans (V15_main_arg18 m (outs m) c)⟩) (run_main m ρ)

/-- The run's three results, each at the last valuation, beside the unchanged arguments. -/
theorem run_values (ρ : Dev nD → PrngReg) :
    θ_run defs (onTc (τ := τ) (main (F := F))) ⟨m, fun _ => 0, ρ⟩ (fun r => ∀ c : Dev nD,
      r.2.mem ((c.tc : Thread nD τ).loc main_v147) = V15 m (outs m) c main_v147
      ∧ r.2.mem ((c.tc : Thread nD τ).loc main_v149) = V15 m (outs m) c main_v149
      ∧ r.2.mem ((c.tc : Thread nD τ).loc main_v175) = V15 m (outs m) c main_v175
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c (Proc.devRef .tc main_v147) (mem_uc main_v147 (by decide)),
     h c (Proc.devRef .tc main_v149) (mem_uc main_v149 (by decide)),
     h c (Proc.devRef .tc main_v175) (mem_uc main_v175 (by decide)),
     (h c (Proc.devRef .tc main_arg0) (mem_uc main_arg0 (by decide))).trans (V15_main_arg0 m (outs m) c),
     (h c (Proc.devRef .tc main_arg1) (mem_uc main_arg1 (by decide))).trans (V15_main_arg1 m (outs m) c),
     (h c (Proc.devRef .tc main_arg2) (mem_uc main_arg2 (by decide))).trans (V15_main_arg2 m (outs m) c),
     (h c (Proc.devRef .tc main_arg3) (mem_uc main_arg3 (by decide))).trans (V15_main_arg3 m (outs m) c),
     (h c (Proc.devRef .tc main_arg4) (mem_uc main_arg4 (by decide))).trans (V15_main_arg4 m (outs m) c),
     (h c (Proc.devRef .tc main_arg5) (mem_uc main_arg5 (by decide))).trans (V15_main_arg5 m (outs m) c),
     (h c (Proc.devRef .tc main_arg6) (mem_uc main_arg6 (by decide))).trans (V15_main_arg6 m (outs m) c),
     (h c (Proc.devRef .tc main_arg7) (mem_uc main_arg7 (by decide))).trans (V15_main_arg7 m (outs m) c),
     (h c (Proc.devRef .tc main_arg8) (mem_uc main_arg8 (by decide))).trans (V15_main_arg8 m (outs m) c),
     (h c (Proc.devRef .tc main_arg9) (mem_uc main_arg9 (by decide))).trans (V15_main_arg9 m (outs m) c),
     (h c (Proc.devRef .tc main_arg10) (mem_uc main_arg10 (by decide))).trans (V15_main_arg10 m (outs m) c),
     (h c (Proc.devRef .tc main_arg11) (mem_uc main_arg11 (by decide))).trans (V15_main_arg11 m (outs m) c),
     (h c (Proc.devRef .tc main_arg12) (mem_uc main_arg12 (by decide))).trans (V15_main_arg12 m (outs m) c),
     (h c (Proc.devRef .tc main_arg13) (mem_uc main_arg13 (by decide))).trans (V15_main_arg13 m (outs m) c),
     (h c (Proc.devRef .tc main_arg14) (mem_uc main_arg14 (by decide))).trans (V15_main_arg14 m (outs m) c),
     (h c (Proc.devRef .tc main_arg15) (mem_uc main_arg15 (by decide))).trans (V15_main_arg15 m (outs m) c),
     (h c (Proc.devRef .tc main_arg16) (mem_uc main_arg16 (by decide))).trans (V15_main_arg16 m (outs m) c),
     (h c (Proc.devRef .tc main_arg17) (mem_uc main_arg17 (by decide))).trans (V15_main_arg17 m (outs m) c),
     (h c (Proc.devRef .tc main_arg18) (mem_uc main_arg18 (by decide))).trans (V15_main_arg18 m (outs m) c)⟩) (run_main m ρ)

end Cert.KernelIdeal.Hand

end
-- ==== Proof.RI.Ops.lean ====
/- The reference program's host operations as lists, in @main's order, cut into stretches: each statement of the printed
   @main is one element; a call of an outlined function is that function's operations over the call's buffer record.
   Per stretch: the operations touch TensorCore references only, and the references they write. -/
import proofs.«422874_j81398220194430_3_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- 33 operations. -/
abbrev opsA : List (HloOp τ sig (Elt F)) :=
  [ StableHlo.nullary main_v0 (iotaInDim S16384 32 0),
    StableHlo.unary main_arg1 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.binary main_v2 main_v0 main_v3 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    StableHlo.unary main_arg1 main_v4 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v4 main_v5 rfl shapeCasts_S1x524288_S524288,
    StableHlo.binary main_v5 main_v0 main_v6 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    StableHlo.nullary main_cst (constant S_ .f32 0x3F800000#32),
    StableHlo.unary main_cst main_v7 (broadcastInDim S540672 ![] bcast_S_S540672 : (⟨S_, .f32⟩ : BufTy).Contents (Elt F) → (⟨S540672, .f32⟩ : BufTy).Contents (Elt F)),
    StableHlo.nullary main_cst_0 (constant S_ .f32 0x00000000#32),
    StableHlo.unary main_cst_0 main_v8 (broadcastInDim S16384 ![] bcast_S_S16384 : (⟨S_, .f32⟩ : BufTy).Contents (Elt F) → (⟨S16384, .f32⟩ : BufTy).Contents (Elt F)),
    StableHlo.unary main_v6 main_v9 (broadcastInDim S540672x1 ![0] bcast_S540672_S540672x1_0 : (⟨S540672, .i32⟩ : BufTy).Contents (Elt F) → (⟨S540672x1, .i32⟩ : BufTy).Contents (Elt F)),
    StableHlo.ternary main_v8 main_v9 main_v7 main_v10 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F)),
    StableHlo.unary main_v10 main_v11 (Host.rsqrt : (⟨S16384, .f32⟩ : BufTy).Contents (Elt F) → (⟨S16384, .f32⟩ : BufTy).Contents (Elt F)),
    StableHlo.nullary main_c (constantI S_ 32 0#32),
    StableHlo.unary main_c main_v12 (broadcastInDim S540672 ![] bcast_S_S540672 : (⟨S_, .i32⟩ : BufTy).Contents (Elt F) → (⟨S540672, .i32⟩ : BufTy).Contents (Elt F)),
    StableHlo.binary main_v3 main_v12 main_v13 (cmpi .slt : (⟨S540672, .i32⟩ : BufTy).Contents (Elt F) → (⟨S540672, .i32⟩ : BufTy).Contents (Elt F) → (⟨S540672, .i1⟩ : BufTy).Contents (Elt F)),
    StableHlo.nullary main_c_1 (constantI S_ 32 16384#32),
    StableHlo.unary main_c_1 main_v14 (broadcastInDim S540672 ![] bcast_S_S540672 : (⟨S_, .i32⟩ : BufTy).Contents (Elt F) → (⟨S540672, .i32⟩ : BufTy).Contents (Elt F)),
    StableHlo.binary main_v3 main_v14 main_v15 (addi : (⟨S540672, .i32⟩ : BufTy).Contents (Elt F) → (⟨S540672, .i32⟩ : BufTy).Contents (Elt F) → (⟨S540672, .i32⟩ : BufTy).Contents (Elt F)),
    StableHlo.ternary main_v13 main_v15 main_v3 main_v16 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v16 main_v17 (broadcastInDim S540672x1 ![0] bcast_S540672_S540672x1_0 : (⟨S540672, .i32⟩ : BufTy).Contents (Elt F) → (⟨S540672x1, .i32⟩ : BufTy).Contents (Elt F)),
    StableHlo.binary main_v11 main_v17 main_v18 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    StableHlo.nullary main_c_2 (constantI S_ 32 0#32),
    StableHlo.unary main_c_2 main_v19 (broadcastInDim S540672 ![] bcast_S_S540672 : (⟨S_, .i32⟩ : BufTy).Contents (Elt F) → (⟨S540672, .i32⟩ : BufTy).Contents (Elt F)),
    StableHlo.binary main_v6 main_v19 main_v20 (cmpi .slt : (⟨S540672, .i32⟩ : BufTy).Contents (Elt F) → (⟨S540672, .i32⟩ : BufTy).Contents (Elt F) → (⟨S540672, .i1⟩ : BufTy).Contents (Elt F)),
    StableHlo.nullary main_c_3 (constantI S_ 32 16384#32),
    StableHlo.unary main_c_3 main_v21 (broadcastInDim S540672 ![] bcast_S_S540672 : (⟨S_, .i32⟩ : BufTy).Contents (Elt F) → (⟨S540672, .i32⟩ : BufTy).Contents (Elt F)),
    StableHlo.binary main_v6 main_v21 main_v22 (addi : (⟨S540672, .i32⟩ : BufTy).Contents (Elt F) → (⟨S540672, .i32⟩ : BufTy).Contents (Elt F) → (⟨S540672, .i32⟩ : BufTy).Contents (Elt F)),
    StableHlo.ternary main_v20 main_v22 main_v6 main_v23 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v23 main_v24 (broadcastInDim S540672x1 ![0] bcast_S540672_S540672x1_0 : (⟨S540672, .i32⟩ : BufTy).Contents (Elt F) → (⟨S540672x1, .i32⟩ : BufTy).Contents (Elt F)),
    StableHlo.binary main_v11 main_v24 main_v25 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    StableHlo.binary main_v18 main_v25 main_v26 (mulf : (⟨S540672, .f32⟩ : BufTy).Contents (Elt F) → (⟨S540672, .f32⟩ : BufTy).Contents (Elt F) → (⟨S540672, .f32⟩ : BufTy).Contents (Elt F)) ]
theorem opsA_sub : (opsA : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
abbrev opsA_W : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
theorem opsA_writes : (opsA : List (HloOp τ sig (Elt F))).Forall fun op => op.writes ⊆ (opsA_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 1 operations. -/
abbrev opsM0 : List (HloOp τ sig (Elt F)) :=
  [ StableHlo.binary main_arg0 main_arg3 main_v27 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)) ]
theorem opsM0_sub : (opsM0 : List (HloOp τ sig (Elt F))).Forall fun op => op.bufs ⊆ StableHlo.tcRefs τ sig :=
  StableHlo.binary_bufs_sub ..
abbrev opsM0_W : List (Ref sig .tc) := [main_v27]
theorem opsM0_writes : (opsM0 : List (HloOp τ sig (Elt F))).Forall fun op => op.writes ⊆ (opsM0_W.map (Proc.devRef (τ := τ) .tc)).toFinset := by
  simp only [List.Forall]; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- 25 operations. -/
abbrev opsB : List (HloOp τ sig (Elt F)) :=
  [ StableHlo.nullary main_c_4 (constantI S_ 32 0#32),
    StableHlo.unary main_c_4 main_v28 (broadcastInDim S540672 ![] bcast_S_S540672 : (⟨S_, .i32⟩ : BufTy).Contents (Elt F) → (⟨S540672, .i32⟩ : BufTy).Contents (Elt F)),
    StableHlo.binary main_v3 main_v28 main_v29 (cmpi .slt : (⟨S540672, .i32⟩ : BufTy).Contents (Elt F) → (⟨S540672, .i32⟩ : BufTy).Contents (Elt F) → (⟨S540672, .i1⟩ : BufTy).Contents (Elt F)),
    StableHlo.nullary main_c_5 (constantI S_ 32 16384#32),
    StableHlo.unary main_c_5 main_v30 (broadcastInDim S540672 ![] bcast_S_S540672 : (⟨S_, .i32⟩ : BufTy).Contents (Elt F) → (⟨S540672, .i32⟩ : BufTy).Contents (Elt F)),
    StableHlo.binary main_v3 main_v30 main_v31 (addi : (⟨S540672, .i32⟩ : BufTy).Contents (Elt F) → (⟨S540672, .i32⟩ : BufTy).Contents (Elt F) → (⟨S540672, .i32⟩ : BufTy).Contents (Elt F)),
    StableHlo.ternary main_v29 main_v31 main_v3 main_v32 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v32 main_v33 (broadcastInDim S540672x1 ![0] bcast_S540672_S540672x1_0 : (⟨S540672, .i32⟩ : BufTy).Contents (Elt F) → (⟨S540672x1, .i32⟩ : BufTy).Contents (Elt F)),
    StableHlo.binary main_v27 main_v33 main_v34 ((fun x i => Host.gather gather_S16384x128_S540672x1_S540672x128_1_0_n_n_0_1_1128 x i) : (⟨S16384x128, .f32⟩ : BufTy).Contents (Elt F) → (⟨S540672x1, .i32⟩ : BufTy).Contents (Elt F) → (⟨S540672x128, .f32⟩ : BufTy).Contents (Elt F)),
    StableHlo.unary main_v26 main_v35 (broadcastInDim S540672x1 ![0] bcast_S540672_S540672x1_0 : (⟨S540672, .f32⟩ : BufTy).Contents (Elt F) → (⟨S540672x1, .f32⟩ : BufTy).Contents (Elt F)),
    StableHlo.unary main_v35 main_v36 (broadcastInDim S540672x128 ![0, 1] bcast_S540672x1_S540672x128_0_1 : (⟨S540672x1, .f32⟩ : BufTy).Contents (Elt F) → (⟨S540672x128, .f32⟩ : BufTy).Contents (Elt F)),
    StableHlo.binary main_v34 main_v36 main_v37 (mulf : (⟨S540672x128, .f32⟩ : BufTy).Contents (Elt F) → (⟨S540672x128, .f32⟩ : BufTy).Contents (Elt F) → (⟨S540672x128, .f32⟩ : BufTy).Contents (Elt F)),
    StableHlo.nullary main_cst_6 (constant S_ .f32 0x00000000#32),
    StableHlo.unary main_cst_6 main_v38 (broadcastInDim S16384x128 ![] bcast_S_S16384x128 : (⟨S_, .f32⟩ : BufTy).Contents (Elt F) → (⟨S16384x128, .f32⟩ : BufTy).Contents (Elt F)),
    StableHlo.unary main_v6 main_v39 (broadcastInDim S540672x1 ![0] bcast_S540672_S540672x1_0 : (⟨S540672, .i32⟩ : BufTy).Contents (Elt F) → (⟨S540672x1, .i32⟩ : BufTy).Contents (Elt F)),
    StableHlo.ternary main_v38 main_v39 main_v37 main_v40 ((fun x i u => Host.scatterAdd scatter_S16384x128_S540672x1_S540672x128_1_0_0_1 x i u) : (⟨S16384x128, .f32⟩ : BufTy).Contents (Elt F) → (⟨S540672x1, .i32⟩ : BufTy).Contents (Elt F) → (⟨S540672x128, .f32⟩ : BufTy).Contents (Elt F) → (⟨S16384x128, .f32⟩ : BufTy).Contents (Elt F)),
    StableHlo.unary main_arg4 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S16384x128 ![0, 1] bcast_S1x128_S16384x128_0_1 : (⟨S1x128, .f32⟩ : BufTy).Contents (Elt F) → (⟨S16384x128, .f32⟩ : BufTy).Contents (Elt F)),
    StableHlo.binary main_v40 main_v42 main_v43 (addf : (⟨S16384x128, .f32⟩ : BufTy).Contents (Elt F) → (⟨S16384x128, .f32⟩ : BufTy).Contents (Elt F) → (⟨S16384x128, .f32⟩ : BufTy).Contents (Elt F)),
    StableHlo.nullary main_cst_7 (constant S_ .f32 0x00000000#32),
    StableHlo.binary main_v43 main_cst_7 main_v44 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    StableHlo.nullary main_cst_8 (constant S_ .f32 0x46800000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]
theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
abbrev opsB_W : List (Ref sig .tc) := [main_c_4, main_v28, main_v29, main_c_5, main_v30, main_v31, main_v32, main_v33, main_v34, main_v35, main_v36, main_v37, main_cst_6, main_v38, main_v39, main_v40, main_v41, main_v42, main_v43, main_cst_7, main_v44, main_cst_8, main_v45, main_v46, main_c_9]
theorem opsB_writes : (opsB : List (HloOp τ sig (Elt F))).Forall fun op => op.writes ⊆ (opsB_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 22 operations. -/
abbrev opsBv : List (HloOp τ sig (Elt F)) :=
  [ StableHlo.TRef.nullary (.of main_call0_cst : StableHlo.TRef sig ⟨S_, .f32⟩) (constant S_ .f32 0x00000000#32),
    StableHlo.TRef.binary (.of main_v43 : StableHlo.TRef sig ⟨S16384x128, .f32⟩) (.of main_call0_cst : StableHlo.TRef sig ⟨S_, .f32⟩) (.of main_call0_v0 : StableHlo.TRef sig ⟨S128, .f32⟩) (fun x v => Host.reduceAdd x v reducesTo_S16384x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x46800000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S16384x128, .f32⟩) (broadcastInDim S16384x128 ![0, 1] bcast_S1x128_S16384x128_0_1),
    StableHlo.TRef.binary (.of main_v43 : StableHlo.TRef sig ⟨S16384x128, .f32⟩) (.of main_call0_v4 : StableHlo.TRef sig ⟨S16384x128, .f32⟩) (.of main_call0_v5 : StableHlo.TRef sig ⟨S16384x128, .f32⟩) subf,
    StableHlo.TRef.binary (.of main_call0_v5 : StableHlo.TRef sig ⟨S16384x128, .f32⟩) (.of main_call0_v5 : StableHlo.TRef sig ⟨S16384x128, .f32⟩) (.of main_call0_v6 : StableHlo.TRef sig ⟨S16384x128, .f32⟩) mulf,
    StableHlo.TRef.unary (.of main_c_9 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S16384x128, .f32⟩) (.of main_call0_cst_2 : StableHlo.TRef sig ⟨S_, .f32⟩) (.of main_call0_v9 : StableHlo.TRef sig ⟨S128, .f32⟩) (fun x v => Host.reduceAdd x v reducesTo_S16384x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v47 : StableHlo.TRef sig ⟨S128, .f32⟩) (fun p a b => select (broadcastInDim S128 ![] bcast_S_S128 p) a b) ]
theorem opsBv_sub : (opsBv : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
abbrev opsBv_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]
theorem opsBv_writes : (opsBv : List (HloOp τ sig (Elt F))).Forall fun op => op.writes ⊆ (opsBv_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 16 operations. -/
abbrev opsBn : List (HloOp τ sig (Elt F)) :=
  [ StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S16384x128 ![0, 1] bcast_S1x128_S16384x128_0_1 : (⟨S1x128, .f32⟩ : BufTy).Contents (Elt F) → (⟨S16384x128, .f32⟩ : BufTy).Contents (Elt F)),
    StableHlo.binary main_v43 main_v49 main_v50 (subf : (⟨S16384x128, .f32⟩ : BufTy).Contents (Elt F) → (⟨S16384x128, .f32⟩ : BufTy).Contents (Elt F) → (⟨S16384x128, .f32⟩ : BufTy).Contents (Elt F)),
    StableHlo.unary main_arg5 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S16384x128 ![0, 1] bcast_S1x128_S16384x128_0_1 : (⟨S1x128, .f32⟩ : BufTy).Contents (Elt F) → (⟨S16384x128, .f32⟩ : BufTy).Contents (Elt F)),
    StableHlo.binary main_v52 main_v50 main_v53 (mulf : (⟨S16384x128, .f32⟩ : BufTy).Contents (Elt F) → (⟨S16384x128, .f32⟩ : BufTy).Contents (Elt F) → (⟨S16384x128, .f32⟩ : BufTy).Contents (Elt F)),
    StableHlo.nullary main_cst_10 (constant S_ .f32 0x3727C5AC#32),
    StableHlo.unary main_cst_10 main_v54 (broadcastInDim S128 ![] bcast_S_S128 : (⟨S_, .f32⟩ : BufTy).Contents (Elt F) → (⟨S128, .f32⟩ : BufTy).Contents (Elt F)),
    StableHlo.binary main_v47 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S16384x128 ![0, 1] bcast_S1x128_S16384x128_0_1 : (⟨S1x128, .f32⟩ : BufTy).Contents (Elt F) → (⟨S16384x128, .f32⟩ : BufTy).Contents (Elt F)),
    StableHlo.binary main_v53 main_v58 main_v59 (mulf : (⟨S16384x128, .f32⟩ : BufTy).Contents (Elt F) → (⟨S16384x128, .f32⟩ : BufTy).Contents (Elt F) → (⟨S16384x128, .f32⟩ : BufTy).Contents (Elt F)),
    StableHlo.unary main_arg6 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S16384x128 ![0, 1] bcast_S1x128_S16384x128_0_1 : (⟨S1x128, .f32⟩ : BufTy).Contents (Elt F) → (⟨S16384x128, .f32⟩ : BufTy).Contents (Elt F)),
    StableHlo.binary main_v59 main_v61 main_v62 (addf : (⟨S16384x128, .f32⟩ : BufTy).Contents (Elt F) → (⟨S16384x128, .f32⟩ : BufTy).Contents (Elt F) → (⟨S16384x128, .f32⟩ : BufTy).Contents (Elt F)) ]
theorem opsBn_sub : (opsBn : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
abbrev opsBn_W : List (Ref sig .tc) := [main_v48, main_v49, main_v50, main_v51, main_v52, main_v53, main_cst_10, main_v54, main_v55, main_v56, main_v57, main_v58, main_v59, main_v60, main_v61, main_v62]
theorem opsBn_writes : (opsBn : List (HloOp τ sig (Elt F))).Forall fun op => op.writes ⊆ (opsBn_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 3 operations. -/
abbrev opsBr : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S16384x128, .f32⟩) (broadcastInDim S16384x128 ![] bcast_S_S16384x128),
    StableHlo.TRef.binary (.of main_v62 : StableHlo.TRef sig ⟨S16384x128, .f32⟩) (.of main_call1_v0 : StableHlo.TRef sig ⟨S16384x128, .f32⟩) (.of main_v63 : StableHlo.TRef sig ⟨S16384x128, .f32⟩) maximumf ]
theorem opsBr_sub : (opsBr : List (HloOp τ sig (Elt F))).Forall fun op => op.bufs ⊆ StableHlo.tcRefs τ sig :=
  ⟨StableHlo.nullary_bufs_sub .., StableHlo.unary_bufs_sub .., StableHlo.binary_bufs_sub ..⟩
abbrev opsBr_W : List (Ref sig .tc) := [main_call1_cst, main_call1_v0, main_v63]
theorem opsBr_writes : (opsBr : List (HloOp τ sig (Elt F))).Forall fun op => op.writes ⊆ (opsBr_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 1 operations. -/
abbrev opsM1 : List (HloOp τ sig (Elt F)) :=
  [ StableHlo.binary main_v63 main_arg7 main_v64 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)) ]
theorem opsM1_sub : (opsM1 : List (HloOp τ sig (Elt F))).Forall fun op => op.bufs ⊆ StableHlo.tcRefs τ sig :=
  StableHlo.binary_bufs_sub ..
abbrev opsM1_W : List (Ref sig .tc) := [main_v64]
theorem opsM1_writes : (opsM1 : List (HloOp τ sig (Elt F))).Forall fun op => op.writes ⊆ (opsM1_W.map (Proc.devRef (τ := τ) .tc)).toFinset := by
  simp only [List.Forall]; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)

/-- 25 operations. -/
abbrev opsC : List (HloOp τ sig (Elt F)) :=
  [ StableHlo.nullary main_c_11 (constantI S_ 32 0#32),
    StableHlo.unary main_c_11 main_v65 (broadcastInDim S540672 ![] bcast_S_S540672 : (⟨S_, .i32⟩ : BufTy).Contents (Elt F) → (⟨S540672, .i32⟩ : BufTy).Contents (Elt F)),
    StableHlo.binary main_v3 main_v65 main_v66 (cmpi .slt : (⟨S540672, .i32⟩ : BufTy).Contents (Elt F) → (⟨S540672, .i32⟩ : BufTy).Contents (Elt F) → (⟨S540672, .i1⟩ : BufTy).Contents (Elt F)),
    StableHlo.nullary main_c_12 (constantI S_ 32 16384#32),
    StableHlo.unary main_c_12 main_v67 (broadcastInDim S540672 ![] bcast_S_S540672 : (⟨S_, .i32⟩ : BufTy).Contents (Elt F) → (⟨S540672, .i32⟩ : BufTy).Contents (Elt F)),
    StableHlo.binary main_v3 main_v67 main_v68 (addi : (⟨S540672, .i32⟩ : BufTy).Contents (Elt F) → (⟨S540672, .i32⟩ : BufTy).Contents (Elt F) → (⟨S540672, .i32⟩ : BufTy).Contents (Elt F)),
    StableHlo.ternary main_v66 main_v68 main_v3 main_v69 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v69 main_v70 (broadcastInDim S540672x1 ![0] bcast_S540672_S540672x1_0 : (⟨S540672, .i32⟩ : BufTy).Contents (Elt F) → (⟨S540672x1, .i32⟩ : BufTy).Contents (Elt F)),
    StableHlo.binary main_v64 main_v70 main_v71 ((fun x i => Host.gather gather_S16384x64_S540672x1_S540672x64_1_0_n_n_0_1_164 x i) : (⟨S16384x64, .f32⟩ : BufTy).Contents (Elt F) → (⟨S540672x1, .i32⟩ : BufTy).Contents (Elt F) → (⟨S540672x64, .f32⟩ : BufTy).Contents (Elt F)),
    StableHlo.unary main_v26 main_v72 (broadcastInDim S540672x1 ![0] bcast_S540672_S540672x1_0 : (⟨S540672, .f32⟩ : BufTy).Contents (Elt F) → (⟨S540672x1, .f32⟩ : BufTy).Contents (Elt F)),
    StableHlo.unary main_v72 main_v73 (broadcastInDim S540672x64 ![0, 1] bcast_S540672x1_S540672x64_0_1 : (⟨S540672x1, .f32⟩ : BufTy).Contents (Elt F) → (⟨S540672x64, .f32⟩ : BufTy).Contents (Elt F)),
    StableHlo.binary main_v71 main_v73 main_v74 (mulf : (⟨S540672x64, .f32⟩ : BufTy).Contents (Elt F) → (⟨S540672x64, .f32⟩ : BufTy).Contents (Elt F) → (⟨S540672x64, .f32⟩ : BufTy).Contents (Elt F)),
    StableHlo.nullary main_cst_13 (constant S_ .f32 0x00000000#32),
    StableHlo.unary main_cst_13 main_v75 (broadcastInDim S16384x64 ![] bcast_S_S16384x64 : (⟨S_, .f32⟩ : BufTy).Contents (Elt F) → (⟨S16384x64, .f32⟩ : BufTy).Contents (Elt F)),
    StableHlo.unary main_v6 main_v76 (broadcastInDim S540672x1 ![0] bcast_S540672_S540672x1_0 : (⟨S540672, .i32⟩ : BufTy).Contents (Elt F) → (⟨S540672x1, .i32⟩ : BufTy).Contents (Elt F)),
    StableHlo.ternary main_v75 main_v76 main_v74 main_v77 ((fun x i u => Host.scatterAdd scatter_S16384x64_S540672x1_S540672x64_1_0_0_1 x i u) : (⟨S16384x64, .f32⟩ : BufTy).Contents (Elt F) → (⟨S540672x1, .i32⟩ : BufTy).Contents (Elt F) → (⟨S540672x64, .f32⟩ : BufTy).Contents (Elt F) → (⟨S16384x64, .f32⟩ : BufTy).Contents (Elt F)),
    StableHlo.unary main_arg8 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S16384x64 ![0, 1] bcast_S1x64_S16384x64_0_1 : (⟨S1x64, .f32⟩ : BufTy).Contents (Elt F) → (⟨S16384x64, .f32⟩ : BufTy).Contents (Elt F)),
    StableHlo.binary main_v77 main_v79 main_v80 (addf : (⟨S16384x64, .f32⟩ : BufTy).Contents (Elt F) → (⟨S16384x64, .f32⟩ : BufTy).Contents (Elt F) → (⟨S16384x64, .f32⟩ : BufTy).Contents (Elt F)),
    StableHlo.nullary main_cst_14 (constant S_ .f32 0x00000000#32),
    StableHlo.binary main_v80 main_cst_14 main_v81 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    StableHlo.nullary main_cst_15 (constant S_ .f32 0x46800000#32),
    StableHlo.unary main_cst_15 main_v82 (broadcastInDim S64 ![] bcast_S_S64 : (⟨S_, .f32⟩ : BufTy).Contents (Elt F) → (⟨S64, .f32⟩ : BufTy).Contents (Elt F)),
    StableHlo.binary main_v81 main_v82 main_v83 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32) ]
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
abbrev opsC_W : List (Ref sig .tc) := [main_c_11, main_v65, main_v66, main_c_12, main_v67, main_v68, main_v69, main_v70, main_v71, main_v72, main_v73, main_v74, main_cst_13, main_v75, main_v76, main_v77, main_v78, main_v79, main_v80, main_cst_14, main_v81, main_cst_15, main_v82, main_v83, main_c_16]
theorem opsC_writes : (opsC : List (HloOp τ sig (Elt F))).Forall fun op => op.writes ⊆ (opsC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 22 operations. -/
abbrev opsCv : List (HloOp τ sig (Elt F)) :=
  [ StableHlo.TRef.nullary (.of main_call2_cst : StableHlo.TRef sig ⟨S_, .f32⟩) (constant S_ .f32 0x00000000#32),
    StableHlo.TRef.binary (.of main_v80 : StableHlo.TRef sig ⟨S16384x64, .f32⟩) (.of main_call2_cst : StableHlo.TRef sig ⟨S_, .f32⟩) (.of main_call2_v0 : StableHlo.TRef sig ⟨S64, .f32⟩) (fun x v => Host.reduceAdd x v reducesTo_S16384x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x46800000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S16384x64, .f32⟩) (broadcastInDim S16384x64 ![0, 1] bcast_S1x64_S16384x64_0_1),
    StableHlo.TRef.binary (.of main_v80 : StableHlo.TRef sig ⟨S16384x64, .f32⟩) (.of main_call2_v4 : StableHlo.TRef sig ⟨S16384x64, .f32⟩) (.of main_call2_v5 : StableHlo.TRef sig ⟨S16384x64, .f32⟩) subf,
    StableHlo.TRef.binary (.of main_call2_v5 : StableHlo.TRef sig ⟨S16384x64, .f32⟩) (.of main_call2_v5 : StableHlo.TRef sig ⟨S16384x64, .f32⟩) (.of main_call2_v6 : StableHlo.TRef sig ⟨S16384x64, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S16384x64, .f32⟩) (.of main_call2_cst_2 : StableHlo.TRef sig ⟨S_, .f32⟩) (.of main_call2_v9 : StableHlo.TRef sig ⟨S64, .f32⟩) (fun x v => Host.reduceAdd x v reducesTo_S16384x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v84 : StableHlo.TRef sig ⟨S64, .f32⟩) (fun p a b => select (broadcastInDim S64 ![] bcast_S_S64 p) a b) ]
theorem opsCv_sub : (opsCv : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
abbrev opsCv_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v84]
theorem opsCv_writes : (opsCv : List (HloOp τ sig (Elt F))).Forall fun op => op.writes ⊆ (opsCv_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 16 operations. -/
abbrev opsCn : List (HloOp τ sig (Elt F)) :=
  [ StableHlo.unary main_v83 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S16384x64 ![0, 1] bcast_S1x64_S16384x64_0_1 : (⟨S1x64, .f32⟩ : BufTy).Contents (Elt F) → (⟨S16384x64, .f32⟩ : BufTy).Contents (Elt F)),
    StableHlo.binary main_v80 main_v86 main_v87 (subf : (⟨S16384x64, .f32⟩ : BufTy).Contents (Elt F) → (⟨S16384x64, .f32⟩ : BufTy).Contents (Elt F) → (⟨S16384x64, .f32⟩ : BufTy).Contents (Elt F)),
    StableHlo.unary main_arg9 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S16384x64 ![0, 1] bcast_S1x64_S16384x64_0_1 : (⟨S1x64, .f32⟩ : BufTy).Contents (Elt F) → (⟨S16384x64, .f32⟩ : BufTy).Contents (Elt F)),
    StableHlo.binary main_v89 main_v87 main_v90 (mulf : (⟨S16384x64, .f32⟩ : BufTy).Contents (Elt F) → (⟨S16384x64, .f32⟩ : BufTy).Contents (Elt F) → (⟨S16384x64, .f32⟩ : BufTy).Contents (Elt F)),
    StableHlo.nullary main_cst_17 (constant S_ .f32 0x3727C5AC#32),
    StableHlo.unary main_cst_17 main_v91 (broadcastInDim S64 ![] bcast_S_S64 : (⟨S_, .f32⟩ : BufTy).Contents (Elt F) → (⟨S64, .f32⟩ : BufTy).Contents (Elt F)),
    StableHlo.binary main_v84 main_v91 main_v92 (addf : (⟨S64, .f32⟩ : BufTy).Contents (Elt F) → (⟨S64, .f32⟩ : BufTy).Contents (Elt F) → (⟨S64, .f32⟩ : BufTy).Contents (Elt F)),
    StableHlo.unary main_v92 main_v93 (Host.rsqrt : (⟨S64, .f32⟩ : BufTy).Contents (Elt F) → (⟨S64, .f32⟩ : BufTy).Contents (Elt F)),
    StableHlo.unary main_v93 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S16384x64 ![0, 1] bcast_S1x64_S16384x64_0_1 : (⟨S1x64, .f32⟩ : BufTy).Contents (Elt F) → (⟨S16384x64, .f32⟩ : BufTy).Contents (Elt F)),
    StableHlo.binary main_v90 main_v95 main_v96 (mulf : (⟨S16384x64, .f32⟩ : BufTy).Contents (Elt F) → (⟨S16384x64, .f32⟩ : BufTy).Contents (Elt F) → (⟨S16384x64, .f32⟩ : BufTy).Contents (Elt F)),
    StableHlo.unary main_arg10 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S16384x64 ![0, 1] bcast_S1x64_S16384x64_0_1 : (⟨S1x64, .f32⟩ : BufTy).Contents (Elt F) → (⟨S16384x64, .f32⟩ : BufTy).Contents (Elt F)),
    StableHlo.binary main_v96 main_v98 main_v99 (addf : (⟨S16384x64, .f32⟩ : BufTy).Contents (Elt F) → (⟨S16384x64, .f32⟩ : BufTy).Contents (Elt F) → (⟨S16384x64, .f32⟩ : BufTy).Contents (Elt F)) ]
theorem opsCn_sub : (opsCn : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
abbrev opsCn_W : List (Ref sig .tc) := [main_v85, main_v86, main_v87, main_v88, main_v89, main_v90, main_cst_17, main_v91, main_v92, main_v93, main_v94, main_v95, main_v96, main_v97, main_v98, main_v99]
theorem opsCn_writes : (opsCn : List (HloOp τ sig (Elt F))).Forall fun op => op.writes ⊆ (opsCn_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 3 operations. -/
abbrev opsCr : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S16384x64, .f32⟩) (broadcastInDim S16384x64 ![] bcast_S_S16384x64),
    StableHlo.TRef.binary (.of main_v99 : StableHlo.TRef sig ⟨S16384x64, .f32⟩) (.of main_call3_v0 : StableHlo.TRef sig ⟨S16384x64, .f32⟩) (.of main_v100 : StableHlo.TRef sig ⟨S16384x64, .f32⟩) maximumf ]
theorem opsCr_sub : (opsCr : List (HloOp τ sig (Elt F))).Forall fun op => op.bufs ⊆ StableHlo.tcRefs τ sig :=
  ⟨StableHlo.nullary_bufs_sub .., StableHlo.unary_bufs_sub .., StableHlo.binary_bufs_sub ..⟩
abbrev opsCr_W : List (Ref sig .tc) := [main_call3_cst, main_call3_v0, main_v100]
theorem opsCr_writes : (opsCr : List (HloOp τ sig (Elt F))).Forall fun op => op.writes ⊆ (opsCr_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 51 operations. -/
abbrev opsCh : List (HloOp τ sig (Elt F)) :=
  [ StableHlo.binary main_v100 main_arg11 main_v101 ((fun l r => Host.dotGeneral dot_S16384x64_S64x10_S16384x10_1_0_0_1_n_n none l r) : (⟨S16384x64, .f32⟩ : BufTy).Contents (Elt F) → (⟨S64x10, .f32⟩ : BufTy).Contents (Elt F) → (⟨S16384x10, .f32⟩ : BufTy).Contents (Elt F)),
    StableHlo.unary main_arg12 main_v102 (broadcastInDim S1x10 ![1] bcast_S10_S1x10_1 : (⟨S10, .f32⟩ : BufTy).Contents (Elt F) → (⟨S1x10, .f32⟩ : BufTy).Contents (Elt F)),
    StableHlo.unary main_v102 main_v103 (broadcastInDim S16384x10 ![0, 1] bcast_S1x10_S16384x10_0_1 : (⟨S1x10, .f32⟩ : BufTy).Contents (Elt F) → (⟨S16384x10, .f32⟩ : BufTy).Contents (Elt F)),
    StableHlo.binary main_v101 main_v103 main_v104 (addf : (⟨S16384x10, .f32⟩ : BufTy).Contents (Elt F) → (⟨S16384x10, .f32⟩ : BufTy).Contents (Elt F) → (⟨S16384x10, .f32⟩ : BufTy).Contents (Elt F)),
    StableHlo.unary main_v104 main_v105 (Host.negf : (⟨S16384x10, .f32⟩ : BufTy).Contents (Elt F) → (⟨S16384x10, .f32⟩ : BufTy).Contents (Elt F)),
    StableHlo.unary main_v105 main_v106 (Host.exp : (⟨S16384x10, .f32⟩ : BufTy).Contents (Elt F) → (⟨S16384x10, .f32⟩ : BufTy).Contents (Elt F)),
    StableHlo.nullary main_cst_18 (constant S_ .f32 0x3F800000#32),
    StableHlo.unary main_cst_18 main_v107 (broadcastInDim S16384x10 ![] bcast_S_S16384x10 : (⟨S_, .f32⟩ : BufTy).Contents (Elt F) → (⟨S16384x10, .f32⟩ : BufTy).Contents (Elt F)),
    StableHlo.binary main_v107 main_v106 main_v108 (addf : (⟨S16384x10, .f32⟩ : BufTy).Contents (Elt F) → (⟨S16384x10, .f32⟩ : BufTy).Contents (Elt F) → (⟨S16384x10, .f32⟩ : BufTy).Contents (Elt F)),
    StableHlo.nullary main_cst_19 (constant S_ .f32 0x3F800000#32),
    StableHlo.unary main_cst_19 main_v109 (broadcastInDim S16384x10 ![] bcast_S_S16384x10 : (⟨S_, .f32⟩ : BufTy).Contents (Elt F) → (⟨S16384x10, .f32⟩ : BufTy).Contents (Elt F)),
    StableHlo.binary main_v109 main_v108 main_v110 (Host.divf : (⟨S16384x10, .f32⟩ : BufTy).Contents (Elt F) → (⟨S16384x10, .f32⟩ : BufTy).Contents (Elt F) → (⟨S16384x10, .f32⟩ : BufTy).Contents (Elt F)),
    StableHlo.binary main_v100 main_arg13 main_v111 ((fun l r => Host.dotGeneral dot_S16384x64_S64x10_S16384x10_1_0_0_1_n_n none l r) : (⟨S16384x64, .f32⟩ : BufTy).Contents (Elt F) → (⟨S64x10, .f32⟩ : BufTy).Contents (Elt F) → (⟨S16384x10, .f32⟩ : BufTy).Contents (Elt F)),
    StableHlo.unary main_arg14 main_v112 (broadcastInDim S1x10 ![1] bcast_S10_S1x10_1 : (⟨S10, .f32⟩ : BufTy).Contents (Elt F) → (⟨S1x10, .f32⟩ : BufTy).Contents (Elt F)),
    StableHlo.unary main_v112 main_v113 (broadcastInDim S16384x10 ![0, 1] bcast_S1x10_S16384x10_0_1 : (⟨S1x10, .f32⟩ : BufTy).Contents (Elt F) → (⟨S16384x10, .f32⟩ : BufTy).Contents (Elt F)),
    StableHlo.binary main_v111 main_v113 main_v114 (addf : (⟨S16384x10, .f32⟩ : BufTy).Contents (Elt F) → (⟨S16384x10, .f32⟩ : BufTy).Contents (Elt F) → (⟨S16384x10, .f32⟩ : BufTy).Contents (Elt F)),
    StableHlo.unary main_v114 main_v115 ((extractStridedSlice S16384x4 ![0, 0] · slices_S16384x10_S16384x4_0_0) : (⟨S16384x10, .f32⟩ : BufTy).Contents (Elt F) → (⟨S16384x4, .f32⟩ : BufTy).Contents (Elt F)),
    StableHlo.nullary main_cst_20 (constant S_ .f32 0xFF800000#32),
    StableHlo.binary main_v115 main_cst_20 main_v116 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.nullary main_cst_21 (constant S_ .f32 0xFF800000#32),
    StableHlo.unary main_cst_21 main_v117 (broadcastInDim S16384 ![] bcast_S_S16384 : (⟨S_, .f32⟩ : BufTy).Contents (Elt F) → (⟨S16384, .f32⟩ : BufTy).Contents (Elt F)),
    StableHlo.binary main_v117 main_v116 main_v118 (maximumf : (⟨S16384, .f32⟩ : BufTy).Contents (Elt F) → (⟨S16384, .f32⟩ : BufTy).Contents (Elt F) → (⟨S16384, .f32⟩ : BufTy).Contents (Elt F)),
    StableHlo.unary main_v118 main_v119 (broadcastInDim S16384x1 ![0] bcast_S16384_S16384x1_0 : (⟨S16384, .f32⟩ : BufTy).Contents (Elt F) → (⟨S16384x1, .f32⟩ : BufTy).Contents (Elt F)),
    StableHlo.unary main_v119 main_v120 (broadcastInDim S16384x4 ![0, 1] bcast_S16384x1_S16384x4_0_1 : (⟨S16384x1, .f32⟩ : BufTy).Contents (Elt F) → (⟨S16384x4, .f32⟩ : BufTy).Contents (Elt F)),
    StableHlo.binary main_v115 main_v120 main_v121 (subf : (⟨S16384x4, .f32⟩ : BufTy).Contents (Elt F) → (⟨S16384x4, .f32⟩ : BufTy).Contents (Elt F) → (⟨S16384x4, .f32⟩ : BufTy).Contents (Elt F)),
    StableHlo.unary main_v121 main_v122 (Host.exp : (⟨S16384x4, .f32⟩ : BufTy).Contents (Elt F) → (⟨S16384x4, .f32⟩ : BufTy).Contents (Elt F)),
    StableHlo.nullary main_cst_22 (constant S_ .f32 0x00000000#32),
    StableHlo.binary main_v122 main_cst_22 main_v123 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    StableHlo.unary main_v123 main_v124 (broadcastInDim S16384x1 ![0] bcast_S16384_S16384x1_0 : (⟨S16384, .f32⟩ : BufTy).Contents (Elt F) → (⟨S16384x1, .f32⟩ : BufTy).Contents (Elt F)),
    StableHlo.unary main_v124 main_v125 (broadcastInDim S16384x4 ![0, 1] bcast_S16384x1_S16384x4_0_1 : (⟨S16384x1, .f32⟩ : BufTy).Contents (Elt F) → (⟨S16384x4, .f32⟩ : BufTy).Contents (Elt F)),
    StableHlo.binary main_v122 main_v125 main_v126 (Host.divf : (⟨S16384x4, .f32⟩ : BufTy).Contents (Elt F) → (⟨S16384x4, .f32⟩ : BufTy).Contents (Elt F) → (⟨S16384x4, .f32⟩ : BufTy).Contents (Elt F)),
    StableHlo.unary main_v114 main_v127 ((extractStridedSlice S16384x6 ![0, 4] · slices_S16384x10_S16384x6_0_4) : (⟨S16384x10, .f32⟩ : BufTy).Contents (Elt F) → (⟨S16384x6, .f32⟩ : BufTy).Contents (Elt F)),
    StableHlo.nullary main_cst_23 (constant S_ .f32 0xFF800000#32),
    StableHlo.binary main_v127 main_cst_23 main_v128 ((fun x v => Host.reduce FloatOps.maximumf x v reducesTo_S16384x6_S16384_d1 h_S_) : (⟨S16384x6, .f32⟩ : BufTy).Contents (Elt F) → (⟨S_, .f32⟩ : BufTy).Contents (Elt F) → (⟨S16384, .f32⟩ : BufTy).Contents (Elt F)),
    StableHlo.nullary main_cst_24 (constant S_ .f32 0xFF800000#32),
    StableHlo.unary main_cst_24 main_v129 (broadcastInDim S16384 ![] bcast_S_S16384 : (⟨S_, .f32⟩ : BufTy).Contents (Elt F) → (⟨S16384, .f32⟩ : BufTy).Contents (Elt F)),
    StableHlo.binary main_v129 main_v128 main_v130 (maximumf : (⟨S16384, .f32⟩ : BufTy).Contents (Elt F) → (⟨S16384, .f32⟩ : BufTy).Contents (Elt F) → (⟨S16384, .f32⟩ : BufTy).Contents (Elt F)),
    StableHlo.unary main_v130 main_v131 (broadcastInDim S16384x1 ![0] bcast_S16384_S16384x1_0 : (⟨S16384, .f32⟩ : BufTy).Contents (Elt F) → (⟨S16384x1, .f32⟩ : BufTy).Contents (Elt F)),
    StableHlo.unary main_v131 main_v132 (broadcastInDim S16384x6 ![0, 1] bcast_S16384x1_S16384x6_0_1 : (⟨S16384x1, .f32⟩ : BufTy).Contents (Elt F) → (⟨S16384x6, .f32⟩ : BufTy).Contents (Elt F)),
    StableHlo.binary main_v127 main_v132 main_v133 (subf : (⟨S16384x6, .f32⟩ : BufTy).Contents (Elt F) → (⟨S16384x6, .f32⟩ : BufTy).Contents (Elt F) → (⟨S16384x6, .f32⟩ : BufTy).Contents (Elt F)),
    StableHlo.unary main_v133 main_v134 (Host.exp : (⟨S16384x6, .f32⟩ : BufTy).Contents (Elt F) → (⟨S16384x6, .f32⟩ : BufTy).Contents (Elt F)),
    StableHlo.nullary main_cst_25 (constant S_ .f32 0x00000000#32),
    StableHlo.binary main_v134 main_cst_25 main_v135 ((fun x v => Host.reduceAdd x v reducesTo_S16384x6_S16384_d1 h_S_) : (⟨S16384x6, .f32⟩ : BufTy).Contents (Elt F) → (⟨S_, .f32⟩ : BufTy).Contents (Elt F) → (⟨S16384, .f32⟩ : BufTy).Contents (Elt F)),
    StableHlo.unary main_v135 main_v136 (broadcastInDim S16384x1 ![0] bcast_S16384_S16384x1_0 : (⟨S16384, .f32⟩ : BufTy).Contents (Elt F) → (⟨S16384x1, .f32⟩ : BufTy).Contents (Elt F)),
    StableHlo.unary main_v136 main_v137 (broadcastInDim S16384x6 ![0, 1] bcast_S16384x1_S16384x6_0_1 : (⟨S16384x1, .f32⟩ : BufTy).Contents (Elt F) → (⟨S16384x6, .f32⟩ : BufTy).Contents (Elt F)),
    StableHlo.binary main_v134 main_v137 main_v138 (Host.divf : (⟨S16384x6, .f32⟩ : BufTy).Contents (Elt F) → (⟨S16384x6, .f32⟩ : BufTy).Contents (Elt F) → (⟨S16384x6, .f32⟩ : BufTy).Contents (Elt F)),
    StableHlo.binary main_v100 main_arg15 main_v139 ((fun l r => Host.dotGeneral dot_S16384x64_S64x10_S16384x10_1_0_0_1_n_n none l r) : (⟨S16384x64, .f32⟩ : BufTy).Contents (Elt F) → (⟨S64x10, .f32⟩ : BufTy).Contents (Elt F) → (⟨S16384x10, .f32⟩ : BufTy).Contents (Elt F)),
    StableHlo.unary main_arg16 main_v140 (broadcastInDim S1x10 ![1] bcast_S10_S1x10_1 : (⟨S10, .f32⟩ : BufTy).Contents (Elt F) → (⟨S1x10, .f32⟩ : BufTy).Contents (Elt F)),
    StableHlo.unary main_v140 main_v141 (broadcastInDim S16384x10 ![0, 1] bcast_S1x10_S16384x10_0_1 : (⟨S1x10, .f32⟩ : BufTy).Contents (Elt F) → (⟨S16384x10, .f32⟩ : BufTy).Contents (Elt F)),
    StableHlo.binary main_v139 main_v141 main_v142 (addf : (⟨S16384x10, .f32⟩ : BufTy).Contents (Elt F) → (⟨S16384x10, .f32⟩ : BufTy).Contents (Elt F) → (⟨S16384x10, .f32⟩ : BufTy).Contents (Elt F)),
    StableHlo.nary ![main_v110, main_v126, main_v138, main_v142] main_v143 (fun u => concatenate S16384x30 1 [⟨S16384x10, u 0⟩, ⟨S16384x4, u 1⟩, ⟨S16384x6, u 2⟩, ⟨S16384x10, u 3⟩] concatenates_S16384x10_S16384x4_S16384x6_S16384x10_S16384x30_d1) ]
theorem opsCh_sub : (opsCh : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nary_bufs_sub ..⟩
abbrev opsCh_W : List (Ref sig .tc) := [main_v101, main_v102, main_v103, main_v104, main_v105, main_v106, main_cst_18, main_v107, main_v108, main_cst_19, main_v109, main_v110, main_v111, main_v112, main_v113, main_v114, main_v115, main_cst_20, main_v116, main_cst_21, main_v117, main_v118, main_v119, main_v120, main_v121, main_v122, main_cst_22, main_v123, main_v124, main_v125, main_v126, main_v127, main_cst_23, main_v128, main_cst_24, main_v129, main_v130, main_v131, main_v132, main_v133, main_v134, main_cst_25, main_v135, main_v136, main_v137, main_v138, main_v139, main_v140, main_v141, main_v142, main_v143]
theorem opsCh_writes : (opsCh : List (HloOp τ sig (Elt F))).Forall fun op => op.writes ⊆ (opsCh_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 2 operations. -/
abbrev opsM2 : List (HloOp τ sig (Elt F)) :=
  [ StableHlo.unary main_v100 main_v144 ((transpose S64x16384 [1, 0] · transposes_S16384x64_S64x16384_1_0) : (⟨S16384x64, .f32⟩ : BufTy).Contents (Elt F) → (⟨S64x16384, .f32⟩ : BufTy).Contents (Elt F)),
    StableHlo.binary main_v100 main_v144 main_v145 ((fun l r => Host.dotGeneral dot_S16384x64_S64x16384_S16384x16384_1_0_0_1_n_n none l r) : (⟨S16384x64, .f32⟩ : BufTy).Contents (Elt F) → (⟨S64x16384, .f32⟩ : BufTy).Contents (Elt F) → (⟨S16384x16384, .f32⟩ : BufTy).Contents (Elt F)) ]
theorem opsM2_sub : (opsM2 : List (HloOp τ sig (Elt F))).Forall fun op => op.bufs ⊆ StableHlo.tcRefs τ sig :=
  ⟨StableHlo.unary_bufs_sub .., StableHlo.binary_bufs_sub ..⟩
abbrev opsM2_W : List (Ref sig .tc) := [main_v144, main_v145]
theorem opsM2_writes : (opsM2 : List (HloOp τ sig (Elt F))).Forall fun op => op.writes ⊆ (opsM2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- 27 operations. -/
abbrev opsD : List (HloOp τ sig (Elt F)) :=
  [ StableHlo.unary main_arg1 main_v146 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v146 main_v147 rfl shapeCasts_S1x524288_S524288,
    StableHlo.nullary main_c_26 (constantI S_ 32 0#32),
    StableHlo.unary main_c_26 main_v148 (broadcastInDim S524288 ![] bcast_S_S524288 : (⟨S_, .i32⟩ : BufTy).Contents (Elt F) → (⟨S524288, .i32⟩ : BufTy).Contents (Elt F)),
    StableHlo.binary main_v147 main_v148 main_v149 (cmpi .slt : (⟨S524288, .i32⟩ : BufTy).Contents (Elt F) → (⟨S524288, .i32⟩ : BufTy).Contents (Elt F) → (⟨S524288, .i1⟩ : BufTy).Contents (Elt F)),
    StableHlo.nullary main_c_27 (constantI S_ 32 16384#32),
    StableHlo.unary main_c_27 main_v150 (broadcastInDim S524288 ![] bcast_S_S524288 : (⟨S_, .i32⟩ : BufTy).Contents (Elt F) → (⟨S524288, .i32⟩ : BufTy).Contents (Elt F)),
    StableHlo.binary main_v147 main_v150 main_v151 (addi : (⟨S524288, .i32⟩ : BufTy).Contents (Elt F) → (⟨S524288, .i32⟩ : BufTy).Contents (Elt F) → (⟨S524288, .i32⟩ : BufTy).Contents (Elt F)),
    StableHlo.ternary main_v149 main_v151 main_v147 main_v152 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v152 main_v153 (broadcastInDim S524288x1 ![0] bcast_S524288_S524288x1_0 : (⟨S524288, .i32⟩ : BufTy).Contents (Elt F) → (⟨S524288x1, .i32⟩ : BufTy).Contents (Elt F)),
    StableHlo.binary main_v100 main_v153 main_v154 ((fun x i => Host.gather gather_S16384x64_S524288x1_S524288x64_1_0_n_n_0_1_164 x i) : (⟨S16384x64, .f32⟩ : BufTy).Contents (Elt F) → (⟨S524288x1, .i32⟩ : BufTy).Contents (Elt F) → (⟨S524288x64, .f32⟩ : BufTy).Contents (Elt F)),
    StableHlo.unary main_arg1 main_v155 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v155 main_v156 rfl shapeCasts_S1x524288_S524288,
    StableHlo.nullary main_c_28 (constantI S_ 32 0#32),
    StableHlo.unary main_c_28 main_v157 (broadcastInDim S524288 ![] bcast_S_S524288 : (⟨S_, .i32⟩ : BufTy).Contents (Elt F) → (⟨S524288, .i32⟩ : BufTy).Contents (Elt F)),
    StableHlo.binary main_v156 main_v157 main_v158 (cmpi .slt : (⟨S524288, .i32⟩ : BufTy).Contents (Elt F) → (⟨S524288, .i32⟩ : BufTy).Contents (Elt F) → (⟨S524288, .i1⟩ : BufTy).Contents (Elt F)),
    StableHlo.nullary main_c_29 (constantI S_ 32 16384#32),
    StableHlo.unary main_c_29 main_v159 (broadcastInDim S524288 ![] bcast_S_S524288 : (⟨S_, .i32⟩ : BufTy).Contents (Elt F) → (⟨S524288, .i32⟩ : BufTy).Contents (Elt F)),
    StableHlo.binary main_v156 main_v159 main_v160 (addi : (⟨S524288, .i32⟩ : BufTy).Contents (Elt F) → (⟨S524288, .i32⟩ : BufTy).Contents (Elt F) → (⟨S524288, .i32⟩ : BufTy).Contents (Elt F)),
    StableHlo.ternary main_v158 main_v160 main_v156 main_v161 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v161 main_v162 (broadcastInDim S524288x1 ![0] bcast_S524288_S524288x1_0 : (⟨S524288, .i32⟩ : BufTy).Contents (Elt F) → (⟨S524288x1, .i32⟩ : BufTy).Contents (Elt F)),
    StableHlo.binary main_v100 main_v162 main_v163 ((fun x i => Host.gather gather_S16384x64_S524288x1_S524288x64_1_0_n_n_0_1_164 x i) : (⟨S16384x64, .f32⟩ : BufTy).Contents (Elt F) → (⟨S524288x1, .i32⟩ : BufTy).Contents (Elt F) → (⟨S524288x64, .f32⟩ : BufTy).Contents (Elt F)),
    StableHlo.binary main_v154 main_v163 main_v164 ((fun a b => concatenate S524288x128 1 [⟨S524288x64, a⟩, ⟨S524288x64, b⟩] concatenates_S524288x64_S524288x64_S524288x128_d1) : (⟨S524288x64, .f32⟩ : BufTy).Contents (Elt F) → (⟨S524288x64, .f32⟩ : BufTy).Contents (Elt F) → (⟨S524288x128, .f32⟩ : BufTy).Contents (Elt F)),
    StableHlo.binary main_v164 main_arg17 main_v165 ((fun l r => Host.dotGeneral dot_S524288x128_S128x16_S524288x16_1_0_0_1_n_n none l r) : (⟨S524288x128, .f32⟩ : BufTy).Contents (Elt F) → (⟨S128x16, .f32⟩ : BufTy).Contents (Elt F) → (⟨S524288x16, .f32⟩ : BufTy).Contents (Elt F)),
    StableHlo.unary main_arg18 main_v166 (broadcastInDim S1x16 ![1] bcast_S16_S1x16_1 : (⟨S16, .f32⟩ : BufTy).Contents (Elt F) → (⟨S1x16, .f32⟩ : BufTy).Contents (Elt F)),
    StableHlo.unary main_v166 main_v167 (broadcastInDim S524288x16 ![0, 1] bcast_S1x16_S524288x16_0_1 : (⟨S1x16, .f32⟩ : BufTy).Contents (Elt F) → (⟨S524288x16, .f32⟩ : BufTy).Contents (Elt F)),
    StableHlo.binary main_v165 main_v167 main_v168 (addf : (⟨S524288x16, .f32⟩ : BufTy).Contents (Elt F) → (⟨S524288x16, .f32⟩ : BufTy).Contents (Elt F) → (⟨S524288x16, .f32⟩ : BufTy).Contents (Elt F)) ]
theorem opsD_sub : (opsD : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub ..⟩
abbrev opsD_W : List (Ref sig .tc) := [main_v146, main_v147, main_c_26, main_v148, main_v149, main_c_27, main_v150, main_v151, main_v152, main_v153, main_v154, main_v155, main_v156, main_c_28, main_v157, main_v158, main_c_29, main_v159, main_v160, main_v161, main_v162, main_v163, main_v164, main_v165, main_v166, main_v167, main_v168]
theorem opsD_writes : (opsD : List (HloOp τ sig (Elt F))).Forall fun op => op.writes ⊆ (opsD_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- @main's 247 operations, in order. -/
abbrev ops : List (HloOp τ sig (Elt F)) :=
  opsA ++ opsM0 ++ opsB ++ opsBv ++ opsBn ++ opsBr ++ opsM1 ++ opsC ++ opsCv ++ opsCn ++ opsCr ++ opsCh ++ opsM2 ++ opsD

end Cert.ReferenceIdeal.Hand

end
-- ==== Proof.RI.Run.lean ====
/- The reference program's run. @main, with each outlined function unfolded at its call over that call's buffer
   record, is the straight line `ops` of its 247 host operations: window by window both sides are one chain of
   operation steps, equal by computation of the free monad's bind. Every operation names TensorCore references only
   and determines its results, so every weakly fair execution terminates with each TensorCore buffer at the fold of
   the operations' results over the launch contents. -/
import proofs.«422874_j81398220194430_3_alg».proof.Proof.RI.Ops
import Idealize.ShloMosaic.Lib.StableHlo.Run
import Mathlib.Data.List.Basic

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## @main is the line of its operations -/

set_option maxRecDepth 8192 in
/-- Statements 1 … 60: the degree normalisation, the first product, its aggregation, and @_var's body
    (with @_where's inside it) over the first call's record. -/
theorem part0_eq (c : Dev nD) :
    main_part0 (F := F) c = StableHlo.seq (opsA ++ opsM0 ++ opsB ++ opsBv) := rfl

set_option maxRecDepth 8192 in
/-- Statements 61 … 120: the first normalisation, @relu, the second product, its aggregation, @_var_0's body
    and the second normalisation. -/
theorem part1_eq (c : Dev nD) :
    main_part1 (F := F) c = StableHlo.seq (opsBn ++ opsBr ++ opsM1 ++ opsC ++ opsCv ++ opsCn) := rfl

set_option maxRecDepth 8192 in
/-- Statements 121 … 202: @relu_2, the heads, the transposed product and the edge features. -/
theorem part23_eq (c : Dev nD) :
    (main_part2 (F := F) c >>= fun _ => main_part3 (F := F) c) = StableHlo.seq (opsCr ++ opsCh ++ opsM2 ++ opsD) := rfl

/-- @main is the straight line of its 247 operations: the windows one after the other are the stretches'
    concatenation run as one (`seq_append`). -/
theorem main_eq (c : Dev nD) : main (F := F) c = StableHlo.seq (ops (F := F)) := by
  have h : (ops : List (HloOp τ sig (Elt F)))
      = (opsA ++ opsM0 ++ opsB ++ opsBv)
        ++ ((opsBn ++ opsBr ++ opsM1 ++ opsC ++ opsCv ++ opsCn) ++ (opsCr ++ opsCh ++ opsM2 ++ opsD)) := by
    simp only [ops, List.append_assoc]
  rw [h, StableHlo.seq_append (opsA ++ opsM0 ++ opsB ++ opsBv) _,
    StableHlo.seq_append (opsBn ++ opsBr ++ opsM1 ++ opsC ++ opsCv ++ opsCn) (opsCr ++ opsCh ++ opsM2 ++ opsD),
    ← part0_eq c, ← part1_eq c, ← part23_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- What holds along two lists holds along their concatenation. -/
private theorem forall_app {α : Type _} {p : α → Prop} {xs ys : List α} (h₁ : xs.Forall p) (h₂ : ys.Forall p) :
    (xs ++ ys).Forall p := List.forall_append.2 ⟨h₁, h₂⟩

/-- Every operation touches TensorCore references only: stretch by stretch. -/
theorem ops_sub : (ops : List (HloOp τ sig (Elt F))).Forall fun op => op.bufs ⊆ StableHlo.tcRefs τ sig :=
  forall_app (forall_app (forall_app (forall_app (forall_app (forall_app (forall_app (forall_app (forall_app (forall_app
    (forall_app (forall_app (forall_app opsA_sub opsM0_sub) opsB_sub) opsBv_sub) opsBn_sub) opsBr_sub) opsM1_sub) opsC_sub)
    opsCv_sub) opsCn_sub) opsCr_sub) opsCh_sub) opsM2_sub) opsD_sub

/-! Every operation determines its results (none allocates): by computation on each stretch's literal list. -/

theorem opsA_fresh : (opsA : List (HloOp τ sig (Elt F))).Forall fun op => op.fresh = ∅ := by
  simp only [List.Forall]; repeat' constructor
theorem opsM0_fresh : (opsM0 : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsBv_fresh : (opsBv : List (HloOp τ sig (Elt F))).Forall fun op => op.fresh = ∅ := by
  simp only [List.Forall]; repeat' constructor
theorem opsBn_fresh : (opsBn : List (HloOp τ sig (Elt F))).Forall fun op => op.fresh = ∅ := by
  simp only [List.Forall]; repeat' constructor
theorem opsBr_fresh : (opsBr : List (HloOp τ sig (Elt F))).Forall fun op => op.fresh = ∅ := by
  simp only [List.Forall]; repeat' constructor
theorem opsM1_fresh : (opsM1 : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsCv_fresh : (opsCv : List (HloOp τ sig (Elt F))).Forall fun op => op.fresh = ∅ := by
  simp only [List.Forall]; repeat' constructor
theorem opsCn_fresh : (opsCn : List (HloOp τ sig (Elt F))).Forall fun op => op.fresh = ∅ := by
  simp only [List.Forall]; repeat' constructor
theorem opsCr_fresh : (opsCr : List (HloOp τ sig (Elt F))).Forall fun op => op.fresh = ∅ := by
  simp only [List.Forall]; repeat' constructor
theorem opsCh_fresh : (opsCh : List (HloOp τ sig (Elt F))).Forall fun op => op.fresh = ∅ := by
  simp only [List.Forall]; repeat' constructor
theorem opsM2_fresh : (opsM2 : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

theorem ops_fresh : (ops : List (HloOp τ sig (Elt F))).Forall fun op => op.fresh = ∅ :=
  forall_app (forall_app (forall_app (forall_app (forall_app (forall_app (forall_app (forall_app (forall_app (forall_app
    (forall_app (forall_app (forall_app opsA_fresh opsM0_fresh) opsB_fresh) opsBv_fresh) opsBn_fresh) opsBr_fresh) opsM1_fresh)
    opsC_fresh) opsCv_fresh) opsCn_fresh) opsCr_fresh) opsCh_fresh) opsM2_fresh) opsD_fresh

/-! ## The run -/

/-- On every device, for any float values, from any memory with zero counters: every weakly fair execution of
    @main on the TensorCores terminates, and every final state has each TensorCore buffer at the fold of the
    operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (ops (F := F)) (StableHlo.launchContents m d) (Proc.devRef .tc b) :=
  StableHlo.run_seq scopedRefs_eq scopedSems_eq defs main (fun _ => ops) main_eq (fun _ => ops_sub) m ρ
    (fun _ op h => List.forall_iff_forall_mem.mp ops_fresh op h)

end Cert.ReferenceIdeal.Hand

end
-- ==== Proof.Bridge.Base.lean ====
/-
  The two programs' buffer valuations at one element interpretation, side by side: the stage lemmas relate a valuation
  of the kernel program's references to one of the reference program's.
-/
import proofs.«422874_j81398220194430_3_alg».proof.Proof.Gen.KernelIdeal.Launch
import proofs.«422874_j81398220194430_3_alg».proof.Proof.RI.Ops
import Idealize.ShloMosaic.Lib.StableHlo.Run

noncomputable section

namespace Cert.Bridge

open Idealize.ShloMosaic Idealize.ShloMosaic.TcCoe Idealize.ShloMosaic.StableHlo

variable {F : FTy → Type} [FloatOps F]

/-- A valuation of the kernel program's buffers. -/
abbrev KV := Valuation Cert.KernelIdeal.τ Cert.KernelIdeal.sig (Elt F)
/-- A valuation of the reference program's buffers. -/
abbrev RV := Valuation Cert.ReferenceIdeal.τ Cert.ReferenceIdeal.sig (Elt F)

end Cert.Bridge

end
-- ==== Proof.Bridge.StageA.lean ====
/-
  The opening host stretch. Both programs build the source and destination index columns (a row of the edge index
  followed by the node numbers 0 … 16383) and from them the symmetric edge normalisation (the inverse square root of
  the in-degree, gathered at both ends of each edge and multiplied); the kernel program then narrows the node features
  and the first weight matrix to bf16. Each stretch is cut after the seventh operation, where the two columns are
  complete: the columns are read off the first part, and the normalisation off the second part with the columns as
  opaque inputs.
-/
import proofs.«422874_j81398220194430_3_alg».proof.Proof.Bridge.Base

set_option maxRecDepth 16384

noncomputable section

namespace Cert.Bridge

open Idealize.ShloMosaic Idealize.ShloMosaic.TcCoe Idealize.ShloMosaic.StableHlo

variable {F : FTy → Type} [FloatOps F]

namespace Opening

/-! ## The two stretches, cut after the index columns -/

section Ref
open Cert.ReferenceIdeal Cert.ReferenceIdeal.Gen

/-- The reference's first seven operations: the node numbers and the two index columns. -/
abbrev refPre : List (HloOp Cert.ReferenceIdeal.τ Cert.ReferenceIdeal.sig (Elt F)) :=
  [ StableHlo.nullary main_v0 (iotaInDim S16384 32 0),
    StableHlo.unary main_arg1 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.binary main_v2 main_v0 main_v3 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    StableHlo.unary main_arg1 main_v4 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v4 main_v5 rfl shapeCasts_S1x524288_S524288,
    StableHlo.binary main_v5 main_v0 main_v6 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)) ]

/-- The reference's remaining twenty-six operations: the edge normalisation. -/
abbrev refRest : List (HloOp Cert.ReferenceIdeal.τ Cert.ReferenceIdeal.sig (Elt F)) :=
  [ StableHlo.nullary main_cst (constant S_ .f32 0x3F800000#32),
    StableHlo.unary main_cst main_v7 (broadcastInDim S540672 ![] bcast_S_S540672 : (⟨S_, .f32⟩ : BufTy).Contents (Elt F) → (⟨S540672, .f32⟩ : BufTy).Contents (Elt F)),
    StableHlo.nullary main_cst_0 (constant S_ .f32 0x00000000#32),
    StableHlo.unary main_cst_0 main_v8 (broadcastInDim S16384 ![] bcast_S_S16384 : (⟨S_, .f32⟩ : BufTy).Contents (Elt F) → (⟨S16384, .f32⟩ : BufTy).Contents (Elt F)),
    StableHlo.unary main_v6 main_v9 (broadcastInDim S540672x1 ![0] bcast_S540672_S540672x1_0 : (⟨S540672, .i32⟩ : BufTy).Contents (Elt F) → (⟨S540672x1, .i32⟩ : BufTy).Contents (Elt F)),
    StableHlo.ternary main_v8 main_v9 main_v7 main_v10 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F)),
    StableHlo.unary main_v10 main_v11 (Host.rsqrt : (⟨S16384, .f32⟩ : BufTy).Contents (Elt F) → (⟨S16384, .f32⟩ : BufTy).Contents (Elt F)),
    StableHlo.nullary main_c (constantI S_ 32 0#32),
    StableHlo.unary main_c main_v12 (broadcastInDim S540672 ![] bcast_S_S540672 : (⟨S_, .i32⟩ : BufTy).Contents (Elt F) → (⟨S540672, .i32⟩ : BufTy).Contents (Elt F)),
    StableHlo.binary main_v3 main_v12 main_v13 (cmpi .slt : (⟨S540672, .i32⟩ : BufTy).Contents (Elt F) → (⟨S540672, .i32⟩ : BufTy).Contents (Elt F) → (⟨S540672, .i1⟩ : BufTy).Contents (Elt F)),
    StableHlo.nullary main_c_1 (constantI S_ 32 16384#32),
    StableHlo.unary main_c_1 main_v14 (broadcastInDim S540672 ![] bcast_S_S540672 : (⟨S_, .i32⟩ : BufTy).Contents (Elt F) → (⟨S540672, .i32⟩ : BufTy).Contents (Elt F)),
    StableHlo.binary main_v3 main_v14 main_v15 (addi : (⟨S540672, .i32⟩ : BufTy).Contents (Elt F) → (⟨S540672, .i32⟩ : BufTy).Contents (Elt F) → (⟨S540672, .i32⟩ : BufTy).Contents (Elt F)),
    StableHlo.ternary main_v13 main_v15 main_v3 main_v16 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v16 main_v17 (broadcastInDim S540672x1 ![0] bcast_S540672_S540672x1_0 : (⟨S540672, .i32⟩ : BufTy).Contents (Elt F) → (⟨S540672x1, .i32⟩ : BufTy).Contents (Elt F)),
    StableHlo.binary main_v11 main_v17 main_v18 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    StableHlo.nullary main_c_2 (constantI S_ 32 0#32),
    StableHlo.unary main_c_2 main_v19 (broadcastInDim S540672 ![] bcast_S_S540672 : (⟨S_, .i32⟩ : BufTy).Contents (Elt F) → (⟨S540672, .i32⟩ : BufTy).Contents (Elt F)),
    StableHlo.binary main_v6 main_v19 main_v20 (cmpi .slt : (⟨S540672, .i32⟩ : BufTy).Contents (Elt F) → (⟨S540672, .i32⟩ : BufTy).Contents (Elt F) → (⟨S540672, .i1⟩ : BufTy).Contents (Elt F)),
    StableHlo.nullary main_c_3 (constantI S_ 32 16384#32),
    StableHlo.unary main_c_3 main_v21 (broadcastInDim S540672 ![] bcast_S_S540672 : (⟨S_, .i32⟩ : BufTy).Contents (Elt F) → (⟨S540672, .i32⟩ : BufTy).Contents (Elt F)),
    StableHlo.binary main_v6 main_v21 main_v22 (addi : (⟨S540672, .i32⟩ : BufTy).Contents (Elt F) → (⟨S540672, .i32⟩ : BufTy).Contents (Elt F) → (⟨S540672, .i32⟩ : BufTy).Contents (Elt F)),
    StableHlo.ternary main_v20 main_v22 main_v6 main_v23 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v23 main_v24 (broadcastInDim S540672x1 ![0] bcast_S540672_S540672x1_0 : (⟨S540672, .i32⟩ : BufTy).Contents (Elt F) → (⟨S540672x1, .i32⟩ : BufTy).Contents (Elt F)),
    StableHlo.binary main_v11 main_v24 main_v25 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    StableHlo.binary main_v18 main_v25 main_v26 (mulf : (⟨S540672, .f32⟩ : BufTy).Contents (Elt F) → (⟨S540672, .f32⟩ : BufTy).Contents (Elt F) → (⟨S540672, .f32⟩ : BufTy).Contents (Elt F)) ]

end Ref

section Ker
open Cert.KernelIdeal Cert.KernelIdeal.Gen

/-- The kernel program's first seven operations: the node numbers and the two index columns. -/
abbrev kerPre : List (HloOp Cert.KernelIdeal.τ Cert.KernelIdeal.sig (Elt F)) :=
  [ StableHlo.nullary main_v0 (iotaInDim S16384 32 0),
    StableHlo.unary main_arg1 main_v1 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v1 main_v2 rfl shapeCasts_S1x524288_S524288,
    StableHlo.binary main_v2 main_v0 main_v3 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)),
    StableHlo.unary main_arg1 main_v4 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v4 main_v5 rfl shapeCasts_S1x524288_S524288,
    StableHlo.binary main_v5 main_v0 main_v6 ((fun a b => concatenate S540672 0 [⟨S524288, a⟩, ⟨S16384, b⟩] concatenates_S524288_S16384_S540672_d0) : (⟨S524288, .i32⟩ : BufTy).Contents (Elt F) → (⟨S16384, .i32⟩ : BufTy).Contents (Elt F) → (⟨S540672, .i32⟩ : BufTy).Contents (Elt F)) ]

/-- The kernel program's remaining twenty-eight operations: the edge normalisation and the two bf16 narrowings. -/
abbrev kerRest : List (HloOp Cert.KernelIdeal.τ Cert.KernelIdeal.sig (Elt F)) :=
  [ StableHlo.nullary main_cst (constant S_ .f32 0x3F800000#32),
    StableHlo.unary main_cst main_v7 (broadcastInDim S540672 ![] bcast_S_S540672 : (⟨S_, .f32⟩ : BufTy).Contents (Elt F) → (⟨S540672, .f32⟩ : BufTy).Contents (Elt F)),
    StableHlo.nullary main_cst_0 (constant S_ .f32 0x00000000#32),
    StableHlo.unary main_cst_0 main_v8 (broadcastInDim S16384 ![] bcast_S_S16384 : (⟨S_, .f32⟩ : BufTy).Contents (Elt F) → (⟨S16384, .f32⟩ : BufTy).Contents (Elt F)),
    StableHlo.unary main_v6 main_v9 (broadcastInDim S540672x1 ![0] bcast_S540672_S540672x1_0 : (⟨S540672, .i32⟩ : BufTy).Contents (Elt F) → (⟨S540672x1, .i32⟩ : BufTy).Contents (Elt F)),
    StableHlo.ternary main_v8 main_v9 main_v7 main_v10 ((fun x i u => Host.scatterAdd scatter_S16384_S540672x1_S540672_n_0_0_1 x i u) : (⟨S16384, .f32⟩ : BufTy).Contents (Elt F) → (⟨S540672x1, .i32⟩ : BufTy).Contents (Elt F) → (⟨S540672, .f32⟩ : BufTy).Contents (Elt F) → (⟨S16384, .f32⟩ : BufTy).Contents (Elt F)),
    StableHlo.unary main_v10 main_v11 (Host.rsqrt : (⟨S16384, .f32⟩ : BufTy).Contents (Elt F) → (⟨S16384, .f32⟩ : BufTy).Contents (Elt F)),
    StableHlo.nullary main_c (constantI S_ 32 0#32),
    StableHlo.unary main_c main_v12 (broadcastInDim S540672 ![] bcast_S_S540672 : (⟨S_, .i32⟩ : BufTy).Contents (Elt F) → (⟨S540672, .i32⟩ : BufTy).Contents (Elt F)),
    StableHlo.binary main_v3 main_v12 main_v13 (cmpi .slt : (⟨S540672, .i32⟩ : BufTy).Contents (Elt F) → (⟨S540672, .i32⟩ : BufTy).Contents (Elt F) → (⟨S540672, .i1⟩ : BufTy).Contents (Elt F)),
    StableHlo.nullary main_c_1 (constantI S_ 32 16384#32),
    StableHlo.unary main_c_1 main_v14 (broadcastInDim S540672 ![] bcast_S_S540672 : (⟨S_, .i32⟩ : BufTy).Contents (Elt F) → (⟨S540672, .i32⟩ : BufTy).Contents (Elt F)),
    StableHlo.binary main_v3 main_v14 main_v15 (addi : (⟨S540672, .i32⟩ : BufTy).Contents (Elt F) → (⟨S540672, .i32⟩ : BufTy).Contents (Elt F) → (⟨S540672, .i32⟩ : BufTy).Contents (Elt F)),
    StableHlo.ternary main_v13 main_v15 main_v3 main_v16 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v16 main_v17 (broadcastInDim S540672x1 ![0] bcast_S540672_S540672x1_0 : (⟨S540672, .i32⟩ : BufTy).Contents (Elt F) → (⟨S540672x1, .i32⟩ : BufTy).Contents (Elt F)),
    StableHlo.binary main_v11 main_v17 main_v18 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    StableHlo.nullary main_c_2 (constantI S_ 32 0#32),
    StableHlo.unary main_c_2 main_v19 (broadcastInDim S540672 ![] bcast_S_S540672 : (⟨S_, .i32⟩ : BufTy).Contents (Elt F) → (⟨S540672, .i32⟩ : BufTy).Contents (Elt F)),
    StableHlo.binary main_v6 main_v19 main_v20 (cmpi .slt : (⟨S540672, .i32⟩ : BufTy).Contents (Elt F) → (⟨S540672, .i32⟩ : BufTy).Contents (Elt F) → (⟨S540672, .i1⟩ : BufTy).Contents (Elt F)),
    StableHlo.nullary main_c_3 (constantI S_ 32 16384#32),
    StableHlo.unary main_c_3 main_v21 (broadcastInDim S540672 ![] bcast_S_S540672 : (⟨S_, .i32⟩ : BufTy).Contents (Elt F) → (⟨S540672, .i32⟩ : BufTy).Contents (Elt F)),
    StableHlo.binary main_v6 main_v21 main_v22 (addi : (⟨S540672, .i32⟩ : BufTy).Contents (Elt F) → (⟨S540672, .i32⟩ : BufTy).Contents (Elt F) → (⟨S540672, .i32⟩ : BufTy).Contents (Elt F)),
    StableHlo.ternary main_v20 main_v22 main_v6 main_v23 (select : (⟨S540672, .i1⟩ : BufTy).Contents (Elt F) → (⟨S540672, .i32⟩ : BufTy).Contents (Elt F) → (⟨S540672, .i32⟩ : BufTy).Contents (Elt F) → (⟨S540672, .i32⟩ : BufTy).Contents (Elt F)),
    StableHlo.unary main_v23 main_v24 (broadcastInDim S540672x1 ![0] bcast_S540672_S540672x1_0 : (⟨S540672, .i32⟩ : BufTy).Contents (Elt F) → (⟨S540672x1, .i32⟩ : BufTy).Contents (Elt F)),
    StableHlo.binary main_v11 main_v24 main_v25 ((fun x i => Host.gather gather_S16384_S540672x1_S540672_n_0_n_n_0_1_1 x i) : (⟨S16384, .f32⟩ : BufTy).Contents (Elt F) → (⟨S540672x1, .i32⟩ : BufTy).Contents (Elt F) → (⟨S540672, .f32⟩ : BufTy).Contents (Elt F)),
    StableHlo.binary main_v18 main_v25 main_v26 (mulf : (⟨S540672, .f32⟩ : BufTy).Contents (Elt F) → (⟨S540672, .f32⟩ : BufTy).Contents (Elt F) → (⟨S540672, .f32⟩ : BufTy).Contents (Elt F)),
    StableHlo.unary main_arg0 main_v27 ((truncf .bf16 · bitsLt_bf16_f32) : (⟨S16384x128, .f32⟩ : BufTy).Contents (Elt F) → (⟨S16384x128, .bf16⟩ : BufTy).Contents (Elt F)),
    StableHlo.unary main_arg3 main_v28 ((truncf .bf16 · bitsLt_bf16_f32) : (⟨S128x128, .f32⟩ : BufTy).Contents (Elt F) → (⟨S128x128, .bf16⟩ : BufTy).Contents (Elt F)) ]

end Ker

/-- The reference's opening stretch is its first part followed by its second. -/
theorem after_opsA (V : RV (F := F)) :
    after (Cert.ReferenceIdeal.Hand.opsA (F := F)) V = after refRest (after refPre V) := rfl

/-- The kernel program's opening stretch is its first part followed by its second. -/
theorem after_hostOps0 (V : KV (F := F)) :
    after (Cert.KernelIdeal.Gen.hostOps0 (F := F)) V = after kerRest (after kerPre V) := rfl

/-! ## The index columns, off the first part -/

/-- The source column: row 0 of the edge index followed by the node numbers. -/
theorem pre_v3 (VK : KV (F := F)) (VR : RV (F := F))
    (h1 : (VR (Proc.devRef .tc Cert.ReferenceIdeal.main_arg1) : (⟨Cert.KernelIdeal.S2x524288, .i32⟩ : BufTy).Contents (Elt F))
        = VK (Proc.devRef .tc Cert.KernelIdeal.main_arg1)) :
    (after (refPre (F := F)) VR (Proc.devRef .tc Cert.ReferenceIdeal.main_v3)
        : (⟨Cert.KernelIdeal.S540672, .i32⟩ : BufTy).Contents (Elt F))
      = after (kerPre (F := F)) VK (Proc.devRef .tc Cert.KernelIdeal.main_v3) := by
  after_results
  rw [h1]
  rfl

/-- The destination column: row 1 of the edge index followed by the node numbers. -/
theorem pre_v6 (VK : KV (F := F)) (VR : RV (F := F))
    (h1 : (VR (Proc.devRef .tc Cert.ReferenceIdeal.main_arg1) : (⟨Cert.KernelIdeal.S2x524288, .i32⟩ : BufTy).Contents (Elt F))
        = VK (Proc.devRef .tc Cert.KernelIdeal.main_arg1)) :
    (after (refPre (F := F)) VR (Proc.devRef .tc Cert.ReferenceIdeal.main_v6)
        : (⟨Cert.KernelIdeal.S540672, .i32⟩ : BufTy).Contents (Elt F))
      = after (kerPre (F := F)) VK (Proc.devRef .tc Cert.KernelIdeal.main_v6) := by
  after_results
  rw [h1]
  rfl

/-! ## The second part leaves the columns and computes the normalisation from them -/

theorem refRest_v3 (V : RV (F := F)) :
    after (refRest (F := F)) V (Proc.devRef .tc Cert.ReferenceIdeal.main_v3) = V (Proc.devRef .tc Cert.ReferenceIdeal.main_v3) := by
  after_results_simp

theorem refRest_v6 (V : RV (F := F)) :
    after (refRest (F := F)) V (Proc.devRef .tc Cert.ReferenceIdeal.main_v6) = V (Proc.devRef .tc Cert.ReferenceIdeal.main_v6) := by
  after_results_simp

theorem kerRest_v3 (V : KV (F := F)) :
    after (kerRest (F := F)) V (Proc.devRef .tc Cert.KernelIdeal.main_v3) = V (Proc.devRef .tc Cert.KernelIdeal.main_v3) := by
  after_results_simp

theorem kerRest_v6 (V : KV (F := F)) :
    after (kerRest (F := F)) V (Proc.devRef .tc Cert.KernelIdeal.main_v6) = V (Proc.devRef .tc Cert.KernelIdeal.main_v6) := by
  after_results_simp

set_option maxHeartbeats 4000000 in
/-- The edge normalisation is the same function of the two columns in both programs. -/
theorem rest_v26 (VK : KV (F := F)) (VR : RV (F := F))
    (h3 : (VR (Proc.devRef .tc Cert.ReferenceIdeal.main_v3) : (⟨Cert.KernelIdeal.S540672, .i32⟩ : BufTy).Contents (Elt F))
        = VK (Proc.devRef .tc Cert.KernelIdeal.main_v3))
    (h6 : (VR (Proc.devRef .tc Cert.ReferenceIdeal.main_v6) : (⟨Cert.KernelIdeal.S540672, .i32⟩ : BufTy).Contents (Elt F))
        = VK (Proc.devRef .tc Cert.KernelIdeal.main_v6)) :
    (after (refRest (F := F)) VR (Proc.devRef .tc Cert.ReferenceIdeal.main_v26)
        : (⟨Cert.KernelIdeal.S540672, .f32⟩ : BufTy).Contents (Elt F))
      = after (kerRest (F := F)) VK (Proc.devRef .tc Cert.KernelIdeal.main_v26) := by
  after_results_simp
  rw [h3, h6]
  rfl

end Opening

open Opening

/-! ## The stage -/

/-- The opening stretch: from equal edge indices, equal index columns and equal edge normalisation. -/
theorem stageA (VK : KV (F := F)) (VR : RV (F := F))
    (h1 : (VR (Proc.devRef .tc Cert.ReferenceIdeal.main_arg1) : (⟨Cert.KernelIdeal.S2x524288, .i32⟩ : BufTy).Contents (Elt F))
        = VK (Proc.devRef .tc Cert.KernelIdeal.main_arg1)) :
    ((after (Cert.ReferenceIdeal.Hand.opsA (F := F)) VR (Proc.devRef .tc Cert.ReferenceIdeal.main_v3)
        : (⟨Cert.KernelIdeal.S540672, .i32⟩ : BufTy).Contents (Elt F))
      = after (Cert.KernelIdeal.Gen.hostOps0 (F := F)) VK (Proc.devRef .tc Cert.KernelIdeal.main_v3))
    ∧ ((after (Cert.ReferenceIdeal.Hand.opsA (F := F)) VR (Proc.devRef .tc Cert.ReferenceIdeal.main_v6)
        : (⟨Cert.KernelIdeal.S540672, .i32⟩ : BufTy).Contents (Elt F))
      = after (Cert.KernelIdeal.Gen.hostOps0 (F := F)) VK (Proc.devRef .tc Cert.KernelIdeal.main_v6))
    ∧ ((after (Cert.ReferenceIdeal.Hand.opsA (F := F)) VR (Proc.devRef .tc Cert.ReferenceIdeal.main_v26)
        : (⟨Cert.KernelIdeal.S540672, .f32⟩ : BufTy).Contents (Elt F))
      = after (Cert.KernelIdeal.Gen.hostOps0 (F := F)) VK (Proc.devRef .tc Cert.KernelIdeal.main_v26)) := by
  rw [after_opsA, after_hostOps0]
  refine ⟨?_, ?_, ?_⟩
  · rw [refRest_v3, kerRest_v3]; exact pre_v3 VK VR h1
  · rw [refRest_v6, kerRest_v6]; exact pre_v6 VK VR h1
  · exact rest_v26 _ _ (pre_v3 VK VR h1) (pre_v6 VK VR h1)

/-! ## The bf16 narrowings -/

/-- The kernel program's narrowings of the node features and of the first weight matrix, read off the stretch's end. -/
theorem castsA (VK : KV (F := F)) :
    ((after (Cert.KernelIdeal.Gen.hostOps0 (F := F)) VK (Proc.devRef .tc Cert.KernelIdeal.main_v27)
        : (⟨Cert.KernelIdeal.S16384x128, .bf16⟩ : BufTy).Contents (Elt F))
      = truncf .bf16 (VK (Proc.devRef .tc Cert.KernelIdeal.main_arg0) : (⟨Cert.KernelIdeal.S16384x128, .f32⟩ : BufTy).Contents (Elt F)) Cert.KernelIdeal.Gen.bitsLt_bf16_f32)
    ∧ ((after (Cert.KernelIdeal.Gen.hostOps0 (F := F)) VK (Proc.devRef .tc Cert.KernelIdeal.main_v28)
        : (⟨Cert.KernelIdeal.S128x128, .bf16⟩ : BufTy).Contents (Elt F))
      = truncf .bf16 (VK (Proc.devRef .tc Cert.KernelIdeal.main_arg3) : (⟨Cert.KernelIdeal.S128x128, .f32⟩ : BufTy).Contents (Elt F)) Cert.KernelIdeal.Gen.bitsLt_bf16_f32) := by
  constructor
  · after_results_simp
  · after_results_simp

/-- The kernel program's narrowings of the first layer's output and of the second weight matrix. -/
theorem castsB (VK : KV (F := F)) :
    ((after (Cert.KernelIdeal.Gen.hostOps1_4 (F := F)) VK (Proc.devRef .tc Cert.KernelIdeal.main_v66)
        : (⟨Cert.KernelIdeal.S16384x128, .bf16⟩ : BufTy).Contents (Elt F))
      = truncf .bf16 (VK (Proc.devRef .tc Cert.KernelIdeal.main_v65) : (⟨Cert.KernelIdeal.S16384x128, .f32⟩ : BufTy).Contents (Elt F)) Cert.KernelIdeal.Gen.bitsLt_bf16_f32)
    ∧ ((after (Cert.KernelIdeal.Gen.hostOps1_4 (F := F)) VK (Proc.devRef .tc Cert.KernelIdeal.main_v67)
        : (⟨Cert.KernelIdeal.S128x64, .bf16⟩ : BufTy).Contents (Elt F))
      = truncf .bf16 (VK (Proc.devRef .tc Cert.KernelIdeal.main_arg7) : (⟨Cert.KernelIdeal.S128x64, .f32⟩ : BufTy).Contents (Elt F)) Cert.KernelIdeal.Gen.bitsLt_bf16_f32) := by
  constructor
  · after_results_simp
  · after_results_simp

end Cert.Bridge

end
-- ==== Proof.Bridge.StageB.lean ====
/-
  The first layer's host stretch after the feature projection. Given that the two programs agree on the projected
  features, on the source and destination index columns, on the edge normalisation and on the layer's bias and
  normalisation parameters, the reference's first-layer output buffer equals the kernel program's.
-/
import proofs.«422874_j81398220194430_3_alg».proof.Proof.Bridge.Base

set_option maxRecDepth 16384

noncomputable section

namespace Cert.Bridge

open Idealize.ShloMosaic Idealize.ShloMosaic.TcCoe Idealize.ShloMosaic.StableHlo

variable {F : FTy → Type} [FloatOps F]

set_option maxHeartbeats 4000000 in
/-- The first layer after the projection: both host chains apply the same operations to equal inputs. -/
theorem stageB (VK : KV (F := F)) (VR : RV (F := F))
    (hmm : (VR (Proc.devRef .tc Cert.ReferenceIdeal.main_v27) : (⟨Cert.KernelIdeal.S16384x128, .f32⟩ : BufTy).Contents (Elt F))
        = VK (Proc.devRef .tc Cert.KernelIdeal.main_v29))
    (h3 : (VR (Proc.devRef .tc Cert.ReferenceIdeal.main_v3) : (⟨Cert.KernelIdeal.S540672, .i32⟩ : BufTy).Contents (Elt F))
        = VK (Proc.devRef .tc Cert.KernelIdeal.main_v3))
    (h6 : (VR (Proc.devRef .tc Cert.ReferenceIdeal.main_v6) : (⟨Cert.KernelIdeal.S540672, .i32⟩ : BufTy).Contents (Elt F))
        = VK (Proc.devRef .tc Cert.KernelIdeal.main_v6))
    (h26 : (VR (Proc.devRef .tc Cert.ReferenceIdeal.main_v26) : (⟨Cert.KernelIdeal.S540672, .f32⟩ : BufTy).Contents (Elt F))
        = VK (Proc.devRef .tc Cert.KernelIdeal.main_v26))
    (ha4 : (VR (Proc.devRef .tc Cert.ReferenceIdeal.main_arg4) : (⟨Cert.KernelIdeal.S128, .f32⟩ : BufTy).Contents (Elt F))
        = VK (Proc.devRef .tc Cert.KernelIdeal.main_arg4))
    (ha5 : (VR (Proc.devRef .tc Cert.ReferenceIdeal.main_arg5) : (⟨Cert.KernelIdeal.S128, .f32⟩ : BufTy).Contents (Elt F))
        = VK (Proc.devRef .tc Cert.KernelIdeal.main_arg5))
    (ha6 : (VR (Proc.devRef .tc Cert.ReferenceIdeal.main_arg6) : (⟨Cert.KernelIdeal.S128, .f32⟩ : BufTy).Contents (Elt F))
        = VK (Proc.devRef .tc Cert.KernelIdeal.main_arg6)) :
    (after (Cert.ReferenceIdeal.Hand.opsBr (F := F)) (after Cert.ReferenceIdeal.Hand.opsBn (after Cert.ReferenceIdeal.Hand.opsBv
        (after Cert.ReferenceIdeal.Hand.opsB VR))) (Proc.devRef .tc Cert.ReferenceIdeal.main_v63)
        : (⟨Cert.KernelIdeal.S16384x128, .f32⟩ : BufTy).Contents (Elt F))
      = after (Cert.KernelIdeal.Gen.hostOps1_3 (F := F)) (after Cert.KernelIdeal.Gen.hostOps1_2 (after Cert.KernelIdeal.Gen.hostOps1_1
        (after Cert.KernelIdeal.Gen.hostOps1 VK))) (Proc.devRef .tc Cert.KernelIdeal.main_v65) := by
  after_results_simp
  rw [hmm, h3, h6, h26, ha4, ha5, ha6]
  rfl

end Cert.Bridge

end
-- ==== Proof.Bridge.StageC.lean ====
/-
  The second layer's host chain: from the second projection, the two index columns, the normalisation column and the
  layer's three parameter rows, the reference's aggregated, normalised and rectified features agree with the kernel
  program's.
-/
import proofs.«422874_j81398220194430_3_alg».proof.Proof.Bridge.Base

set_option maxRecDepth 16384

noncomputable section

namespace Cert.Bridge

open Idealize.ShloMosaic Idealize.ShloMosaic.TcCoe Idealize.ShloMosaic.StableHlo

variable {F : FTy → Type} [FloatOps F]

set_option maxHeartbeats 4000000 in
/-- Layer 2 after the projection: the two programs run the same operations on equal inputs. -/
theorem stageC (VK : KV (F := F)) (VR : RV (F := F))
    (hmm : (VR (Proc.devRef .tc Cert.ReferenceIdeal.main_v64) : (⟨Cert.KernelIdeal.S16384x64, .f32⟩ : BufTy).Contents (Elt F))
        = VK (Proc.devRef .tc Cert.KernelIdeal.main_v68))
    (h3 : (VR (Proc.devRef .tc Cert.ReferenceIdeal.main_v3) : (⟨Cert.KernelIdeal.S540672, .i32⟩ : BufTy).Contents (Elt F))
        = VK (Proc.devRef .tc Cert.KernelIdeal.main_v3))
    (h6 : (VR (Proc.devRef .tc Cert.ReferenceIdeal.main_v6) : (⟨Cert.KernelIdeal.S540672, .i32⟩ : BufTy).Contents (Elt F))
        = VK (Proc.devRef .tc Cert.KernelIdeal.main_v6))
    (h26 : (VR (Proc.devRef .tc Cert.ReferenceIdeal.main_v26) : (⟨Cert.KernelIdeal.S540672, .f32⟩ : BufTy).Contents (Elt F))
        = VK (Proc.devRef .tc Cert.KernelIdeal.main_v26))
    (ha8 : (VR (Proc.devRef .tc Cert.ReferenceIdeal.main_arg8) : (⟨Cert.KernelIdeal.S64, .f32⟩ : BufTy).Contents (Elt F))
        = VK (Proc.devRef .tc Cert.KernelIdeal.main_arg8))
    (ha9 : (VR (Proc.devRef .tc Cert.ReferenceIdeal.main_arg9) : (⟨Cert.KernelIdeal.S64, .f32⟩ : BufTy).Contents (Elt F))
        = VK (Proc.devRef .tc Cert.KernelIdeal.main_arg9))
    (ha10 : (VR (Proc.devRef .tc Cert.ReferenceIdeal.main_arg10) : (⟨Cert.KernelIdeal.S64, .f32⟩ : BufTy).Contents (Elt F))
        = VK (Proc.devRef .tc Cert.KernelIdeal.main_arg10)) :
    (after (Cert.ReferenceIdeal.Hand.opsCr (F := F)) (after Cert.ReferenceIdeal.Hand.opsCn (after Cert.ReferenceIdeal.Hand.opsCv
        (after Cert.ReferenceIdeal.Hand.opsC VR))) (Proc.devRef .tc Cert.ReferenceIdeal.main_v100)
        : (⟨Cert.KernelIdeal.S16384x64, .f32⟩ : BufTy).Contents (Elt F))
      = after (Cert.KernelIdeal.Gen.hostOps2_3 (F := F)) (after Cert.KernelIdeal.Gen.hostOps2_2 (after Cert.KernelIdeal.Gen.hostOps2_1
        (after Cert.KernelIdeal.Gen.hostOps2 VK))) (Proc.devRef .tc Cert.KernelIdeal.main_v104) := by
  after_results_simp
  rw [hmm, h3, h6, h26, ha8, ha9, ha10]
  rfl

end Cert.Bridge

end
-- ==== Proof.Bridge.StageCh.lean ====
/-
  The node heads: from the second layer's features and the three heads' weights and biases, the reference's
  concatenation of the binary head, the two softmax groups and the continuous head agrees with the kernel program's,
  and the kernel program's reduced-precision copy of the features is the rounding of the features.

  The concatenated array is read as the concatenation of its four parts, each part taken at its own buffer after the
  whole stretch; the parts are compared one by one, each a chain of elementwise operations, reductions and one product
  on equal inputs.
-/
import proofs.«422874_j81398220194430_3_alg».proof.Proof.Bridge.Base

set_option maxRecDepth 16384

noncomputable section

namespace Cert.Bridge

open Idealize.ShloMosaic Idealize.ShloMosaic.TcCoe Idealize.ShloMosaic.StableHlo

variable {F : FTy → Type} [FloatOps F]

/-- The reference's concatenating operation, run from any contents: the concatenation of the four parts held there. -/
theorem stageCh_catR (G : RV (F := F)) :
    (nary ![Cert.ReferenceIdeal.main_v110, Cert.ReferenceIdeal.main_v126, Cert.ReferenceIdeal.main_v138, Cert.ReferenceIdeal.main_v142] Cert.ReferenceIdeal.main_v143
        (fun u => concatenate Cert.ReferenceIdeal.S16384x30 1 [⟨Cert.ReferenceIdeal.S16384x10, u 0⟩, ⟨Cert.ReferenceIdeal.S16384x4, u 1⟩, ⟨Cert.ReferenceIdeal.S16384x6, u 2⟩, ⟨Cert.ReferenceIdeal.S16384x10, u 3⟩] Cert.ReferenceIdeal.Gen.concatenates_S16384x10_S16384x4_S16384x6_S16384x10_S16384x30_d1)
        : HloOp Cert.ReferenceIdeal.τ Cert.ReferenceIdeal.sig (Elt F)).result G (Proc.devRef .tc Cert.ReferenceIdeal.main_v143)
      = concatenate Cert.ReferenceIdeal.S16384x30 1 [⟨Cert.ReferenceIdeal.S16384x10, G (Proc.devRef .tc Cert.ReferenceIdeal.main_v110)⟩,
          ⟨Cert.ReferenceIdeal.S16384x4, G (Proc.devRef .tc Cert.ReferenceIdeal.main_v126)⟩,
          ⟨Cert.ReferenceIdeal.S16384x6, G (Proc.devRef .tc Cert.ReferenceIdeal.main_v138)⟩,
          ⟨Cert.ReferenceIdeal.S16384x10, G (Proc.devRef .tc Cert.ReferenceIdeal.main_v142)⟩] Cert.ReferenceIdeal.Gen.concatenates_S16384x10_S16384x4_S16384x6_S16384x10_S16384x30_d1 := by
  rw [nary4_result]; rfl

/-- The kernel program's concatenating operation, run from any contents. -/
theorem stageCh_catK (G : KV (F := F)) :
    (nary ![Cert.KernelIdeal.main_v114, Cert.KernelIdeal.main_v130, Cert.KernelIdeal.main_v142, Cert.KernelIdeal.main_v146] Cert.KernelIdeal.main_v147
        (fun u => concatenate Cert.KernelIdeal.S16384x30 1 [⟨Cert.KernelIdeal.S16384x10, u 0⟩, ⟨Cert.KernelIdeal.S16384x4, u 1⟩, ⟨Cert.KernelIdeal.S16384x6, u 2⟩, ⟨Cert.KernelIdeal.S16384x10, u 3⟩] Cert.KernelIdeal.Gen.concatenates_S16384x10_S16384x4_S16384x6_S16384x10_S16384x30_d1)
        : HloOp Cert.KernelIdeal.τ Cert.KernelIdeal.sig (Elt F)).result G (Proc.devRef .tc Cert.KernelIdeal.main_v147)
      = concatenate Cert.KernelIdeal.S16384x30 1 [⟨Cert.KernelIdeal.S16384x10, G (Proc.devRef .tc Cert.KernelIdeal.main_v114)⟩,
          ⟨Cert.KernelIdeal.S16384x4, G (Proc.devRef .tc Cert.KernelIdeal.main_v130)⟩,
          ⟨Cert.KernelIdeal.S16384x6, G (Proc.devRef .tc Cert.KernelIdeal.main_v142)⟩,
          ⟨Cert.KernelIdeal.S16384x10, G (Proc.devRef .tc Cert.KernelIdeal.main_v146)⟩] Cert.KernelIdeal.Gen.concatenates_S16384x10_S16384x4_S16384x6_S16384x10_S16384x30_d1 := by
  rw [nary4_result]; rfl

set_option maxHeartbeats 4000000 in
/-- After the reference's stretch the concatenated array is the concatenation of the four parts after the stretch:
    the concatenating operation is the last and writes none of the parts. -/
theorem stageCh_headsR (V : RV (F := F)) :
    after (Cert.ReferenceIdeal.Hand.opsCh (F := F)) V (Proc.devRef .tc Cert.ReferenceIdeal.main_v143)
      = concatenate Cert.ReferenceIdeal.S16384x30 1 [⟨Cert.ReferenceIdeal.S16384x10, after (Cert.ReferenceIdeal.Hand.opsCh (F := F)) V (Proc.devRef .tc Cert.ReferenceIdeal.main_v110)⟩,
          ⟨Cert.ReferenceIdeal.S16384x4, after (Cert.ReferenceIdeal.Hand.opsCh (F := F)) V (Proc.devRef .tc Cert.ReferenceIdeal.main_v126)⟩,
          ⟨Cert.ReferenceIdeal.S16384x6, after (Cert.ReferenceIdeal.Hand.opsCh (F := F)) V (Proc.devRef .tc Cert.ReferenceIdeal.main_v138)⟩,
          ⟨Cert.ReferenceIdeal.S16384x10, after (Cert.ReferenceIdeal.Hand.opsCh (F := F)) V (Proc.devRef .tc Cert.ReferenceIdeal.main_v142)⟩] Cert.ReferenceIdeal.Gen.concatenates_S16384x10_S16384x4_S16384x6_S16384x10_S16384x30_d1 := by
  simp only [after_cons, after_nil]
  rw [stageCh_catR, nary_result_ne, nary_result_ne, nary_result_ne, nary_result_ne] <;> first | decide | rfl

set_option maxHeartbeats 4000000 in
/-- The same for the kernel program's stretch, whose one later operation writes neither the concatenated array
    nor a part. -/
theorem stageCh_headsK (V : KV (F := F)) :
    after (Cert.KernelIdeal.Gen.hostOps2_4 (F := F)) V (Proc.devRef .tc Cert.KernelIdeal.main_v147)
      = concatenate Cert.KernelIdeal.S16384x30 1 [⟨Cert.KernelIdeal.S16384x10, after (Cert.KernelIdeal.Gen.hostOps2_4 (F := F)) V (Proc.devRef .tc Cert.KernelIdeal.main_v114)⟩,
          ⟨Cert.KernelIdeal.S16384x4, after (Cert.KernelIdeal.Gen.hostOps2_4 (F := F)) V (Proc.devRef .tc Cert.KernelIdeal.main_v130)⟩,
          ⟨Cert.KernelIdeal.S16384x6, after (Cert.KernelIdeal.Gen.hostOps2_4 (F := F)) V (Proc.devRef .tc Cert.KernelIdeal.main_v142)⟩,
          ⟨Cert.KernelIdeal.S16384x10, after (Cert.KernelIdeal.Gen.hostOps2_4 (F := F)) V (Proc.devRef .tc Cert.KernelIdeal.main_v146)⟩] Cert.KernelIdeal.Gen.concatenates_S16384x10_S16384x4_S16384x6_S16384x10_S16384x30_d1 := by
  simp only [after_cons, after_nil]
  rw [unary_result_ne, stageCh_catK, unary_result_ne, nary_result_ne, unary_result_ne, nary_result_ne,
    unary_result_ne, nary_result_ne, unary_result_ne, nary_result_ne] <;> first | decide | rfl

set_option maxHeartbeats 4000000 in
/-- The binary head: the logistic function of the features' product with the head's weights plus its bias. -/
theorem stageCh_binary (VK : KV (F := F)) (VR : RV (F := F))
    (hz : (VR (Proc.devRef .tc Cert.ReferenceIdeal.main_v100) : (⟨Cert.KernelIdeal.S16384x64, .f32⟩ : BufTy).Contents (Elt F))
        = VK (Proc.devRef .tc Cert.KernelIdeal.main_v104))
    (ha11 : (VR (Proc.devRef .tc Cert.ReferenceIdeal.main_arg11) : (⟨Cert.KernelIdeal.S64x10, .f32⟩ : BufTy).Contents (Elt F))
        = VK (Proc.devRef .tc Cert.KernelIdeal.main_arg11))
    (ha12 : (VR (Proc.devRef .tc Cert.ReferenceIdeal.main_arg12) : (⟨Cert.KernelIdeal.S10, .f32⟩ : BufTy).Contents (Elt F))
        = VK (Proc.devRef .tc Cert.KernelIdeal.main_arg12)) :
    (after (Cert.ReferenceIdeal.Hand.opsCh (F := F)) VR (Proc.devRef .tc Cert.ReferenceIdeal.main_v110) : (⟨Cert.KernelIdeal.S16384x10, .f32⟩ : BufTy).Contents (Elt F))
      = after (Cert.KernelIdeal.Gen.hostOps2_4 (F := F)) VK (Proc.devRef .tc Cert.KernelIdeal.main_v114) := by
  after_results_simp
  rw [hz, ha11, ha12] <;> rfl

set_option maxHeartbeats 4000000 in
/-- The first softmax group: the first four columns of the categorical head, normalised along the row. -/
theorem stageCh_soft0 (VK : KV (F := F)) (VR : RV (F := F))
    (hz : (VR (Proc.devRef .tc Cert.ReferenceIdeal.main_v100) : (⟨Cert.KernelIdeal.S16384x64, .f32⟩ : BufTy).Contents (Elt F))
        = VK (Proc.devRef .tc Cert.KernelIdeal.main_v104))
    (ha13 : (VR (Proc.devRef .tc Cert.ReferenceIdeal.main_arg13) : (⟨Cert.KernelIdeal.S64x10, .f32⟩ : BufTy).Contents (Elt F))
        = VK (Proc.devRef .tc Cert.KernelIdeal.main_arg13))
    (ha14 : (VR (Proc.devRef .tc Cert.ReferenceIdeal.main_arg14) : (⟨Cert.KernelIdeal.S10, .f32⟩ : BufTy).Contents (Elt F))
        = VK (Proc.devRef .tc Cert.KernelIdeal.main_arg14)) :
    (after (Cert.ReferenceIdeal.Hand.opsCh (F := F)) VR (Proc.devRef .tc Cert.ReferenceIdeal.main_v126) : (⟨Cert.KernelIdeal.S16384x4, .f32⟩ : BufTy).Contents (Elt F))
      = after (Cert.KernelIdeal.Gen.hostOps2_4 (F := F)) VK (Proc.devRef .tc Cert.KernelIdeal.main_v130) := by
  after_results_simp
  rw [hz, ha13, ha14] <;> rfl

set_option maxHeartbeats 4000000 in
/-- The second softmax group: the last six columns of the categorical head, normalised along the row. -/
theorem stageCh_soft1 (VK : KV (F := F)) (VR : RV (F := F))
    (hz : (VR (Proc.devRef .tc Cert.ReferenceIdeal.main_v100) : (⟨Cert.KernelIdeal.S16384x64, .f32⟩ : BufTy).Contents (Elt F))
        = VK (Proc.devRef .tc Cert.KernelIdeal.main_v104))
    (ha13 : (VR (Proc.devRef .tc Cert.ReferenceIdeal.main_arg13) : (⟨Cert.KernelIdeal.S64x10, .f32⟩ : BufTy).Contents (Elt F))
        = VK (Proc.devRef .tc Cert.KernelIdeal.main_arg13))
    (ha14 : (VR (Proc.devRef .tc Cert.ReferenceIdeal.main_arg14) : (⟨Cert.KernelIdeal.S10, .f32⟩ : BufTy).Contents (Elt F))
        = VK (Proc.devRef .tc Cert.KernelIdeal.main_arg14)) :
    (after (Cert.ReferenceIdeal.Hand.opsCh (F := F)) VR (Proc.devRef .tc Cert.ReferenceIdeal.main_v138) : (⟨Cert.KernelIdeal.S16384x6, .f32⟩ : BufTy).Contents (Elt F))
      = after (Cert.KernelIdeal.Gen.hostOps2_4 (F := F)) VK (Proc.devRef .tc Cert.KernelIdeal.main_v142) := by
  after_results_simp
  rw [hz, ha13, ha14] <;> rfl

set_option maxHeartbeats 4000000 in
/-- The continuous head: the features' product with the head's weights plus its bias. -/
theorem stageCh_cont (VK : KV (F := F)) (VR : RV (F := F))
    (hz : (VR (Proc.devRef .tc Cert.ReferenceIdeal.main_v100) : (⟨Cert.KernelIdeal.S16384x64, .f32⟩ : BufTy).Contents (Elt F))
        = VK (Proc.devRef .tc Cert.KernelIdeal.main_v104))
    (ha15 : (VR (Proc.devRef .tc Cert.ReferenceIdeal.main_arg15) : (⟨Cert.KernelIdeal.S64x10, .f32⟩ : BufTy).Contents (Elt F))
        = VK (Proc.devRef .tc Cert.KernelIdeal.main_arg15))
    (ha16 : (VR (Proc.devRef .tc Cert.ReferenceIdeal.main_arg16) : (⟨Cert.KernelIdeal.S10, .f32⟩ : BufTy).Contents (Elt F))
        = VK (Proc.devRef .tc Cert.KernelIdeal.main_arg16)) :
    (after (Cert.ReferenceIdeal.Hand.opsCh (F := F)) VR (Proc.devRef .tc Cert.ReferenceIdeal.main_v142) : (⟨Cert.KernelIdeal.S16384x10, .f32⟩ : BufTy).Contents (Elt F))
      = after (Cert.KernelIdeal.Gen.hostOps2_4 (F := F)) VK (Proc.devRef .tc Cert.KernelIdeal.main_v146) := by
  after_results_simp
  rw [hz, ha15, ha16] <;> rfl

set_option maxHeartbeats 4000000 in
/-- The node heads agree, and the kernel program's reduced-precision features are the rounded features. -/
theorem stageCh (VK : KV (F := F)) (VR : RV (F := F))
    (hz : (VR (Proc.devRef .tc Cert.ReferenceIdeal.main_v100) : (⟨Cert.KernelIdeal.S16384x64, .f32⟩ : BufTy).Contents (Elt F))
        = VK (Proc.devRef .tc Cert.KernelIdeal.main_v104))
    (ha11 : (VR (Proc.devRef .tc Cert.ReferenceIdeal.main_arg11) : (⟨Cert.KernelIdeal.S64x10, .f32⟩ : BufTy).Contents (Elt F))
        = VK (Proc.devRef .tc Cert.KernelIdeal.main_arg11))
    (ha12 : (VR (Proc.devRef .tc Cert.ReferenceIdeal.main_arg12) : (⟨Cert.KernelIdeal.S10, .f32⟩ : BufTy).Contents (Elt F))
        = VK (Proc.devRef .tc Cert.KernelIdeal.main_arg12))
    (ha13 : (VR (Proc.devRef .tc Cert.ReferenceIdeal.main_arg13) : (⟨Cert.KernelIdeal.S64x10, .f32⟩ : BufTy).Contents (Elt F))
        = VK (Proc.devRef .tc Cert.KernelIdeal.main_arg13))
    (ha14 : (VR (Proc.devRef .tc Cert.ReferenceIdeal.main_arg14) : (⟨Cert.KernelIdeal.S10, .f32⟩ : BufTy).Contents (Elt F))
        = VK (Proc.devRef .tc Cert.KernelIdeal.main_arg14))
    (ha15 : (VR (Proc.devRef .tc Cert.ReferenceIdeal.main_arg15) : (⟨Cert.KernelIdeal.S64x10, .f32⟩ : BufTy).Contents (Elt F))
        = VK (Proc.devRef .tc Cert.KernelIdeal.main_arg15))
    (ha16 : (VR (Proc.devRef .tc Cert.ReferenceIdeal.main_arg16) : (⟨Cert.KernelIdeal.S10, .f32⟩ : BufTy).Contents (Elt F))
        = VK (Proc.devRef .tc Cert.KernelIdeal.main_arg16)) :
    ((after (Cert.ReferenceIdeal.Hand.opsCh (F := F)) VR (Proc.devRef .tc Cert.ReferenceIdeal.main_v143)
        : (⟨Cert.KernelIdeal.S16384x30, .f32⟩ : BufTy).Contents (Elt F))
      = after (Cert.KernelIdeal.Gen.hostOps2_4 (F := F)) VK (Proc.devRef .tc Cert.KernelIdeal.main_v147))
    ∧ ((after (Cert.KernelIdeal.Gen.hostOps2_4 (F := F)) VK (Proc.devRef .tc Cert.KernelIdeal.main_v148)
        : (⟨Cert.KernelIdeal.S16384x64, .bf16⟩ : BufTy).Contents (Elt F))
      = truncf .bf16 (VK (Proc.devRef .tc Cert.KernelIdeal.main_v104) : (⟨Cert.KernelIdeal.S16384x64, .f32⟩ : BufTy).Contents (Elt F)) Cert.KernelIdeal.Gen.bitsLt_bf16_f32) := by
  refine ⟨?_, ?_⟩
  · rw [stageCh_headsR VR, stageCh_headsK VK, stageCh_binary VK VR hz ha11 ha12, stageCh_soft0 VK VR hz ha13 ha14,
      stageCh_soft1 VK VR hz ha13 ha14, stageCh_cont VK VR hz ha15 ha16] <;> rfl
  · after_results_simp

end Cert.Bridge

end
-- ==== Proof.LibPlainDot.lean ====
/-
  GENERAL LEMMAS: the product of an [M, K] table by a [K, N] table, contracting the left operand's last axis with the
  right operand's first (dimension numbers [1] x [0], no batch axes), read at an index over the extended reals: element
  (p, q) is the sum over k : Fin K of l[p, k] · r[k, q]. Stated for the matrix unit's product into a zero accumulator and
  for the host's dot_general.
-/
import Idealize.ShloMosaic.PureOps.Ideal.Laws
import Idealize.ShloMosaic.Lib.ValueIdx

noncomputable section

namespace Cert.PlainDot

open Idealize.ShloMosaic Idealize.ShloMosaic.ValueIdx

/-- The contraction sum of a plain dot at (p, q), re-indexed by k : Fin K. -/
theorem contr_sum {M K N : ℕ} (l : (⟨2, ![M, K]⟩ : Shape).Idx → EReal) (r : (⟨2, ![K, N]⟩ : Shape).Idx → EReal)
    (p : Fin M) (q : Fin N) :
    (∑ k : (DotDims.plain M K N).contr.Idx,
        l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have l0 : ∀ κ : (DotDims.plain M K N).contr.Idx, ((DotDims.plain M K N).lhsIdx (ix2 p q) κ 0).val = p.val :=
    fun κ => rfl
  have l1 : ∀ κ : (DotDims.plain M K N).contr.Idx,
      ((DotDims.plain M K N).lhsIdx (ix2 p q) κ 1).val = (κ ⟨0, Nat.one_pos⟩).val :=
    fun κ => (DotDims.plain M K N).lhsIdx_val_of_single rfl (ix2 p q) κ
  have r0 : ∀ κ : (DotDims.plain M K N).contr.Idx,
      ((DotDims.plain M K N).rhsIdx (ix2 p q) κ 0).val = (κ ⟨0, Nat.one_pos⟩).val :=
    fun κ => (DotDims.plain M K N).rhsIdx_val_of_single rfl (ix2 p q) κ
  have r1 : ∀ κ : (DotDims.plain M K N).contr.Idx, ((DotDims.plain M K N).rhsIdx (ix2 p q) κ 1).val = q.val :=
    fun κ => rfl
  have el : (DotDims.plain M K N).lhsIdx (ix2 p q) ((contrEquiv1 (DotDims.plain M K N) K rfl rfl).symm k) = ix2 p k :=
    funext fun a => Fin.ext (by
      match a with
      | ⟨0, _⟩ => exact l0 _
      | ⟨1, _⟩ => exact (l1 _).trans hk)
  have er : (DotDims.plain M K N).rhsIdx (ix2 p q) ((contrEquiv1 (DotDims.plain M K N) K rfl rfl).symm k) = ix2 k q :=
    funext fun a => Fin.ext (by
      match a with
      | ⟨0, _⟩ => exact (r0 _).trans hk
      | ⟨1, _⟩ => exact r1 _)
  rw [el, er]

/-- The matrix unit's product into the zero accumulator, at (p, q). -/
theorem matmul_zero_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact contr_sum l r p q

/-- The host's dot_general, at (p, q). -/
theorem dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact contr_sum l r p q

end Cert.PlainDot

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.Bridge.StageD.lean ====
/-
  The edge decoder. The reference gathers the two end points' embedding rows, lays them side by side and multiplies
  the 128 columns by the weights; the kernel program multiplies the embedding by the upper and the lower 64 rows of the
  weights first and gathers rows of the two products. At the ideal values the two agree: a sum over 128 terms is the
  sum of its first 64 and its last 64 terms, and gathering a row commutes with a row-wise product.
-/
import proofs.«422874_j81398220194430_3_alg».proof.Proof.Bridge.Base
import proofs.«422874_j81398220194430_3_alg».proof.Proof.LibPlainDot
import proofs.«422874_j81398220194430_3_alg».proof.Proof.LibRowGather
import Idealize.ShloMosaic.Lib.ValueIdx
import Idealize.ShloMosaic.Lib.ValueLayout
import Idealize.ShloMosaic.Lib.Pipeline.Value
import Mathlib.Algebra.BigOperators.Fin

set_option maxRecDepth 16384

noncomputable section

namespace Cert.Bridge

open Idealize.ShloMosaic Idealize.ShloMosaic.TcCoe Idealize.ShloMosaic.StableHlo Idealize.ShloMosaic.ValueIdx

variable {F : FTy → Type} [FloatOps F]

namespace EdgeDecoder

/-- A line of operations run up to a cut and then from it. -/
theorem after_split {τ : Topo} {sig : RefSig} {Val : EltTy → Type} (n : Nat) :
    ∀ (l : List (HloOp τ sig Val)) (V : Valuation τ sig Val), after l V = after (l.drop n) (after (l.take n) V) := by
  induction n with
  | zero => intro l V; rfl
  | succ n ih =>
    intro l V
    cases l with
    | nil => rfl
    | cons op ops => exact ih ops (op.result V)

/-- The edge decoder at one element: the product of the concatenated rows by the weights is the sum of the two
    half products' gathered rows. -/
theorem edge_point (z : FVec Ideal ⟨2, ![16384, 64]⟩ .f32) (W : FVec Ideal ⟨2, ![128, 16]⟩ .f32)
    (c0 c1 : IVec ⟨2, ![524288, 1]⟩ 32)
    (wfR : GatherDims.WF ⟨2, ![16384, 64]⟩ ⟨2, ![524288, 1]⟩ ⟨2, ![524288, 64]⟩ [1] [0] [] [0] [] 1 ![1, 64])
    (wfK : GatherDims.WF ⟨2, ![16384, 16]⟩ ⟨2, ![524288, 1]⟩ ⟨2, ![524288, 16]⟩ [1] [0] [] [0] [] 1 ![1, 16])
    (hc : Shape.Concatenates [(⟨2, ![524288, 64]⟩ : Shape), ⟨2, ![524288, 64]⟩] ⟨2, ![524288, 128]⟩ 1)
    (s0 : (⟨2, ![128, 16]⟩ : Shape).Slices ![0, 0] ⟨2, ![64, 16]⟩)
    (s64 : (⟨2, ![128, 16]⟩ : Shape).Slices ![64, 0] ⟨2, ![64, 16]⟩)
    (e : Fin 524288) (j : Fin 16) :
    FloatOps.dotGeneral (DotDims.plain 524288 128 16) none .single
        (concatenate ⟨2, ![524288, 128]⟩ 1
          [⟨⟨2, ![524288, 64]⟩, Host.gather (Cert.LibRowGather.rowDims 16384 64 524288 wfR) z c0⟩,
           ⟨⟨2, ![524288, 64]⟩, Host.gather (Cert.LibRowGather.rowDims 16384 64 524288 wfR) z c1⟩] hc) W (ix2 e j)
      = Host.gather (Cert.LibRowGather.rowDims 16384 16 524288 wfK)
          (FloatOps.dotGeneral (DotDims.plain 16384 64 16) none .single z
            (extractStridedSlice ⟨2, ![64, 16]⟩ ![0, 0] W s0)) c0 (ix2 e j)
        + Host.gather (Cert.LibRowGather.rowDims 16384 16 524288 wfK)
          (FloatOps.dotGeneral (DotDims.plain 16384 64 16) none .single z
            (extractStridedSlice ⟨2, ![64, 16]⟩ ![64, 0] W s64)) c1 (ix2 e j) := by
  rw [Cert.PlainDot.dotGeneral_apply,
    Cert.LibRowGather.gather_rows_apply (by decide : 0 < 16384),
    Cert.LibRowGather.gather_rows_apply (by decide : 0 < 16384),
    Cert.PlainDot.dotGeneral_apply, Cert.PlainDot.dotGeneral_apply]
  show (∑ k : Fin (64 + 64), _) = _
  rw [Fin.sum_univ_add]
  congr 1
  · refine Finset.sum_congr rfl fun k _ => ?_
    rw [concatenate_pair_apply_left (t := ⟨2, ![524288, 128]⟩) (s₁ := ⟨2, ![524288, 64]⟩) (s₂ := ⟨2, ![524288, 64]⟩) 1 _ _ hc
        (ix2 e (Fin.castAdd 64 k)) rfl (ix2 e k)
        (fun b => match b with | ⟨0, _⟩ => rfl | ⟨1, _⟩ => rfl),
      Cert.LibRowGather.gather_rows_apply (by decide : 0 < 16384),
      slice2_axis0_apply 0 W s0 k j (Fin.castAdd 64 k) (Nat.zero_add _).symm]
  · refine Finset.sum_congr rfl fun k _ => ?_
    rw [concatenate_pair_apply_right (t := ⟨2, ![524288, 128]⟩) (s₁ := ⟨2, ![524288, 64]⟩) (s₂ := ⟨2, ![524288, 64]⟩) 1 _ _ hc
        (ix2 e (Fin.natAdd 64 k)) rfl rfl (ix2 e k)
        (fun b => match b with | ⟨0, _⟩ => fun _ => rfl | ⟨1, _⟩ => fun h => absurd rfl h)
        (by show k.val + 64 = 64 + k.val; omega),
      Cert.LibRowGather.gather_rows_apply (by decide : 0 < 16384),
      slice2_axis0_apply 64 W s64 k j (Fin.natAdd 64 k) rfl]

/-- The edge decoder as whole arrays, over the two programs' own shape and dimension records. -/
theorem edge_value (z : FVec Ideal Cert.KernelIdeal.S16384x64 .f32) (W : FVec Ideal Cert.KernelIdeal.S128x16 .f32)
    (b : FVec Ideal Cert.KernelIdeal.S16 .f32) (c0 c1 : IVec Cert.KernelIdeal.S524288x1 32) :
    addf (Host.dotGeneral Cert.ReferenceIdeal.dot_S524288x128_S128x16_S524288x16_1_0_0_1_n_n none
          (concatenate Cert.ReferenceIdeal.S524288x128 1
            [⟨Cert.ReferenceIdeal.S524288x64, Host.gather Cert.ReferenceIdeal.gather_S16384x64_S524288x1_S524288x64_1_0_n_n_0_1_164 z c0⟩,
             ⟨Cert.ReferenceIdeal.S524288x64, Host.gather Cert.ReferenceIdeal.gather_S16384x64_S524288x1_S524288x64_1_0_n_n_0_1_164 z c1⟩]
            Cert.ReferenceIdeal.Facts₀.concatenates_S524288x64_S524288x64_S524288x128_d1) W)
        (broadcastInDim Cert.ReferenceIdeal.S524288x16 ![0, 1] Cert.ReferenceIdeal.Facts₀.bcast_S1x16_S524288x16_0_1
          (broadcastInDim Cert.ReferenceIdeal.S1x16 ![1] Cert.ReferenceIdeal.Facts₀.bcast_S16_S1x16_1 b))
      = addf (addf
          (Host.gather Cert.KernelIdeal.gather_S16384x16_S524288x1_S524288x16_1_0_n_n_0_1_116
            (Host.dotGeneral Cert.KernelIdeal.dot_S16384x64_S64x16_S16384x16_1_0_0_1_n_n none z
              (extractStridedSlice Cert.KernelIdeal.S64x16 ![0, 0] W Cert.KernelIdeal.Facts₀.slices_S128x16_S64x16_0_0)) c0)
          (Host.gather Cert.KernelIdeal.gather_S16384x16_S524288x1_S524288x16_1_0_n_n_0_1_116
            (Host.dotGeneral Cert.KernelIdeal.dot_S16384x64_S64x16_S16384x16_1_0_0_1_n_n none z
              (extractStridedSlice Cert.KernelIdeal.S64x16 ![64, 0] W Cert.KernelIdeal.Facts₀.slices_S128x16_S64x16_64_0)) c1))
        (broadcastInDim Cert.KernelIdeal.S524288x16 ![0, 1] Cert.KernelIdeal.Facts₀.bcast_S1x16_S524288x16_0_1
          (broadcastInDim Cert.KernelIdeal.S1x16 ![1] Cert.KernelIdeal.Facts₀.bcast_S16_S1x16_1 b)) := by
  funext i
  rw [eq_ix2 i]
  show _ + _ = (_ + _) + _
  congr 1
  exact edge_point z W c0 c1 _ _ _ _ _ (i 0) (i 1)

end EdgeDecoder

set_option maxHeartbeats 4000000 in
/-- The edge scores: the reference's and the kernel program's last host stretches compute one array. -/
theorem stageD (VK : KV (F := Ideal)) (VR : RV (F := Ideal))
    (hz : (VR (Proc.devRef .tc Cert.ReferenceIdeal.main_v100) : (⟨Cert.KernelIdeal.S16384x64, .f32⟩ : BufTy).Contents (Elt Ideal))
        = VK (Proc.devRef .tc Cert.KernelIdeal.main_v104))
    (h1 : (VR (Proc.devRef .tc Cert.ReferenceIdeal.main_arg1) : (⟨Cert.KernelIdeal.S2x524288, .i32⟩ : BufTy).Contents (Elt Ideal))
        = VK (Proc.devRef .tc Cert.KernelIdeal.main_arg1))
    (h17 : (VR (Proc.devRef .tc Cert.ReferenceIdeal.main_arg17) : (⟨Cert.KernelIdeal.S128x16, .f32⟩ : BufTy).Contents (Elt Ideal))
        = VK (Proc.devRef .tc Cert.KernelIdeal.main_arg17))
    (h18 : (VR (Proc.devRef .tc Cert.ReferenceIdeal.main_arg18) : (⟨Cert.KernelIdeal.S16, .f32⟩ : BufTy).Contents (Elt Ideal))
        = VK (Proc.devRef .tc Cert.KernelIdeal.main_arg18)) :
    (after (Cert.ReferenceIdeal.Hand.opsD (F := Ideal)) VR (Proc.devRef .tc Cert.ReferenceIdeal.main_v168)
        : (⟨Cert.KernelIdeal.S524288x16, .f32⟩ : BufTy).Contents (Elt Ideal))
      = after (Cert.KernelIdeal.Gen.hostOps3 (F := Ideal)) VK (Proc.devRef .tc Cert.KernelIdeal.main_v175) := by
  generalize hkv : after (Cert.KernelIdeal.Gen.hostOps3 (F := Ideal)) VK (Proc.devRef .tc Cert.KernelIdeal.main_v175) = kv
  rw [EdgeDecoder.after_split 22 (Cert.ReferenceIdeal.Hand.opsD (F := Ideal)) VR]
  generalize hV : after (List.take 22 (Cert.ReferenceIdeal.Hand.opsD (F := Ideal))) VR = V'
  simp only [List.drop_succ_cons, List.drop_zero]
  after_results
  generalize hA : V' (Proc.devRef .tc Cert.ReferenceIdeal.main_v154) = A
  generalize hB : V' (Proc.devRef .tc Cert.ReferenceIdeal.main_v163) = B
  subst hV
  subst hkv
  simp only [List.take_succ_cons, List.take_zero] at hA hB ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hA hB ⊢
  rw [hz, h1] at hA hB
  rw [h17, h18]
  subst hA hB
  exact EdgeDecoder.edge_value _ _ _ _ _

end Cert.Bridge

end
-- ==== Proof.Bridge.StageM0.lean ====
/-
  The first matrix product, x·w1: an [16384,128] table by a [128,128] table, computed in eight row blocks of 2048.
  At the extended reals the array the tiled product leaves is the plain product of the two un-narrowed tables: entry
  (r, q) is the sum over k of X[r, k] · W[k, q].  Each grid point t writes rows 2048·t … 2048·t + 2047, every row
  is in exactly the block of point r / 2048, and narrowing a value to a shorter format is the identity here.
-/
import proofs.«422874_j81398220194430_3_alg».proof.Proof.KI.Reg0
import proofs.«422874_j81398220194430_3_alg».proof.Proof.Gen.ReferenceIdeal
import proofs.«422874_j81398220194430_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-- Offsets (0, 0), however spelt. -/
theorem zeroOffsets0 : (![0, 0] : Fin 2 → Nat) = fun _ => 0 := funext fun a => by fin_cases a <;> rfl

/-- Row p of block n is row 2048·n + p of the table. -/
def rowOf0 (n : ℕ) (hn : n < 8) (p : Fin 2048) : Fin 16384 := ⟨n * 2048 + p.val, by have := p.isLt; omega⟩

/-- The block product's dimension numbers are the plain ones. -/
theorem blockDot0_plain : dot_S2048x128_S128x128_S2048x128_1_0_0_1_n_n = DotDims.plain 2048 128 128 := rfl

/-- The whole product's dimension numbers are the plain ones. -/
theorem wholeDot0_plain :
    Cert.ReferenceIdeal.dot_S16384x128_S128x128_S16384x128_1_0_0_1_n_n = DotDims.plain 16384 128 128 := rfl

/-- The body's arithmetic on two blocks, at (p, q): the sum over k of x0[p, k] · x1[k, q]. -/
theorem pay0_apply (x0 : FVec Ideal S2048x128 .bf16) (x1 : FVec Ideal S128x128 .bf16) (p : Fin 2048) (q : Fin 128) :
    (k0_pay1 (F := Ideal) x0 x1 : FVec Ideal S2048x128 .f32) (ix2 p q) = ∑ k : Fin 128, x0 (ix2 p k) * x1 (ix2 k q) := by
  unfold k0_pay1
  simp only [shapeCast_self]
  rw [blockDot0_plain]
  exact Cert.PlainDot.matmul_zero_apply none x0 x1 p q

/-- What the body leaves in the output's buffer, at (p, q). -/
theorem out0_apply (x0 : FVec Ideal S2048x128 .bf16) (x1 : FVec Ideal S128x128 .bf16) (p : Fin 2048) (q : Fin 128) :
    (out0_2 (F := Ideal) x0 x1 : FVec Ideal S2048x128 .f32) (ix2 p q) = ∑ k : Fin 128, x0 (ix2 p k) * x1 (ix2 k q) := by
  unfold out0_2
  rw [View.canon_unit_zero zeroOffsets0]
  simp only [View.ld_unit_zero (S := S2048x128) zeroOffsets0, View.ld_unit_zero (S := S128x128) zeroOffsets0]
  exact pay0_apply x0 x1 p q

/-- The whole product at (r, q). -/
theorem whole0_apply (X : FVec Ideal S16384x128 .f32) (W : FVec Ideal S128x128 .f32) (r : Fin 16384) (q : Fin 128) :
    (Host.dotGeneral Cert.ReferenceIdeal.dot_S16384x128_S128x128_S16384x128_1_0_0_1_n_n none X W : FVec Ideal S16384x128 .f32) (ix2 r q)
      = ∑ k : Fin 128, X (ix2 r k) * W (ix2 k q) := by
  rw [wholeDot0_plain]
  exact Cert.PlainDot.dotGeneral_apply none .single X W r q

/-- The index maps over the grid: the left operand's and the result's block row is the point, every other block index 0. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)
  (X : FVec Ideal S16384x128 .f32) (W : FVec Ideal S128x128 .f32)
  (hx : (V c main_v27 : (⟨S16384x128, .bf16⟩ : BufTy).Contents (Elt Ideal)) = truncf .bf16 X Cert.KernelIdeal.Gen.bitsLt_bf16_f32)
  (hw : (V c main_v28 : (⟨S128x128, .bf16⟩ : BufTy).Contents (Elt Ideal)) = truncf .bf16 W Cert.KernelIdeal.Gen.bitsLt_bf16_f32)

include hx in
/-- The left operand's block at point t is rows 2048·t … of X. -/
theorem leftBlock0 (t : Fin cfg0.N) (ht : t.val < 8) (p : Fin 2048) (k : Fin 128) :
    (iblk0 (F := Ideal) V c 0 t : FVec Ideal S2048x128 .bf16) (ix2 p k) = X (ix2 (rowOf0 t.val ht p) k) := by
  obtain ⟨e00, e01, -, -, -, -⟩ := blockIdx0 t
  show (V c main_v27 : (⟨S16384x128, .bf16⟩ : BufTy).Contents (Elt Ideal)) (((cfg0.win 0).blk t).view.emb (ix2 p k)) = _
  rw [hx]
  show X (((cfg0.win 0).blk t).view.emb (ix2 p k)) = X _
  refine congrArg X ?_
  funext a; apply Fin.ext
  match a with
  | ⟨0, _⟩ => show win0_0.index t (0 : Fin 2) * 2048 + 1 * p.val = t.val * 2048 + p.val; rw [e00]; omega
  | ⟨1, _⟩ => show win0_0.index t (1 : Fin 2) * 128 + 1 * k.val = k.val; rw [e01]; omega

include hw in
/-- The right operand's block at every point is W. -/
theorem rightBlock0 (t : Fin cfg0.N) (k : Fin 128) (q : Fin 128) :
    (iblk0 (F := Ideal) V c 1 t : FVec Ideal S128x128 .bf16) (ix2 k q) = W (ix2 k q) := by
  obtain ⟨-, -, e10, e11, -, -⟩ := blockIdx0 t
  show (V c main_v28 : (⟨S128x128, .bf16⟩ : BufTy).Contents (Elt Ideal)) (((cfg0.win 1).blk t).view.emb (ix2 k q)) = _
  rw [hw]
  show W (((cfg0.win 1).blk t).view.emb (ix2 k q)) = W _
  refine congrArg W ?_
  funext a; apply Fin.ext
  match a with
  | ⟨0, _⟩ => show win0_1.index t (0 : Fin 2) * 128 + 1 * k.val = k.val; rw [e10]; omega
  | ⟨1, _⟩ => show win0_1.index t (1 : Fin 2) * 128 + 1 * q.val = q.val; rw [e11]; omega

include hx hw in
/-- What point t writes back is block t of the whole product. -/
theorem flushedM0_eq (t : Fin cfg0.N) :
    (dat0 (F := Ideal) V c).flushed 2 t = ((cfg0.win 2).blk t).view.read (Elt Ideal)
      (Host.dotGeneral Cert.ReferenceIdeal.dot_S16384x128_S128x128_S16384x128_1_0_0_1_n_n none X W) := by
  show (cfg0.win 2).cut (grid0.coords t) ((dat0 (F := Ideal) V c).after 2 t) = _
  rw [after0_2]
  have ht : t.val < 8 := lt_of_lt_of_eq t.isLt N_0
  obtain ⟨-, -, -, -, e20, e21⟩ := blockIdx0 t
  funext j
  obtain ⟨p, q, rfl⟩ : ∃ (p : Fin 2048) (q : Fin 128), j = ix2 p q := ⟨j 0, j 1, eq_ix2 j⟩
  show (out0_2 (F := Ideal) (iblk0 V c 0 t) (iblk0 V c 1 t) : FVec Ideal S2048x128 .f32) (ix2 p q)
    = (Host.dotGeneral Cert.ReferenceIdeal.dot_S16384x128_S128x128_S16384x128_1_0_0_1_n_n none X W : FVec Ideal S16384x128 .f32)
        (((cfg0.win 2).blk t).view.emb (ix2 p q))
  have hemb : ((cfg0.win 2).blk t).view.emb (ix2 p q) = (ix2 (rowOf0 t.val ht p) q : S16384x128.Idx) := by
    funext a; apply Fin.ext
    match a with
    | ⟨0, _⟩ => show win0_2.index t (0 : Fin 2) * 2048 + 1 * p.val = t.val * 2048 + p.val; rw [e20]; omega
    | ⟨1, _⟩ => show win0_2.index t (1 : Fin 2) * 128 + 1 * q.val = q.val; rw [e21]; omega
  rw [hemb]
  refine (out0_apply _ _ p q).trans ?_
  refine Eq.trans ?_ (whole0_apply X W (rowOf0 t.val ht p) q).symm
  exact Finset.sum_congr rfl fun k _ => congrArg₂ (· * ·) (leftBlock0 V c X hx t ht p k) (rightBlock0 V c W hw t k q)

end

/-- An index is in point t's block iff each coordinate is in the block's range on its axis. -/
theorem mem_blockM0 (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v29).slice (win0_2.rect t)).set ↔ _
  rw [View.set_slice_whole, Rect.mem_set_unit]
  exact Iff.rfl

/-- Row r is in the block of point r / 2048: the eight blocks cover the table. -/
theorem coverM0 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : grid0.N = 8 := N_0
  obtain ⟨t, htv⟩ : ∃ t : Fin cfg0.N, t.val = (i 0).val / 2048 :=
    ⟨⟨(i 0).val / 2048, by show (i 0).val / 2048 < grid0.N; omega⟩, rfl⟩
  obtain ⟨-, -, -, -, e20, e21⟩ := blockIdx0 t
  refine ⟨t, flush0_2 t, ?_⟩
  rw [mem_blockM0]
  intro a
  match a with
  | ⟨0, _⟩ => show win0_2.index t (0 : Fin 2) * 2048 ≤ (i 0).val ∧ (i 0).val < win0_2.index t (0 : Fin 2) * 2048 + 2048; rw [e20, htv]; omega
  | ⟨1, _⟩ => show win0_2.index t (1 : Fin 2) * 128 ≤ (i 1).val ∧ (i 1).val < win0_2.index t (1 : Fin 2) * 128 + 128; rw [e21]; omega

open Cert.KernelIdeal Cert.KernelIdeal.Gen Cert.KernelIdeal.Hand in
/-- The array the tiled product x·w1 leaves is the plain product of the un-narrowed tables. -/
theorem stageM0 (V : (c : Dev nD) → (b : Ref sig .tc) → Buf (Elt Ideal) ((c : Thread nD τ).loc b)) (c : Dev nD)
    (X : FVec Ideal S16384x128 .f32) (W : FVec Ideal S128x128 .f32)
    (hx : (V c main_v27 : (⟨S16384x128, .bf16⟩ : BufTy).Contents (Elt Ideal)) = truncf .bf16 X Cert.KernelIdeal.Gen.bitsLt_bf16_f32)
    (hw : (V c main_v28 : (⟨S128x128, .bf16⟩ : BufTy).Contents (Elt Ideal)) = truncf .bf16 W Cert.KernelIdeal.Gen.bitsLt_bf16_f32) :
    ((dat0 (F := Ideal) V c).arrAt 2 cfg0.N : (⟨S16384x128, .f32⟩ : BufTy).Contents (Elt Ideal))
      = Host.dotGeneral Cert.ReferenceIdeal.dot_S16384x128_S128x128_S16384x128_1_0_0_1_n_n none X W :=
  (dat0 (F := Ideal) V c).arrAt_eq_of_cover 2
    (Host.dotGeneral Cert.ReferenceIdeal.dot_S16384x128_S128x128_S16384x128_1_0_0_1_n_n none X W)
    (fun t _ => flushedM0_eq V c X W hx hw t) coverM0

end Cert.Bridge

end
-- ==== Proof.Bridge.StageM1.lean ====
/-
  The second matrix product, h·w2: an [16384,128] table by a [128,64] table, computed in eight row blocks of 2048.
  At the extended reals the array the tiled product leaves is the plain product of the two un-narrowed tables: entry
  (r, q) is the sum over k of X[r, k] · W[k, q].  Each grid point t writes rows 2048·t … 2048·t + 2047, every row
  is in exactly the block of point r / 2048, and narrowing a value to a shorter format is the identity here.
-/
import proofs.«422874_j81398220194430_3_alg».proof.Proof.KI.Reg1
import proofs.«422874_j81398220194430_3_alg».proof.Proof.Gen.ReferenceIdeal
import proofs.«422874_j81398220194430_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-- Offsets (0, 0), however spelt. -/
theorem zeroOffsets1 : (![0, 0] : Fin 2 → Nat) = fun _ => 0 := funext fun a => by fin_cases a <;> rfl

/-- Row p of block n is row 2048·n + p of the table. -/
def rowOf1 (n : ℕ) (hn : n < 8) (p : Fin 2048) : Fin 16384 := ⟨n * 2048 + p.val, by have := p.isLt; omega⟩

/-- The block product's dimension numbers are the plain ones. -/
theorem blockDot1_plain : dot_S2048x128_S128x64_S2048x64_1_0_0_1_n_n = DotDims.plain 2048 128 64 := rfl

/-- The whole product's dimension numbers are the plain ones. -/
theorem wholeDot1_plain :
    Cert.ReferenceIdeal.dot_S16384x128_S128x64_S16384x64_1_0_0_1_n_n = DotDims.plain 16384 128 64 := rfl

/-- The body's arithmetic on two blocks, at (p, q): the sum over k of x0[p, k] · x1[k, q]. -/
theorem pay1_apply (x0 : FVec Ideal S2048x128 .bf16) (x1 : FVec Ideal S128x64 .bf16) (p : Fin 2048) (q : Fin 64) :
    (k1_pay1 (F := Ideal) x0 x1 : FVec Ideal S2048x64 .f32) (ix2 p q) = ∑ k : Fin 128, x0 (ix2 p k) * x1 (ix2 k q) := by
  unfold k1_pay1
  simp only [shapeCast_self]
  rw [blockDot1_plain]
  exact Cert.PlainDot.matmul_zero_apply none x0 x1 p q

/-- What the body leaves in the output's buffer, at (p, q). -/
theorem out1_apply (x0 : FVec Ideal S2048x128 .bf16) (x1 : FVec Ideal S128x64 .bf16) (p : Fin 2048) (q : Fin 64) :
    (out1_2 (F := Ideal) x0 x1 : FVec Ideal S2048x64 .f32) (ix2 p q) = ∑ k : Fin 128, x0 (ix2 p k) * x1 (ix2 k q) := by
  unfold out1_2
  rw [View.canon_unit_zero zeroOffsets1]
  simp only [View.ld_unit_zero (S := S2048x128) zeroOffsets1, View.ld_unit_zero (S := S128x64) zeroOffsets1]
  exact pay1_apply x0 x1 p q

/-- The whole product at (r, q). -/
theorem whole1_apply (X : FVec Ideal S16384x128 .f32) (W : FVec Ideal S128x64 .f32) (r : Fin 16384) (q : Fin 64) :
    (Host.dotGeneral Cert.ReferenceIdeal.dot_S16384x128_S128x64_S16384x64_1_0_0_1_n_n none X W : FVec Ideal S16384x64 .f32) (ix2 r q)
      = ∑ k : Fin 128, X (ix2 r k) * W (ix2 k q) := by
  rw [wholeDot1_plain]
  exact Cert.PlainDot.dotGeneral_apply none .single X W r q

/-- The index maps over the grid: the left operand's and the result's block row is the point, every other block index 0. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)
  (X : FVec Ideal S16384x128 .f32) (W : FVec Ideal S128x64 .f32)
  (hx : (V c main_v66 : (⟨S16384x128, .bf16⟩ : BufTy).Contents (Elt Ideal)) = truncf .bf16 X Cert.KernelIdeal.Gen.bitsLt_bf16_f32)
  (hw : (V c main_v67 : (⟨S128x64, .bf16⟩ : BufTy).Contents (Elt Ideal)) = truncf .bf16 W Cert.KernelIdeal.Gen.bitsLt_bf16_f32)

include hx in
/-- The left operand's block at point t is rows 2048·t … of X. -/
theorem leftBlock1 (t : Fin cfg1.N) (ht : t.val < 8) (p : Fin 2048) (k : Fin 128) :
    (iblk1 (F := Ideal) V c 0 t : FVec Ideal S2048x128 .bf16) (ix2 p k) = X (ix2 (rowOf1 t.val ht p) k) := by
  obtain ⟨e00, e01, -, -, -, -⟩ := blockIdx1 t
  show (V c main_v66 : (⟨S16384x128, .bf16⟩ : BufTy).Contents (Elt Ideal)) (((cfg1.win 0).blk t).view.emb (ix2 p k)) = _
  rw [hx]
  show X (((cfg1.win 0).blk t).view.emb (ix2 p k)) = X _
  refine congrArg X ?_
  funext a; apply Fin.ext
  match a with
  | ⟨0, _⟩ => show win1_0.index t (0 : Fin 2) * 2048 + 1 * p.val = t.val * 2048 + p.val; rw [e00]; omega
  | ⟨1, _⟩ => show win1_0.index t (1 : Fin 2) * 128 + 1 * k.val = k.val; rw [e01]; omega

include hw in
/-- The right operand's block at every point is W. -/
theorem rightBlock1 (t : Fin cfg1.N) (k : Fin 128) (q : Fin 64) :
    (iblk1 (F := Ideal) V c 1 t : FVec Ideal S128x64 .bf16) (ix2 k q) = W (ix2 k q) := by
  obtain ⟨-, -, e10, e11, -, -⟩ := blockIdx1 t
  show (V c main_v67 : (⟨S128x64, .bf16⟩ : BufTy).Contents (Elt Ideal)) (((cfg1.win 1).blk t).view.emb (ix2 k q)) = _
  rw [hw]
  show W (((cfg1.win 1).blk t).view.emb (ix2 k q)) = W _
  refine congrArg W ?_
  funext a; apply Fin.ext
  match a with
  | ⟨0, _⟩ => show win1_1.index t (0 : Fin 2) * 128 + 1 * k.val = k.val; rw [e10]; omega
  | ⟨1, _⟩ => show win1_1.index t (1 : Fin 2) * 64 + 1 * q.val = q.val; rw [e11]; omega

include hx hw in
/-- What point t writes back is block t of the whole product. -/
theorem flushedM1_eq (t : Fin cfg1.N) :
    (dat1 (F := Ideal) V c).flushed 2 t = ((cfg1.win 2).blk t).view.read (Elt Ideal)
      (Host.dotGeneral Cert.ReferenceIdeal.dot_S16384x128_S128x64_S16384x64_1_0_0_1_n_n none X W) := by
  show (cfg1.win 2).cut (grid1.coords t) ((dat1 (F := Ideal) V c).after 2 t) = _
  rw [after1_2]
  have ht : t.val < 8 := lt_of_lt_of_eq t.isLt N_1
  obtain ⟨-, -, -, -, e20, e21⟩ := blockIdx1 t
  funext j
  obtain ⟨p, q, rfl⟩ : ∃ (p : Fin 2048) (q : Fin 64), j = ix2 p q := ⟨j 0, j 1, eq_ix2 j⟩
  show (out1_2 (F := Ideal) (iblk1 V c 0 t) (iblk1 V c 1 t) : FVec Ideal S2048x64 .f32) (ix2 p q)
    = (Host.dotGeneral Cert.ReferenceIdeal.dot_S16384x128_S128x64_S16384x64_1_0_0_1_n_n none X W : FVec Ideal S16384x64 .f32)
        (((cfg1.win 2).blk t).view.emb (ix2 p q))
  have hemb : ((cfg1.win 2).blk t).view.emb (ix2 p q) = (ix2 (rowOf1 t.val ht p) q : S16384x64.Idx) := by
    funext a; apply Fin.ext
    match a with
    | ⟨0, _⟩ => show win1_2.index t (0 : Fin 2) * 2048 + 1 * p.val = t.val * 2048 + p.val; rw [e20]; omega
    | ⟨1, _⟩ => show win1_2.index t (1 : Fin 2) * 64 + 1 * q.val = q.val; rw [e21]; omega
  rw [hemb]
  refine (out1_apply _ _ p q).trans ?_
  refine Eq.trans ?_ (whole1_apply X W (rowOf1 t.val ht p) q).symm
  exact Finset.sum_congr rfl fun k _ => congrArg₂ (· * ·) (leftBlock1 V c X hx t ht p k) (rightBlock1 V c W hw t k q)

end

/-- An index is in point t's block iff each coordinate is in the block's range on its axis. -/
theorem mem_blockM1 (t : Fin cfg1.N) (i : S16384x64.Idx) :
    i ∈ ((cfg1.win 2).blk t).view.set ↔ ∀ a : Fin 2, win1_2.index t a * S2048x64.size a ≤ (i a).val
      ∧ (i a).val < win1_2.index t a * S2048x64.size a + S2048x64.size a := by
  show i ∈ ((View.whole main_v68).slice (win1_2.rect t)).set ↔ _
  rw [View.set_slice_whole, Rect.mem_set_unit]
  exact Iff.rfl

/-- Row r is in the block of point r / 2048: the eight blocks cover the table. -/
theorem coverM1 (i : S16384x64.Idx) :
    ∃ t : Fin cfg1.N, (cfg1.win 2).flush t = true ∧ i ∈ ((cfg1.win 2).blk t).view.set := by
  have hi0 : (i 0).val < 16384 := (i 0).isLt
  have hi1 : (i 1).val < 64 := (i 1).isLt
  have hN : grid1.N = 8 := N_1
  obtain ⟨t, htv⟩ : ∃ t : Fin cfg1.N, t.val = (i 0).val / 2048 :=
    ⟨⟨(i 0).val / 2048, by show (i 0).val / 2048 < grid1.N; omega⟩, rfl⟩
  obtain ⟨-, -, -, -, e20, e21⟩ := blockIdx1 t
  refine ⟨t, flush1_2 t, ?_⟩
  rw [mem_blockM1]
  intro a
  match a with
  | ⟨0, _⟩ => show win1_2.index t (0 : Fin 2) * 2048 ≤ (i 0).val ∧ (i 0).val < win1_2.index t (0 : Fin 2) * 2048 + 2048; rw [e20, htv]; omega
  | ⟨1, _⟩ => show win1_2.index t (1 : Fin 2) * 64 ≤ (i 1).val ∧ (i 1).val < win1_2.index t (1 : Fin 2) * 64 + 64; rw [e21]; omega

open Cert.KernelIdeal Cert.KernelIdeal.Gen Cert.KernelIdeal.Hand in
/-- The array the tiled product h·w2 leaves is the plain product of the un-narrowed tables. -/
theorem stageM1 (V : (c : Dev nD) → (b : Ref sig .tc) → Buf (Elt Ideal) ((c : Thread nD τ).loc b)) (c : Dev nD)
    (X : FVec Ideal S16384x128 .f32) (W : FVec Ideal S128x64 .f32)
    (hx : (V c main_v66 : (⟨S16384x128, .bf16⟩ : BufTy).Contents (Elt Ideal)) = truncf .bf16 X Cert.KernelIdeal.Gen.bitsLt_bf16_f32)
    (hw : (V c main_v67 : (⟨S128x64, .bf16⟩ : BufTy).Contents (Elt Ideal)) = truncf .bf16 W Cert.KernelIdeal.Gen.bitsLt_bf16_f32) :
    ((dat1 (F := Ideal) V c).arrAt 2 cfg1.N : (⟨S16384x64, .f32⟩ : BufTy).Contents (Elt Ideal))
      = Host.dotGeneral Cert.ReferenceIdeal.dot_S16384x128_S128x64_S16384x64_1_0_0_1_n_n none X W :=
  (dat1 (F := Ideal) V c).arrAt_eq_of_cover 2
    (Host.dotGeneral Cert.ReferenceIdeal.dot_S16384x128_S128x64_S16384x64_1_0_0_1_n_n none X W)
    (fun t _ => flushedM1_eq V c X W hx hw t) coverM1

end Cert.Bridge

end
-- ==== Proof.LibDotLast.lean ====
/-
  The product of an M×K matrix by an N×K matrix contracted on both last axes, read at an index of the result, at the
  ideal (extended-real) values: entry (r, c) is the sum over the contracted coordinate k of x[r, k] * w[c, k] — the
  product `x · wᵀ` without the transpose being formed. Stated for the host's product and for the matrix unit's
  product accumulated into a zero array, which is the same sum because 0 + s = s.
-/
import Idealize.ShloMosaic.Lib.ValueIdx
import Idealize.ShloMosaic.Lib.KernelVsHost
import Idealize.ShloMosaic.PureOps.Ideal.Laws

noncomputable section

open scoped BigOperators

namespace Cert.Lib.DotLast

open Idealize.ShloMosaic Idealize.ShloMosaic.ValueIdx

variable {m k n : Nat} {φ₁ φ₂ : FTy}

/-- The host's product at `(a, b)`: the sum over `c` of `A[a, c] * B[b, c]`. -/
theorem dotGeneral_last_apply (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The matrix unit's product into a zero accumulator at `(a, b)`: the same sum. -/
theorem matmul_zero_last_apply (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (a : Fin m) (b : Fin n) :
    matmul d prec A B (constant ⟨2, ![m, n]⟩ .f32 0x00000000#32) (ix2 a b) = ∑ c : Fin k, A (ix2 a c) * B (ix2 b c) := by
  subst hd
  rw [matmul_zero_eq_dotGeneral]
  exact dotGeneral_last_apply prec A B a b

end Cert.Lib.DotLast

end
-- ==== Proof.Bridge.StageM2.lean ====
/-
  The third tiled matrix product at the ideal (extended-real) values: the array z·zᵀ of a [16384, 64] array z against
  itself, computed in an 8 by 8 tiling by blocks of 2048 rows by 2048 columns. Grid point (i, j) reads block row i of z
  through the left window and block row j of the same array through the right window, and its body contracts the two
  blocks on their last axes, so no transpose is formed. Entry (a, b) of the array left behind is the sum over k of
  z[a, k] * z[b, k], which is also entry (a, b) of the host's plain product of z by its transpose.
-/
import proofs.«422874_j81398220194430_3_alg».proof.Proof.KI.Reg2
import proofs.«422874_j81398220194430_3_alg».proof.Proof.Gen.ReferenceIdeal
import proofs.«422874_j81398220194430_3_alg».proof.Proof.LibDotLast
import proofs.«422874_j81398220194430_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.TcCoe Idealize.ShloMosaic.ValueIdx
open Idealize.ShloMosaic.Pipeline (Dat)

open Cert.KernelIdeal Cert.KernelIdeal.Gen Cert.KernelIdeal.Hand

namespace M2

/-- The table of inner products of the rows of z: entry (a, b) is the sum over k of z[a, k] * z[b, k]. -/
def rowProducts (z : S16384x64.Idx → EReal) : S16384x16384.Idx → EReal :=
  fun i => ∑ k : Fin 64, z (ix2 (⟨(i 0).val, idx2_lt0 i⟩ : Fin 16384) k) * z (ix2 (⟨(i 1).val, idx2_lt1 i⟩ : Fin 16384) k)

theorem rowProducts_ix2 (z : S16384x64.Idx → EReal) (a b : Fin 16384) :
    rowProducts z (ix2 a b) = ∑ k : Fin 64, z (ix2 a k) * z (ix2 b k) := rfl

/-- The body's dimension numbers are those of a product contracted on both last axes. -/
theorem dims_eq : dot_S2048x64_S2048x64_S2048x2048_1_1_0_0_n_n = DotDims.transposedRhs 2048 64 2048 := rfl

/-- The body's arithmetic at (p, q): the inner product of row p of the left block and row q of the right block. -/
theorem blockProduct_apply (x0 x1 : FVec Ideal S2048x64 .bf16) (p q : Fin 2048) :
    k2_pay1 (F := Ideal) x0 x1 (ix2 p q) = ∑ k : Fin 64, x0 (ix2 p k) * x1 (ix2 q k) := by
  unfold k2_pay1
  simp only [shapeCast_self]
  exact Cert.Lib.DotLast.matmul_zero_last_apply _ dims_eq none x0 x1 p q

/-- The host's product of Z with its transpose at an index. -/
theorem hostProduct_eq (Z : FVec Ideal S16384x64 .f32) :
    Host.dotGeneral (F := Ideal) Cert.ReferenceIdeal.dot_S16384x64_S64x16384_S16384x16384_1_0_0_1_n_n none Z
          (transpose Cert.ReferenceIdeal.S64x16384 [1, 0] Z Cert.ReferenceIdeal.Gen.transposes_S16384x64_S64x16384_1_0)
      = rowProducts Z := by
  funext i
  obtain ⟨a, b, rfl⟩ : ∃ (a : Fin 16384) (b : Fin 16384), i = ix2 a b := ⟨i 0, i 1, eq_ix2 i⟩
  rw [rowProducts_ix2]
  show FloatOps.dotGeneral (DotDims.plain 16384 64 16384) none _ Z _ (ix2 a b) = _
  rw [Cert.PlainDot.dotGeneral_apply]
  refine Finset.sum_congr rfl fun k _ => ?_
  rw [transpose_ix2_apply]

/-- The block's row-and-column form of the body's arithmetic, at any index y of the output block: if row (y 0) of the left
    block is row (i 0) of z and row (y 1) of the right block is row (i 1) of z, the body's entry at y is entry i of the
    table of inner products. -/
theorem blockProduct_at (z : S16384x64.Idx → EReal) (x0 x1 : FVec Ideal S2048x64 .bf16) (y : S2048x2048.Idx)
    (i : S16384x16384.Idx)
    (h0 : ∀ k : Fin 64, x0 (ix2 (⟨(y 0).val, idx2_lt0 y⟩ : Fin 2048) k) = z (ix2 (⟨(i 0).val, idx2_lt0 i⟩ : Fin 16384) k))
    (h1 : ∀ k : Fin 64, x1 (ix2 (⟨(y 1).val, idx2_lt1 y⟩ : Fin 2048) k) = z (ix2 (⟨(i 1).val, idx2_lt1 i⟩ : Fin 16384) k)) :
    k2_pay1 (F := Ideal) x0 x1 y = rowProducts z i := by
  have hy : y = ix2 (⟨(y 0).val, idx2_lt0 y⟩ : Fin 2048) (⟨(y 1).val, idx2_lt1 y⟩ : Fin 2048) := by
    funext a; match a with | ⟨0, _⟩ => rfl | ⟨1, _⟩ => rfl
  refine (congrArg (k2_pay1 (F := Ideal) x0 x1) hy).trans ?_
  rw [blockProduct_apply]
  exact Finset.sum_congr rfl fun k _ => by rw [h0 k, h1 k]

theorem zero_offsets : (![0, 0] : Fin 2 → Nat) = fun _ => 0 := funext fun a => by fin_cases a <;> rfl

/-- The printed index maps over the grid: the left window's block row is the output's block row, the right window's
    block row is the output's block column, neither input is split along its 64 columns, and the output's block
    indices are below 8. -/
theorem index_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7 ∧ win2_2.index t (1 : Fin 2) ≤ 7 :=
  (by decide +kernel : ∀ t : Fin grid2.N, _)

/-- Every block of the 8 by 8 tiling is some grid point's. -/
theorem index_onto : ∀ (q0 : Fin 8) (q1 : Fin 8), ∃ t : Fin cfg2.N, win2_2.index t = ![q0.val, q1.val] :=
  (by decide +kernel : ∀ (q0 : Fin 8) (q1 : Fin 8), ∃ t : Fin grid2.N, win2_2.index t = ![q0.val, q1.val])

variable (V : (c : Dev nD) → (b : Ref sig .tc) → Buf (Elt Ideal) ((c : Thread nD τ).loc b))

/-- What grid point t writes back is block t of the table of inner products of the rows of the input array. -/
theorem flushed_eq (c : Dev nD) (t : Fin cfg2.N) :
    (dat2 (F := Ideal) V c).flushed 2 t
      = ((cfg2.win 2).blk t).view.read (Elt Ideal) (rowProducts (V c main_v148 : (⟨S16384x64, .bf16⟩ : BufTy).Contents (Elt Ideal))) := by
  show (cfg2.win 2).cut (grid2.coords t) ((dat2 (F := Ideal) V c).after 2 t) = _
  rw [after2_2]
  unfold out2_2
  rw [View.canon_unit_zero zero_offsets]
  simp only [View.ld_unit_zero (S := S2048x64) zero_offsets]
  obtain ⟨e0, e1, e2, e3, e4, e5⟩ := index_facts t
  funext j
  show k2_pay1 (F := Ideal) (iblk2 V c 0 t) (iblk2 V c 1 t) ((cfg2.win 2).xinj (grid2.coords t) j)
    = rowProducts (V c main_v148 : (⟨S16384x64, .bf16⟩ : BufTy).Contents (Elt Ideal)) (((cfg2.win 2).blk t).view.emb j)
  refine blockProduct_at _ _ _ _ _ (fun k => ?_) (fun k => ?_)
  · show V c main_v148 (((cfg2.win 0).blk t).view.emb (ix2 (⟨(j 0).val, _⟩ : Fin 2048) k)) = V c main_v148 _
    refine congrArg (V c main_v148) (funext fun a => Fin.ext ?_)
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 64 + 1 * k.val = k.val; omega
  · show V c main_v148 (((cfg2.win 1).blk t).view.emb (ix2 (⟨(j 1).val, _⟩ : Fin 2048) k)) = V c main_v148 _
    refine congrArg (V c main_v148) (funext fun a => Fin.ext ?_)
    match a with
    | ⟨0, _⟩ => show win2_1.index t (0 : Fin 2) * 2048 + 1 * (j 1).val = win2_2.index t (1 : Fin 2) * 2048 + 1 * (j 1).val; omega
    | ⟨1, _⟩ => show win2_1.index t (1 : Fin 2) * 64 + 1 * k.val = k.val; omega

/-- An index of the array is in point t's block iff each coordinate is in the block's range on its axis. -/
theorem mem_block (t : Fin cfg2.N) (i : S16384x16384.Idx) :
    i ∈ ((cfg2.win 2).blk t).view.set ↔ ∀ a : Fin 2, win2_2.index t a * S2048x2048.size a ≤ (i a).val
      ∧ (i a).val < win2_2.index t a * S2048x2048.size a + S2048x2048.size a := by
  show i ∈ ((View.whole main_v149).slice (win2_2.rect t)).set ↔ _
  rw [View.set_slice_whole, Rect.mem_set_unit]
  exact Iff.rfl

/-- Every index of the array is in the block of the point at block row (i 0) / 2048 and block column (i 1) / 2048. -/
theorem covered (i : S16384x16384.Idx) :
    ∃ t : Fin cfg2.N, (cfg2.win 2).flush t = true ∧ i ∈ ((cfg2.win 2).blk t).view.set := by
  have hi0 : (i 0).val < 16384 := (i 0).isLt
  have hi1 : (i 1).val < 16384 := (i 1).isLt
  obtain ⟨t, ht⟩ := index_onto ⟨(i 0).val / 2048, by omega⟩ ⟨(i 1).val / 2048, by omega⟩
  have q0 : win2_2.index t (0 : Fin 2) = (i 0).val / 2048 := congrFun ht 0
  have q1 : win2_2.index t (1 : Fin 2) = (i 1).val / 2048 := congrFun ht 1
  refine ⟨t, flush2_2 t, ?_⟩
  rw [mem_block]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 2048 ≤ (i 1).val ∧ (i 1).val < win2_2.index t (1 : Fin 2) * 2048 + 2048; omega

/-- The array the pipeline leaves: the table of inner products of the rows of the input array. -/
theorem productArray (c : Dev nD) :
    ((dat2 (F := Ideal) V c).arrAt 2 cfg2.N : (⟨S16384x16384, .f32⟩ : BufTy).Contents (Elt Ideal))
      = rowProducts (V c main_v148 : (⟨S16384x64, .bf16⟩ : BufTy).Contents (Elt Ideal)) :=
  (dat2 (F := Ideal) V c).arrAt_eq_of_cover 2 (rowProducts (V c main_v148 : (⟨S16384x64, .bf16⟩ : BufTy).Contents (Elt Ideal)))
    (fun t _ => flushed_eq V c t) covered

end M2

/-- The third matrix product: the array the tiled kernel leaves is the host's product of Z with its transpose. -/
theorem stageM2 (V : (c : Dev nD) → (b : Ref sig .tc) → Buf (Elt Ideal) ((c : Thread nD τ).loc b)) (c : Dev nD)
    (Z : FVec Ideal S16384x64 .f32)
    (hz : (V c main_v148 : (⟨S16384x64, .bf16⟩ : BufTy).Contents (Elt Ideal)) = truncf .bf16 Z Cert.KernelIdeal.Gen.bitsLt_bf16_f32) :
    ((dat2 (F := Ideal) V c).arrAt 2 cfg2.N : (⟨S16384x16384, .f32⟩ : BufTy).Contents (Elt Ideal))
      = Host.dotGeneral Cert.ReferenceIdeal.dot_S16384x64_S64x16384_S16384x16384_1_0_0_1_n_n none Z
          (transpose Cert.ReferenceIdeal.S64x16384 [1, 0] Z Cert.ReferenceIdeal.Gen.transposes_S16384x64_S64x16384_1_0) := by
  rw [M2.hostProduct_eq]
  exact (M2.productArray V c).trans (congrArg M2.rowProducts (hz.trans rfl))

end Cert.Bridge

end
-- ==== Proof.Bridge.All.lean ====
/-
  The value bridge. The reference program's buffers are followed stretch by stretch (opening stretch, first product,
  first layer, second product, second layer, node heads, adjacency product, edge decoder) beside the kernel program's
  valuations between its items. At every boundary the buffers the later stretches read agree: the index columns and the
  normalisation are computed once and then only carried (no later stretch writes them), the arguments are never
  written, each tiled matrix-unit product leaves the array the reference's host product computes, and each host chain
  maps equal inputs to equal outputs. So the three results agree.
-/
import proofs.«422874_j81398220194430_3_alg».proof.Proof.Bridge.Base
import proofs.«422874_j81398220194430_3_alg».proof.Proof.Bridge.StageA
import proofs.«422874_j81398220194430_3_alg».proof.Proof.Bridge.StageB
import proofs.«422874_j81398220194430_3_alg».proof.Proof.Bridge.StageC
import proofs.«422874_j81398220194430_3_alg».proof.Proof.Bridge.StageCh
import proofs.«422874_j81398220194430_3_alg».proof.Proof.Bridge.StageD
import proofs.«422874_j81398220194430_3_alg».proof.Proof.Bridge.StageM0
import proofs.«422874_j81398220194430_3_alg».proof.Proof.Bridge.StageM1
import proofs.«422874_j81398220194430_3_alg».proof.Proof.Bridge.StageM2
import proofs.«422874_j81398220194430_3_alg».proof.Proof.KI.Data
import Idealize.ShloMosaic.Lib.StableHlo.Run
import Idealize.ShloMosaic.PureOps.Ideal

set_option maxRecDepth 16384

noncomputable section

/-! ## The assembly -/

namespace Cert.Bridge

open Idealize.ShloMosaic Idealize.ShloMosaic.TcCoe Idealize.ShloMosaic.StableHlo
open Cert.KernelIdeal.Gen (V0 V1 V2 V3 V4 V5 V6 V7 V8 V9 V10 V11 V12 V13 V14 V15)
open Cert.KernelIdeal.Hand (outs)

/-- The operations of two lists run one after the other. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

section
variable (m : (ℓ : Loc Cert.KernelIdeal.nD Cert.KernelIdeal.τ Cert.KernelIdeal.sig) → Buf (Elt Ideal) ℓ)
variable (R0 : RV (F := Ideal)) (c : Dev Cert.KernelIdeal.nD)

local notation "𝐨" => outs (F := Ideal) m

/-- The reference's buffers after its opening stretch, -/
abbrev RA : RV (F := Ideal) := after Cert.ReferenceIdeal.Hand.opsA R0
/-- after the first product, -/
abbrev RM0 : RV (F := Ideal) := after Cert.ReferenceIdeal.Hand.opsM0 (RA R0)
/-- after the first layer, -/
abbrev RB : RV (F := Ideal) := after Cert.ReferenceIdeal.Hand.opsBr (after Cert.ReferenceIdeal.Hand.opsBn (after Cert.ReferenceIdeal.Hand.opsBv (after Cert.ReferenceIdeal.Hand.opsB (RM0 R0))))
/-- after the second product, -/
abbrev RM1 : RV (F := Ideal) := after Cert.ReferenceIdeal.Hand.opsM1 (RB R0)
/-- after the second layer, -/
abbrev RC : RV (F := Ideal) := after Cert.ReferenceIdeal.Hand.opsCr (after Cert.ReferenceIdeal.Hand.opsCn (after Cert.ReferenceIdeal.Hand.opsCv (after Cert.ReferenceIdeal.Hand.opsC (RM1 R0))))
/-- after the node heads, -/
abbrev RCh : RV (F := Ideal) := after Cert.ReferenceIdeal.Hand.opsCh (RC R0)
/-- after the adjacency product, -/
abbrev RM2 : RV (F := Ideal) := after Cert.ReferenceIdeal.Hand.opsM2 (RCh R0)
/-- and at the end. -/
abbrev RD : RV (F := Ideal) := after Cert.ReferenceIdeal.Hand.opsD (RM2 R0)

theorem after_ops_eq : after (Cert.ReferenceIdeal.Hand.ops (F := Ideal)) R0 = RD R0 := by
  simp only [Cert.ReferenceIdeal.Hand.ops, after_append]

/-! ### What a stretch does not write, it keeps -/

theorem RA_keep (r : Ref Cert.ReferenceIdeal.sig .tc) (h : r ∉ Cert.ReferenceIdeal.Hand.opsA_W) : RA R0 r = R0 r :=
  after_of_writes_sub _ _ Cert.ReferenceIdeal.Hand.opsA_writes h
theorem RM0_keep (r : Ref Cert.ReferenceIdeal.sig .tc) (h : r ∉ Cert.ReferenceIdeal.Hand.opsM0_W) : RM0 R0 r = RA R0 r :=
  after_of_writes_sub _ _ Cert.ReferenceIdeal.Hand.opsM0_writes h
theorem RB_keep (r : Ref Cert.ReferenceIdeal.sig .tc) (h : r ∉ Cert.ReferenceIdeal.Hand.opsB_W ++ Cert.ReferenceIdeal.Hand.opsBv_W ++ Cert.ReferenceIdeal.Hand.opsBn_W ++ Cert.ReferenceIdeal.Hand.opsBr_W) : RB R0 r = RM0 R0 r :=
  (after_of_writes_sub _ _ Cert.ReferenceIdeal.Hand.opsBr_writes fun hh => h (by simp only [List.mem_append]; exact Or.inr hh)).trans
  ((after_of_writes_sub _ _ Cert.ReferenceIdeal.Hand.opsBn_writes fun hh => h (by simp only [List.mem_append]; exact Or.inl (Or.inr hh))).trans
  ((after_of_writes_sub _ _ Cert.ReferenceIdeal.Hand.opsBv_writes fun hh => h (by simp only [List.mem_append]; exact Or.inl (Or.inl (Or.inr hh)))).trans
  (after_of_writes_sub _ _ Cert.ReferenceIdeal.Hand.opsB_writes fun hh => h (by simp only [List.mem_append]; exact Or.inl (Or.inl (Or.inl hh))))))
theorem RM1_keep (r : Ref Cert.ReferenceIdeal.sig .tc) (h : r ∉ Cert.ReferenceIdeal.Hand.opsM1_W) : RM1 R0 r = RB R0 r :=
  after_of_writes_sub _ _ Cert.ReferenceIdeal.Hand.opsM1_writes h
theorem RC_keep (r : Ref Cert.ReferenceIdeal.sig .tc) (h : r ∉ Cert.ReferenceIdeal.Hand.opsC_W ++ Cert.ReferenceIdeal.Hand.opsCv_W ++ Cert.ReferenceIdeal.Hand.opsCn_W ++ Cert.ReferenceIdeal.Hand.opsCr_W) : RC R0 r = RM1 R0 r :=
  (after_of_writes_sub _ _ Cert.ReferenceIdeal.Hand.opsCr_writes fun hh => h (by simp only [List.mem_append]; exact Or.inr hh)).trans
  ((after_of_writes_sub _ _ Cert.ReferenceIdeal.Hand.opsCn_writes fun hh => h (by simp only [List.mem_append]; exact Or.inl (Or.inr hh))).trans
  ((after_of_writes_sub _ _ Cert.ReferenceIdeal.Hand.opsCv_writes fun hh => h (by simp only [List.mem_append]; exact Or.inl (Or.inl (Or.inr hh)))).trans
  (after_of_writes_sub _ _ Cert.ReferenceIdeal.Hand.opsC_writes fun hh => h (by simp only [List.mem_append]; exact Or.inl (Or.inl (Or.inl hh))))))
theorem RCh_keep (r : Ref Cert.ReferenceIdeal.sig .tc) (h : r ∉ Cert.ReferenceIdeal.Hand.opsCh_W) : RCh R0 r = RC R0 r :=
  after_of_writes_sub _ _ Cert.ReferenceIdeal.Hand.opsCh_writes h
theorem RM2_keep (r : Ref Cert.ReferenceIdeal.sig .tc) (h : r ∉ Cert.ReferenceIdeal.Hand.opsM2_W) : RM2 R0 r = RCh R0 r :=
  after_of_writes_sub _ _ Cert.ReferenceIdeal.Hand.opsM2_writes h
theorem RD_keep (r : Ref Cert.ReferenceIdeal.sig .tc) (h : r ∉ Cert.ReferenceIdeal.Hand.opsD_W) : RD R0 r = RM2 R0 r :=
  after_of_writes_sub _ _ Cert.ReferenceIdeal.Hand.opsD_writes h

open Cert.KernelIdeal.Gen in
theorem K6_keep (r : Ref Cert.KernelIdeal.sig .tc) (h : r ∉ hostOps1_W ++ hostOps1_1_W ++ hostOps1_2_W ++ hostOps1_3_W) : V6 m 𝐨 c r = V2 m 𝐨 c r :=
  (V6_of m 𝐨 c r fun hh => h (by simp only [List.mem_append]; exact Or.inr hh)).trans
  ((V5_of m 𝐨 c r fun hh => h (by simp only [List.mem_append]; exact Or.inl (Or.inr hh))).trans
  ((V4_of m 𝐨 c r fun hh => h (by simp only [List.mem_append]; exact Or.inl (Or.inl (Or.inr hh)))).trans
  (V3_of m 𝐨 c r fun hh => h (by simp only [List.mem_append]; exact Or.inl (Or.inl (Or.inl hh))))))
open Cert.KernelIdeal.Gen in
theorem K12_keep (r : Ref Cert.KernelIdeal.sig .tc) (h : r ∉ hostOps2_W ++ hostOps2_1_W ++ hostOps2_2_W ++ hostOps2_3_W) : V12 m 𝐨 c r = V8 m 𝐨 c r :=
  (V12_of m 𝐨 c r fun hh => h (by simp only [List.mem_append]; exact Or.inr hh)).trans
  ((V11_of m 𝐨 c r fun hh => h (by simp only [List.mem_append]; exact Or.inl (Or.inr hh))).trans
  ((V10_of m 𝐨 c r fun hh => h (by simp only [List.mem_append]; exact Or.inl (Or.inl (Or.inr hh)))).trans
  (V9_of m 𝐨 c r fun hh => h (by simp only [List.mem_append]; exact Or.inl (Or.inl (Or.inl hh))))))

end

section Chain
open Cert.KernelIdeal Cert.KernelIdeal.Gen Cert.KernelIdeal.Hand

variable (m : (ℓ : Loc Cert.KernelIdeal.nD Cert.KernelIdeal.τ Cert.KernelIdeal.sig) → Buf (Elt Ideal) ℓ)
variable (R0 : RV (F := Ideal)) (c : Dev Cert.KernelIdeal.nD)

local notation "𝐨" => outs (F := Ideal) m

/-- The three results agree, given that the arguments do. -/
theorem results_agree
    (h0 : (R0 (Proc.devRef .tc Cert.ReferenceIdeal.main_arg0) : (⟨S16384x128, .f32⟩ : BufTy).Contents (Elt Ideal)) = V0 m c (Proc.devRef .tc main_arg0))
    (h1 : (R0 (Proc.devRef .tc Cert.ReferenceIdeal.main_arg1) : (⟨S2x524288, .i32⟩ : BufTy).Contents (Elt Ideal)) = V0 m c (Proc.devRef .tc main_arg1))
    (h3 : (R0 (Proc.devRef .tc Cert.ReferenceIdeal.main_arg3) : (⟨S128x128, .f32⟩ : BufTy).Contents (Elt Ideal)) = V0 m c (Proc.devRef .tc main_arg3))
    (h4 : (R0 (Proc.devRef .tc Cert.ReferenceIdeal.main_arg4) : (⟨S128, .f32⟩ : BufTy).Contents (Elt Ideal)) = V0 m c (Proc.devRef .tc main_arg4))
    (h5 : (R0 (Proc.devRef .tc Cert.ReferenceIdeal.main_arg5) : (⟨S128, .f32⟩ : BufTy).Contents (Elt Ideal)) = V0 m c (Proc.devRef .tc main_arg5))
    (h6 : (R0 (Proc.devRef .tc Cert.ReferenceIdeal.main_arg6) : (⟨S128, .f32⟩ : BufTy).Contents (Elt Ideal)) = V0 m c (Proc.devRef .tc main_arg6))
    (h7 : (R0 (Proc.devRef .tc Cert.ReferenceIdeal.main_arg7) : (⟨S128x64, .f32⟩ : BufTy).Contents (Elt Ideal)) = V0 m c (Proc.devRef .tc main_arg7))
    (h8 : (R0 (Proc.devRef .tc Cert.ReferenceIdeal.main_arg8) : (⟨S64, .f32⟩ : BufTy).Contents (Elt Ideal)) = V0 m c (Proc.devRef .tc main_arg8))
    (h9 : (R0 (Proc.devRef .tc Cert.ReferenceIdeal.main_arg9) : (⟨S64, .f32⟩ : BufTy).Contents (Elt Ideal)) = V0 m c (Proc.devRef .tc main_arg9))
    (h10 : (R0 (Proc.devRef .tc Cert.ReferenceIdeal.main_arg10) : (⟨S64, .f32⟩ : BufTy).Contents (Elt Ideal)) = V0 m c (Proc.devRef .tc main_arg10))
    (h11 : (R0 (Proc.devRef .tc Cert.ReferenceIdeal.main_arg11) : (⟨S64x10, .f32⟩ : BufTy).Contents (Elt Ideal)) = V0 m c (Proc.devRef .tc main_arg11))
    (h12 : (R0 (Proc.devRef .tc Cert.ReferenceIdeal.main_arg12) : (⟨S10, .f32⟩ : BufTy).Contents (Elt Ideal)) = V0 m c (Proc.devRef .tc main_arg12))
    (h13 : (R0 (Proc.devRef .tc Cert.ReferenceIdeal.main_arg13) : (⟨S64x10, .f32⟩ : BufTy).Contents (Elt Ideal)) = V0 m c (Proc.devRef .tc main_arg13))
    (h14 : (R0 (Proc.devRef .tc Cert.ReferenceIdeal.main_arg14) : (⟨S10, .f32⟩ : BufTy).Contents (Elt Ideal)) = V0 m c (Proc.devRef .tc main_arg14))
    (h15 : (R0 (Proc.devRef .tc Cert.ReferenceIdeal.main_arg15) : (⟨S64x10, .f32⟩ : BufTy).Contents (Elt Ideal)) = V0 m c (Proc.devRef .tc main_arg15))
    (h16 : (R0 (Proc.devRef .tc Cert.ReferenceIdeal.main_arg16) : (⟨S10, .f32⟩ : BufTy).Contents (Elt Ideal)) = V0 m c (Proc.devRef .tc main_arg16))
    (h17 : (R0 (Proc.devRef .tc Cert.ReferenceIdeal.main_arg17) : (⟨S128x16, .f32⟩ : BufTy).Contents (Elt Ideal)) = V0 m c (Proc.devRef .tc main_arg17))
    (h18 : (R0 (Proc.devRef .tc Cert.ReferenceIdeal.main_arg18) : (⟨S16, .f32⟩ : BufTy).Contents (Elt Ideal)) = V0 m c (Proc.devRef .tc main_arg18)) :
    ((RD R0 (Proc.devRef .tc Cert.ReferenceIdeal.main_v143) : (⟨S16384x30, .f32⟩ : BufTy).Contents (Elt Ideal)) = V15 m 𝐨 c (Proc.devRef .tc main_v147))
    ∧ ((RD R0 (Proc.devRef .tc Cert.ReferenceIdeal.main_v145) : (⟨S16384x16384, .f32⟩ : BufTy).Contents (Elt Ideal)) = V15 m 𝐨 c (Proc.devRef .tc main_v149))
    ∧ ((RD R0 (Proc.devRef .tc Cert.ReferenceIdeal.main_v168) : (⟨S524288x16, .f32⟩ : BufTy).Contents (Elt Ideal)) = V15 m 𝐨 c (Proc.devRef .tc main_v175)) := by
  -- the opening stretch: the index columns and the normalisation
  obtain ⟨a3, a6, a26⟩ := stageA (V0 m c) R0 h1
  obtain ⟨cx, cw⟩ := castsA (F := Ideal) (V0 m c)
  -- the first product
  have e27g : ∀ W : RV (F := Ideal), (after Cert.ReferenceIdeal.Hand.opsM0 W (Proc.devRef .tc Cert.ReferenceIdeal.main_v27) : (⟨S16384x128, .f32⟩ : BufTy).Contents (Elt Ideal))
      = (Host.dotGeneral (F := Ideal) (φ₁ := .f32) (φ₂ := .f32) Cert.ReferenceIdeal.dot_S16384x128_S128x128_S16384x128_1_0_0_1_n_n none
          (W (Proc.devRef .tc Cert.ReferenceIdeal.main_arg0) : (⟨S16384x128, .f32⟩ : BufTy).Contents (Elt Ideal)) (W (Proc.devRef .tc Cert.ReferenceIdeal.main_arg3) : (⟨S128x128, .f32⟩ : BufTy).Contents (Elt Ideal)) : (⟨S16384x128, .f32⟩ : BufTy).Contents (Elt Ideal)) := by
    intro W
    after_results
  have e27 : (RM0 R0 (Proc.devRef .tc Cert.ReferenceIdeal.main_v27) : (⟨S16384x128, .f32⟩ : BufTy).Contents (Elt Ideal)) = _ := e27g (RA R0)
  have m0 : (RM0 R0 (Proc.devRef .tc Cert.ReferenceIdeal.main_v27) : (⟨S16384x128, .f32⟩ : BufTy).Contents (Elt Ideal)) = V2 m 𝐨 c (Proc.devRef .tc main_v29) := by
    rw [e27, RA_keep R0 Cert.ReferenceIdeal.main_arg0 (by decide), RA_keep R0 Cert.ReferenceIdeal.main_arg3 (by decide), h0, h3,
      ← stageM0 (atRefs (V1 m)) c (V0 m c (Proc.devRef .tc main_arg0)) (V0 m c (Proc.devRef .tc main_arg3)) cx cw, ← outs_2 m c]
    show _ = Function.update (V1 m c) (Proc.devRef .tc main_v29) (𝐨 2 main_v29 c) (Proc.devRef .tc main_v29)
    rw [Function.update_self]
  have b3 : (RM0 R0 (Proc.devRef .tc Cert.ReferenceIdeal.main_v3) : (⟨S540672, .i32⟩ : BufTy).Contents (Elt Ideal)) = V2 m 𝐨 c (Proc.devRef .tc main_v3) :=
    ((RM0_keep R0 Cert.ReferenceIdeal.main_v3 (by decide)).trans a3).trans (V2_of m 𝐨 c main_v3 (by decide)).symm
  have b6 : (RM0 R0 (Proc.devRef .tc Cert.ReferenceIdeal.main_v6) : (⟨S540672, .i32⟩ : BufTy).Contents (Elt Ideal)) = V2 m 𝐨 c (Proc.devRef .tc main_v6) :=
    ((RM0_keep R0 Cert.ReferenceIdeal.main_v6 (by decide)).trans a6).trans (V2_of m 𝐨 c main_v6 (by decide)).symm
  have b26 : (RM0 R0 (Proc.devRef .tc Cert.ReferenceIdeal.main_v26) : (⟨S540672, .f32⟩ : BufTy).Contents (Elt Ideal)) = V2 m 𝐨 c (Proc.devRef .tc main_v26) :=
    ((RM0_keep R0 Cert.ReferenceIdeal.main_v26 (by decide)).trans a26).trans (V2_of m 𝐨 c main_v26 (by decide)).symm
  have hb4 : (RM0 R0 (Proc.devRef .tc Cert.ReferenceIdeal.main_arg4) : (⟨S128, .f32⟩ : BufTy).Contents (Elt Ideal)) = V2 m 𝐨 c (Proc.devRef .tc main_arg4) :=
    (((RM0_keep R0 Cert.ReferenceIdeal.main_arg4 (by decide)).trans (RA_keep R0 Cert.ReferenceIdeal.main_arg4 (by decide))).trans h4).trans ((V2_of m 𝐨 c main_arg4 (by decide)).trans (V1_of m c main_arg4 (by decide))).symm
  have hb5 : (RM0 R0 (Proc.devRef .tc Cert.ReferenceIdeal.main_arg5) : (⟨S128, .f32⟩ : BufTy).Contents (Elt Ideal)) = V2 m 𝐨 c (Proc.devRef .tc main_arg5) :=
    (((RM0_keep R0 Cert.ReferenceIdeal.main_arg5 (by decide)).trans (RA_keep R0 Cert.ReferenceIdeal.main_arg5 (by decide))).trans h5).trans ((V2_of m 𝐨 c main_arg5 (by decide)).trans (V1_of m c main_arg5 (by decide))).symm
  have hb6 : (RM0 R0 (Proc.devRef .tc Cert.ReferenceIdeal.main_arg6) : (⟨S128, .f32⟩ : BufTy).Contents (Elt Ideal)) = V2 m 𝐨 c (Proc.devRef .tc main_arg6) :=
    (((RM0_keep R0 Cert.ReferenceIdeal.main_arg6 (by decide)).trans (RA_keep R0 Cert.ReferenceIdeal.main_arg6 (by decide))).trans h6).trans ((V2_of m 𝐨 c main_arg6 (by decide)).trans (V1_of m c main_arg6 (by decide))).symm
  -- the first layer
  have hB : (RB R0 (Proc.devRef .tc Cert.ReferenceIdeal.main_v63) : (⟨S16384x128, .f32⟩ : BufTy).Contents (Elt Ideal)) = V6 m 𝐨 c (Proc.devRef .tc main_v65) :=
    stageB (F := Ideal) (V2 m 𝐨 c) (RM0 R0) m0 b3 b6 b26 hb4 hb5 hb6
  -- the second product
  obtain ⟨dx, dw⟩ := castsB (F := Ideal) (V6 m 𝐨 c)
  have e64g : ∀ W : RV (F := Ideal), (after Cert.ReferenceIdeal.Hand.opsM1 W (Proc.devRef .tc Cert.ReferenceIdeal.main_v64) : (⟨S16384x64, .f32⟩ : BufTy).Contents (Elt Ideal))
      = (Host.dotGeneral (F := Ideal) (φ₁ := .f32) (φ₂ := .f32) Cert.ReferenceIdeal.dot_S16384x128_S128x64_S16384x64_1_0_0_1_n_n none
          (W (Proc.devRef .tc Cert.ReferenceIdeal.main_v63) : (⟨S16384x128, .f32⟩ : BufTy).Contents (Elt Ideal)) (W (Proc.devRef .tc Cert.ReferenceIdeal.main_arg7) : (⟨S128x64, .f32⟩ : BufTy).Contents (Elt Ideal)) : (⟨S16384x64, .f32⟩ : BufTy).Contents (Elt Ideal)) := by
    intro W
    after_results
  have e64 : (RM1 R0 (Proc.devRef .tc Cert.ReferenceIdeal.main_v64) : (⟨S16384x64, .f32⟩ : BufTy).Contents (Elt Ideal)) = _ := e64g (RB R0)
  have hb7 : (RB R0 (Proc.devRef .tc Cert.ReferenceIdeal.main_arg7) : (⟨S128x64, .f32⟩ : BufTy).Contents (Elt Ideal)) = V6 m 𝐨 c (Proc.devRef .tc main_arg7) :=
    (((RB_keep R0 Cert.ReferenceIdeal.main_arg7 (by decide)).trans ((RM0_keep R0 Cert.ReferenceIdeal.main_arg7 (by decide)).trans (RA_keep R0 Cert.ReferenceIdeal.main_arg7 (by decide)))).trans h7).trans ((K6_keep m c main_arg7 (by decide)).trans ((V2_of m 𝐨 c main_arg7 (by decide)).trans (V1_of m c main_arg7 (by decide)))).symm
  have m1 : (RM1 R0 (Proc.devRef .tc Cert.ReferenceIdeal.main_v64) : (⟨S16384x64, .f32⟩ : BufTy).Contents (Elt Ideal)) = V8 m 𝐨 c (Proc.devRef .tc main_v68) := by
    rw [e64, hB, hb7, ← stageM1 (atRefs (V7 m 𝐨)) c (V6 m 𝐨 c (Proc.devRef .tc main_v65)) (V6 m 𝐨 c (Proc.devRef .tc main_arg7)) dx dw, ← outs_8 m c]
    show _ = Function.update (V7 m 𝐨 c) (Proc.devRef .tc main_v68) (𝐨 8 main_v68 c) (Proc.devRef .tc main_v68)
    rw [Function.update_self]
  have c3 : (RM1 R0 (Proc.devRef .tc Cert.ReferenceIdeal.main_v3) : (⟨S540672, .i32⟩ : BufTy).Contents (Elt Ideal)) = V8 m 𝐨 c (Proc.devRef .tc main_v3) :=
    (((RM1_keep R0 Cert.ReferenceIdeal.main_v3 (by decide)).trans (RB_keep R0 Cert.ReferenceIdeal.main_v3 (by decide))).trans b3).trans ((V8_of m 𝐨 c main_v3 (by decide)).trans ((V7_of m 𝐨 c main_v3 (by decide)).trans (K6_keep m c main_v3 (by decide)))).symm
  have c6 : (RM1 R0 (Proc.devRef .tc Cert.ReferenceIdeal.main_v6) : (⟨S540672, .i32⟩ : BufTy).Contents (Elt Ideal)) = V8 m 𝐨 c (Proc.devRef .tc main_v6) :=
    (((RM1_keep R0 Cert.ReferenceIdeal.main_v6 (by decide)).trans (RB_keep R0 Cert.ReferenceIdeal.main_v6 (by decide))).trans b6).trans ((V8_of m 𝐨 c main_v6 (by decide)).trans ((V7_of m 𝐨 c main_v6 (by decide)).trans (K6_keep m c main_v6 (by decide)))).symm
  have c26 : (RM1 R0 (Proc.devRef .tc Cert.ReferenceIdeal.main_v26) : (⟨S540672, .f32⟩ : BufTy).Contents (Elt Ideal)) = V8 m 𝐨 c (Proc.devRef .tc main_v26) :=
    (((RM1_keep R0 Cert.ReferenceIdeal.main_v26 (by decide)).trans (RB_keep R0 Cert.ReferenceIdeal.main_v26 (by decide))).trans b26).trans ((V8_of m 𝐨 c main_v26 (by decide)).trans ((V7_of m 𝐨 c main_v26 (by decide)).trans (K6_keep m c main_v26 (by decide)))).symm
  have hc8 : (RM1 R0 (Proc.devRef .tc Cert.ReferenceIdeal.main_arg8) : (⟨S64, .f32⟩ : BufTy).Contents (Elt Ideal)) = V8 m 𝐨 c (Proc.devRef .tc main_arg8) :=
    (((RM1_keep R0 Cert.ReferenceIdeal.main_arg8 (by decide)).trans ((RB_keep R0 Cert.ReferenceIdeal.main_arg8 (by decide)).trans ((RM0_keep R0 Cert.ReferenceIdeal.main_arg8 (by decide)).trans (RA_keep R0 Cert.ReferenceIdeal.main_arg8 (by decide))))).trans h8).trans ((V8_of m 𝐨 c main_arg8 (by decide)).trans ((V7_of m 𝐨 c main_arg8 (by decide)).trans ((K6_keep m c main_arg8 (by decide)).trans ((V2_of m 𝐨 c main_arg8 (by decide)).trans (V1_of m c main_arg8 (by decide)))))).symm
  have hc9 : (RM1 R0 (Proc.devRef .tc Cert.ReferenceIdeal.main_arg9) : (⟨S64, .f32⟩ : BufTy).Contents (Elt Ideal)) = V8 m 𝐨 c (Proc.devRef .tc main_arg9) :=
    (((RM1_keep R0 Cert.ReferenceIdeal.main_arg9 (by decide)).trans ((RB_keep R0 Cert.ReferenceIdeal.main_arg9 (by decide)).trans ((RM0_keep R0 Cert.ReferenceIdeal.main_arg9 (by decide)).trans (RA_keep R0 Cert.ReferenceIdeal.main_arg9 (by decide))))).trans h9).trans ((V8_of m 𝐨 c main_arg9 (by decide)).trans ((V7_of m 𝐨 c main_arg9 (by decide)).trans ((K6_keep m c main_arg9 (by decide)).trans ((V2_of m 𝐨 c main_arg9 (by decide)).trans (V1_of m c main_arg9 (by decide)))))).symm
  have hc10 : (RM1 R0 (Proc.devRef .tc Cert.ReferenceIdeal.main_arg10) : (⟨S64, .f32⟩ : BufTy).Contents (Elt Ideal)) = V8 m 𝐨 c (Proc.devRef .tc main_arg10) :=
    (((RM1_keep R0 Cert.ReferenceIdeal.main_arg10 (by decide)).trans ((RB_keep R0 Cert.ReferenceIdeal.main_arg10 (by decide)).trans ((RM0_keep R0 Cert.ReferenceIdeal.main_arg10 (by decide)).trans (RA_keep R0 Cert.ReferenceIdeal.main_arg10 (by decide))))).trans h10).trans ((V8_of m 𝐨 c main_arg10 (by decide)).trans ((V7_of m 𝐨 c main_arg10 (by decide)).trans ((K6_keep m c main_arg10 (by decide)).trans ((V2_of m 𝐨 c main_arg10 (by decide)).trans (V1_of m c main_arg10 (by decide)))))).symm
  -- the second layer
  have hC : (RC R0 (Proc.devRef .tc Cert.ReferenceIdeal.main_v100) : (⟨S16384x64, .f32⟩ : BufTy).Contents (Elt Ideal)) = V12 m 𝐨 c (Proc.devRef .tc main_v104) :=
    stageC (F := Ideal) (V8 m 𝐨 c) (RM1 R0) m1 c3 c6 c26 hc8 hc9 hc10
  have hd11 : (RC R0 (Proc.devRef .tc Cert.ReferenceIdeal.main_arg11) : (⟨S64x10, .f32⟩ : BufTy).Contents (Elt Ideal)) = V12 m 𝐨 c (Proc.devRef .tc main_arg11) :=
    (((RC_keep R0 Cert.ReferenceIdeal.main_arg11 (by decide)).trans ((RM1_keep R0 Cert.ReferenceIdeal.main_arg11 (by decide)).trans ((RB_keep R0 Cert.ReferenceIdeal.main_arg11 (by decide)).trans ((RM0_keep R0 Cert.ReferenceIdeal.main_arg11 (by decide)).trans (RA_keep R0 Cert.ReferenceIdeal.main_arg11 (by decide)))))).trans h11).trans ((K12_keep m c main_arg11 (by decide)).trans ((V8_of m 𝐨 c main_arg11 (by decide)).trans ((V7_of m 𝐨 c main_arg11 (by decide)).trans ((K6_keep m c main_arg11 (by decide)).trans ((V2_of m 𝐨 c main_arg11 (by decide)).trans (V1_of m c main_arg11 (by decide))))))).symm
  have hd12 : (RC R0 (Proc.devRef .tc Cert.ReferenceIdeal.main_arg12) : (⟨S10, .f32⟩ : BufTy).Contents (Elt Ideal)) = V12 m 𝐨 c (Proc.devRef .tc main_arg12) :=
    (((RC_keep R0 Cert.ReferenceIdeal.main_arg12 (by decide)).trans ((RM1_keep R0 Cert.ReferenceIdeal.main_arg12 (by decide)).trans ((RB_keep R0 Cert.ReferenceIdeal.main_arg12 (by decide)).trans ((RM0_keep R0 Cert.ReferenceIdeal.main_arg12 (by decide)).trans (RA_keep R0 Cert.ReferenceIdeal.main_arg12 (by decide)))))).trans h12).trans ((K12_keep m c main_arg12 (by decide)).trans ((V8_of m 𝐨 c main_arg12 (by decide)).trans ((V7_of m 𝐨 c main_arg12 (by decide)).trans ((K6_keep m c main_arg12 (by decide)).trans ((V2_of m 𝐨 c main_arg12 (by decide)).trans (V1_of m c main_arg12 (by decide))))))).symm
  have hd13 : (RC R0 (Proc.devRef .tc Cert.ReferenceIdeal.main_arg13) : (⟨S64x10, .f32⟩ : BufTy).Contents (Elt Ideal)) = V12 m 𝐨 c (Proc.devRef .tc main_arg13) :=
    (((RC_keep R0 Cert.ReferenceIdeal.main_arg13 (by decide)).trans ((RM1_keep R0 Cert.ReferenceIdeal.main_arg13 (by decide)).trans ((RB_keep R0 Cert.ReferenceIdeal.main_arg13 (by decide)).trans ((RM0_keep R0 Cert.ReferenceIdeal.main_arg13 (by decide)).trans (RA_keep R0 Cert.ReferenceIdeal.main_arg13 (by decide)))))).trans h13).trans ((K12_keep m c main_arg13 (by decide)).trans ((V8_of m 𝐨 c main_arg13 (by decide)).trans ((V7_of m 𝐨 c main_arg13 (by decide)).trans ((K6_keep m c main_arg13 (by decide)).trans ((V2_of m 𝐨 c main_arg13 (by decide)).trans (V1_of m c main_arg13 (by decide))))))).symm
  have hd14 : (RC R0 (Proc.devRef .tc Cert.ReferenceIdeal.main_arg14) : (⟨S10, .f32⟩ : BufTy).Contents (Elt Ideal)) = V12 m 𝐨 c (Proc.devRef .tc main_arg14) :=
    (((RC_keep R0 Cert.ReferenceIdeal.main_arg14 (by decide)).trans ((RM1_keep R0 Cert.ReferenceIdeal.main_arg14 (by decide)).trans ((RB_keep R0 Cert.ReferenceIdeal.main_arg14 (by decide)).trans ((RM0_keep R0 Cert.ReferenceIdeal.main_arg14 (by decide)).trans (RA_keep R0 Cert.ReferenceIdeal.main_arg14 (by decide)))))).trans h14).trans ((K12_keep m c main_arg14 (by decide)).trans ((V8_of m 𝐨 c main_arg14 (by decide)).trans ((V7_of m 𝐨 c main_arg14 (by decide)).trans ((K6_keep m c main_arg14 (by decide)).trans ((V2_of m 𝐨 c main_arg14 (by decide)).trans (V1_of m c main_arg14 (by decide))))))).symm
  have hd15 : (RC R0 (Proc.devRef .tc Cert.ReferenceIdeal.main_arg15) : (⟨S64x10, .f32⟩ : BufTy).Contents (Elt Ideal)) = V12 m 𝐨 c (Proc.devRef .tc main_arg15) :=
    (((RC_keep R0 Cert.ReferenceIdeal.main_arg15 (by decide)).trans ((RM1_keep R0 Cert.ReferenceIdeal.main_arg15 (by decide)).trans ((RB_keep R0 Cert.ReferenceIdeal.main_arg15 (by decide)).trans ((RM0_keep R0 Cert.ReferenceIdeal.main_arg15 (by decide)).trans (RA_keep R0 Cert.ReferenceIdeal.main_arg15 (by decide)))))).trans h15).trans ((K12_keep m c main_arg15 (by decide)).trans ((V8_of m 𝐨 c main_arg15 (by decide)).trans ((V7_of m 𝐨 c main_arg15 (by decide)).trans ((K6_keep m c main_arg15 (by decide)).trans ((V2_of m 𝐨 c main_arg15 (by decide)).trans (V1_of m c main_arg15 (by decide))))))).symm
  have hd16 : (RC R0 (Proc.devRef .tc Cert.ReferenceIdeal.main_arg16) : (⟨S10, .f32⟩ : BufTy).Contents (Elt Ideal)) = V12 m 𝐨 c (Proc.devRef .tc main_arg16) :=
    (((RC_keep R0 Cert.ReferenceIdeal.main_arg16 (by decide)).trans ((RM1_keep R0 Cert.ReferenceIdeal.main_arg16 (by decide)).trans ((RB_keep R0 Cert.ReferenceIdeal.main_arg16 (by decide)).trans ((RM0_keep R0 Cert.ReferenceIdeal.main_arg16 (by decide)).trans (RA_keep R0 Cert.ReferenceIdeal.main_arg16 (by decide)))))).trans h16).trans ((K12_keep m c main_arg16 (by decide)).trans ((V8_of m 𝐨 c main_arg16 (by decide)).trans ((V7_of m 𝐨 c main_arg16 (by decide)).trans ((K6_keep m c main_arg16 (by decide)).trans ((V2_of m 𝐨 c main_arg16 (by decide)).trans (V1_of m c main_arg16 (by decide))))))).symm
  -- the node heads, and the cast that feeds the third product
  obtain ⟨hH, hz148⟩ := stageCh (F := Ideal) (V12 m 𝐨 c) (RC R0) hC hd11 hd12 hd13 hd14 hd15 hd16
  -- the third product
  have e145g : ∀ W : RV (F := Ideal), (after Cert.ReferenceIdeal.Hand.opsM2 W (Proc.devRef .tc Cert.ReferenceIdeal.main_v145) : (⟨S16384x16384, .f32⟩ : BufTy).Contents (Elt Ideal))
      = (Host.dotGeneral (F := Ideal) (φ₁ := .f32) (φ₂ := .f32) Cert.ReferenceIdeal.dot_S16384x64_S64x16384_S16384x16384_1_0_0_1_n_n none
          (W (Proc.devRef .tc Cert.ReferenceIdeal.main_v100) : (⟨S16384x64, .f32⟩ : BufTy).Contents (Elt Ideal))
          (transpose Cert.ReferenceIdeal.S64x16384 [1, 0] (W (Proc.devRef .tc Cert.ReferenceIdeal.main_v100) : (⟨S16384x64, .f32⟩ : BufTy).Contents (Elt Ideal)) Cert.ReferenceIdeal.Gen.transposes_S16384x64_S64x16384_1_0) : (⟨S16384x16384, .f32⟩ : BufTy).Contents (Elt Ideal)) := by
    intro W
    after_results
  have e145 : (RM2 R0 (Proc.devRef .tc Cert.ReferenceIdeal.main_v145) : (⟨S16384x16384, .f32⟩ : BufTy).Contents (Elt Ideal)) = _ := e145g (RCh R0)
  have m2 : (RM2 R0 (Proc.devRef .tc Cert.ReferenceIdeal.main_v145) : (⟨S16384x16384, .f32⟩ : BufTy).Contents (Elt Ideal)) = V14 m 𝐨 c (Proc.devRef .tc main_v149) := by
    rw [e145, RCh_keep R0 Cert.ReferenceIdeal.main_v100 (by decide), hC, ← stageM2 (atRefs (V13 m 𝐨)) c (V12 m 𝐨 c (Proc.devRef .tc main_v104)) hz148, ← outs_14 m c]
    show _ = Function.update (V13 m 𝐨 c) (Proc.devRef .tc main_v149) (𝐨 14 main_v149 c) (Proc.devRef .tc main_v149)
    rw [Function.update_self]
  have dz : (RM2 R0 (Proc.devRef .tc Cert.ReferenceIdeal.main_v100) : (⟨S16384x64, .f32⟩ : BufTy).Contents (Elt Ideal)) = V14 m 𝐨 c (Proc.devRef .tc main_v104) :=
    (((RM2_keep R0 Cert.ReferenceIdeal.main_v100 (by decide)).trans (RCh_keep R0 Cert.ReferenceIdeal.main_v100 (by decide))).trans hC).trans ((V14_of m 𝐨 c main_v104 (by decide)).trans (V13_of m 𝐨 c main_v104 (by decide))).symm
  have he1 : (RM2 R0 (Proc.devRef .tc Cert.ReferenceIdeal.main_arg1) : (⟨S2x524288, .i32⟩ : BufTy).Contents (Elt Ideal)) = V14 m 𝐨 c (Proc.devRef .tc main_arg1) :=
    (((RM2_keep R0 Cert.ReferenceIdeal.main_arg1 (by decide)).trans ((RCh_keep R0 Cert.ReferenceIdeal.main_arg1 (by decide)).trans ((RC_keep R0 Cert.ReferenceIdeal.main_arg1 (by decide)).trans ((RM1_keep R0 Cert.ReferenceIdeal.main_arg1 (by decide)).trans ((RB_keep R0 Cert.ReferenceIdeal.main_arg1 (by decide)).trans ((RM0_keep R0 Cert.ReferenceIdeal.main_arg1 (by decide)).trans (RA_keep R0 Cert.ReferenceIdeal.main_arg1 (by decide)))))))).trans h1).trans ((V14_of m 𝐨 c main_arg1 (by decide)).trans ((V13_of m 𝐨 c main_arg1 (by decide)).trans ((K12_keep m c main_arg1 (by decide)).trans ((V8_of m 𝐨 c main_arg1 (by decide)).trans ((V7_of m 𝐨 c main_arg1 (by decide)).trans ((K6_keep m c main_arg1 (by decide)).trans ((V2_of m 𝐨 c main_arg1 (by decide)).trans (V1_of m c main_arg1 (by decide))))))))).symm
  have he17 : (RM2 R0 (Proc.devRef .tc Cert.ReferenceIdeal.main_arg17) : (⟨S128x16, .f32⟩ : BufTy).Contents (Elt Ideal)) = V14 m 𝐨 c (Proc.devRef .tc main_arg17) :=
    (((RM2_keep R0 Cert.ReferenceIdeal.main_arg17 (by decide)).trans ((RCh_keep R0 Cert.ReferenceIdeal.main_arg17 (by decide)).trans ((RC_keep R0 Cert.ReferenceIdeal.main_arg17 (by decide)).trans ((RM1_keep R0 Cert.ReferenceIdeal.main_arg17 (by decide)).trans ((RB_keep R0 Cert.ReferenceIdeal.main_arg17 (by decide)).trans ((RM0_keep R0 Cert.ReferenceIdeal.main_arg17 (by decide)).trans (RA_keep R0 Cert.ReferenceIdeal.main_arg17 (by decide)))))))).trans h17).trans ((V14_of m 𝐨 c main_arg17 (by decide)).trans ((V13_of m 𝐨 c main_arg17 (by decide)).trans ((K12_keep m c main_arg17 (by decide)).trans ((V8_of m 𝐨 c main_arg17 (by decide)).trans ((V7_of m 𝐨 c main_arg17 (by decide)).trans ((K6_keep m c main_arg17 (by decide)).trans ((V2_of m 𝐨 c main_arg17 (by decide)).trans (V1_of m c main_arg17 (by decide))))))))).symm
  have he18 : (RM2 R0 (Proc.devRef .tc Cert.ReferenceIdeal.main_arg18) : (⟨S16, .f32⟩ : BufTy).Contents (Elt Ideal)) = V14 m 𝐨 c (Proc.devRef .tc main_arg18) :=
    (((RM2_keep R0 Cert.ReferenceIdeal.main_arg18 (by decide)).trans ((RCh_keep R0 Cert.ReferenceIdeal.main_arg18 (by decide)).trans ((RC_keep R0 Cert.ReferenceIdeal.main_arg18 (by decide)).trans ((RM1_keep R0 Cert.ReferenceIdeal.main_arg18 (by decide)).trans ((RB_keep R0 Cert.ReferenceIdeal.main_arg18 (by decide)).trans ((RM0_keep R0 Cert.ReferenceIdeal.main_arg18 (by decide)).trans (RA_keep R0 Cert.ReferenceIdeal.main_arg18 (by decide)))))))).trans h18).trans ((V14_of m 𝐨 c main_arg18 (by decide)).trans ((V13_of m 𝐨 c main_arg18 (by decide)).trans ((K12_keep m c main_arg18 (by decide)).trans ((V8_of m 𝐨 c main_arg18 (by decide)).trans ((V7_of m 𝐨 c main_arg18 (by decide)).trans ((K6_keep m c main_arg18 (by decide)).trans ((V2_of m 𝐨 c main_arg18 (by decide)).trans (V1_of m c main_arg18 (by decide))))))))).symm
  -- the edge decoder
  have hD := stageD (V14 m 𝐨 c) (RM2 R0) dz he1 he17 he18
  refine ⟨?_, ?_, hD⟩
  · exact ((RD_keep R0 Cert.ReferenceIdeal.main_v143 (by decide)).trans ((RM2_keep R0 Cert.ReferenceIdeal.main_v143 (by decide)).trans hH)).trans
      ((V15_of m 𝐨 c main_v147 (by decide)).trans (V14_of m 𝐨 c main_v147 (by decide))).symm
  · exact ((RD_keep R0 Cert.ReferenceIdeal.main_v145 (by decide)).trans m2).trans (V15_of m 𝐨 c main_v149 (by decide)).symm

end Chain

/-- The reference program writes none of its arguments: each ends as it was. -/
theorem ref_arg_keep (R0 : RV (F := Ideal)) :
    after (Cert.ReferenceIdeal.Hand.ops (F := Ideal)) R0 (Proc.devRef .tc Cert.ReferenceIdeal.main_arg0) = R0 (Proc.devRef .tc Cert.ReferenceIdeal.main_arg0)
    ∧ after (Cert.ReferenceIdeal.Hand.ops (F := Ideal)) R0 (Proc.devRef .tc Cert.ReferenceIdeal.main_arg1) = R0 (Proc.devRef .tc Cert.ReferenceIdeal.main_arg1)
    ∧ after (Cert.ReferenceIdeal.Hand.ops (F := Ideal)) R0 (Proc.devRef .tc Cert.ReferenceIdeal.main_arg2) = R0 (Proc.devRef .tc Cert.ReferenceIdeal.main_arg2)
    ∧ after (Cert.ReferenceIdeal.Hand.ops (F := Ideal)) R0 (Proc.devRef .tc Cert.ReferenceIdeal.main_arg3) = R0 (Proc.devRef .tc Cert.ReferenceIdeal.main_arg3)
    ∧ after (Cert.ReferenceIdeal.Hand.ops (F := Ideal)) R0 (Proc.devRef .tc Cert.ReferenceIdeal.main_arg4) = R0 (Proc.devRef .tc Cert.ReferenceIdeal.main_arg4)
    ∧ after (Cert.ReferenceIdeal.Hand.ops (F := Ideal)) R0 (Proc.devRef .tc Cert.ReferenceIdeal.main_arg5) = R0 (Proc.devRef .tc Cert.ReferenceIdeal.main_arg5)
    ∧ after (Cert.ReferenceIdeal.Hand.ops (F := Ideal)) R0 (Proc.devRef .tc Cert.ReferenceIdeal.main_arg6) = R0 (Proc.devRef .tc Cert.ReferenceIdeal.main_arg6)
    ∧ after (Cert.ReferenceIdeal.Hand.ops (F := Ideal)) R0 (Proc.devRef .tc Cert.ReferenceIdeal.main_arg7) = R0 (Proc.devRef .tc Cert.ReferenceIdeal.main_arg7)
    ∧ after (Cert.ReferenceIdeal.Hand.ops (F := Ideal)) R0 (Proc.devRef .tc Cert.ReferenceIdeal.main_arg8) = R0 (Proc.devRef .tc Cert.ReferenceIdeal.main_arg8)
    ∧ after (Cert.ReferenceIdeal.Hand.ops (F := Ideal)) R0 (Proc.devRef .tc Cert.ReferenceIdeal.main_arg9) = R0 (Proc.devRef .tc Cert.ReferenceIdeal.main_arg9)
    ∧ after (Cert.ReferenceIdeal.Hand.ops (F := Ideal)) R0 (Proc.devRef .tc Cert.ReferenceIdeal.main_arg10) = R0 (Proc.devRef .tc Cert.ReferenceIdeal.main_arg10)
    ∧ after (Cert.ReferenceIdeal.Hand.ops (F := Ideal)) R0 (Proc.devRef .tc Cert.ReferenceIdeal.main_arg11) = R0 (Proc.devRef .tc Cert.ReferenceIdeal.main_arg11)
    ∧ after (Cert.ReferenceIdeal.Hand.ops (F := Ideal)) R0 (Proc.devRef .tc Cert.ReferenceIdeal.main_arg12) = R0 (Proc.devRef .tc Cert.ReferenceIdeal.main_arg12)
    ∧ after (Cert.ReferenceIdeal.Hand.ops (F := Ideal)) R0 (Proc.devRef .tc Cert.ReferenceIdeal.main_arg13) = R0 (Proc.devRef .tc Cert.ReferenceIdeal.main_arg13)
    ∧ after (Cert.ReferenceIdeal.Hand.ops (F := Ideal)) R0 (Proc.devRef .tc Cert.ReferenceIdeal.main_arg14) = R0 (Proc.devRef .tc Cert.ReferenceIdeal.main_arg14)
    ∧ after (Cert.ReferenceIdeal.Hand.ops (F := Ideal)) R0 (Proc.devRef .tc Cert.ReferenceIdeal.main_arg15) = R0 (Proc.devRef .tc Cert.ReferenceIdeal.main_arg15)
    ∧ after (Cert.ReferenceIdeal.Hand.ops (F := Ideal)) R0 (Proc.devRef .tc Cert.ReferenceIdeal.main_arg16) = R0 (Proc.devRef .tc Cert.ReferenceIdeal.main_arg16)
    ∧ after (Cert.ReferenceIdeal.Hand.ops (F := Ideal)) R0 (Proc.devRef .tc Cert.ReferenceIdeal.main_arg17) = R0 (Proc.devRef .tc Cert.ReferenceIdeal.main_arg17)
    ∧ after (Cert.ReferenceIdeal.Hand.ops (F := Ideal)) R0 (Proc.devRef .tc Cert.ReferenceIdeal.main_arg18) = R0 (Proc.devRef .tc Cert.ReferenceIdeal.main_arg18) := by
  rw [after_ops_eq]
  exact ⟨((RD_keep R0 Cert.ReferenceIdeal.main_arg0 (by decide)).trans ((RM2_keep R0 Cert.ReferenceIdeal.main_arg0 (by decide)).trans ((RCh_keep R0 Cert.ReferenceIdeal.main_arg0 (by decide)).trans ((RC_keep R0 Cert.ReferenceIdeal.main_arg0 (by decide)).trans ((RM1_keep R0 Cert.ReferenceIdeal.main_arg0 (by decide)).trans ((RB_keep R0 Cert.ReferenceIdeal.main_arg0 (by decide)).trans ((RM0_keep R0 Cert.ReferenceIdeal.main_arg0 (by decide)).trans (RA_keep R0 Cert.ReferenceIdeal.main_arg0 (by decide))))))))),
    ((RD_keep R0 Cert.ReferenceIdeal.main_arg1 (by decide)).trans ((RM2_keep R0 Cert.ReferenceIdeal.main_arg1 (by decide)).trans ((RCh_keep R0 Cert.ReferenceIdeal.main_arg1 (by decide)).trans ((RC_keep R0 Cert.ReferenceIdeal.main_arg1 (by decide)).trans ((RM1_keep R0 Cert.ReferenceIdeal.main_arg1 (by decide)).trans ((RB_keep R0 Cert.ReferenceIdeal.main_arg1 (by decide)).trans ((RM0_keep R0 Cert.ReferenceIdeal.main_arg1 (by decide)).trans (RA_keep R0 Cert.ReferenceIdeal.main_arg1 (by decide))))))))),
    ((RD_keep R0 Cert.ReferenceIdeal.main_arg2 (by decide)).trans ((RM2_keep R0 Cert.ReferenceIdeal.main_arg2 (by decide)).trans ((RCh_keep R0 Cert.ReferenceIdeal.main_arg2 (by decide)).trans ((RC_keep R0 Cert.ReferenceIdeal.main_arg2 (by decide)).trans ((RM1_keep R0 Cert.ReferenceIdeal.main_arg2 (by decide)).trans ((RB_keep R0 Cert.ReferenceIdeal.main_arg2 (by decide)).trans ((RM0_keep R0 Cert.ReferenceIdeal.main_arg2 (by decide)).trans (RA_keep R0 Cert.ReferenceIdeal.main_arg2 (by decide))))))))),
    ((RD_keep R0 Cert.ReferenceIdeal.main_arg3 (by decide)).trans ((RM2_keep R0 Cert.ReferenceIdeal.main_arg3 (by decide)).trans ((RCh_keep R0 Cert.ReferenceIdeal.main_arg3 (by decide)).trans ((RC_keep R0 Cert.ReferenceIdeal.main_arg3 (by decide)).trans ((RM1_keep R0 Cert.ReferenceIdeal.main_arg3 (by decide)).trans ((RB_keep R0 Cert.ReferenceIdeal.main_arg3 (by decide)).trans ((RM0_keep R0 Cert.ReferenceIdeal.main_arg3 (by decide)).trans (RA_keep R0 Cert.ReferenceIdeal.main_arg3 (by decide))))))))),
    ((RD_keep R0 Cert.ReferenceIdeal.main_arg4 (by decide)).trans ((RM2_keep R0 Cert.ReferenceIdeal.main_arg4 (by decide)).trans ((RCh_keep R0 Cert.ReferenceIdeal.main_arg4 (by decide)).trans ((RC_keep R0 Cert.ReferenceIdeal.main_arg4 (by decide)).trans ((RM1_keep R0 Cert.ReferenceIdeal.main_arg4 (by decide)).trans ((RB_keep R0 Cert.ReferenceIdeal.main_arg4 (by decide)).trans ((RM0_keep R0 Cert.ReferenceIdeal.main_arg4 (by decide)).trans (RA_keep R0 Cert.ReferenceIdeal.main_arg4 (by decide))))))))),
    ((RD_keep R0 Cert.ReferenceIdeal.main_arg5 (by decide)).trans ((RM2_keep R0 Cert.ReferenceIdeal.main_arg5 (by decide)).trans ((RCh_keep R0 Cert.ReferenceIdeal.main_arg5 (by decide)).trans ((RC_keep R0 Cert.ReferenceIdeal.main_arg5 (by decide)).trans ((RM1_keep R0 Cert.ReferenceIdeal.main_arg5 (by decide)).trans ((RB_keep R0 Cert.ReferenceIdeal.main_arg5 (by decide)).trans ((RM0_keep R0 Cert.ReferenceIdeal.main_arg5 (by decide)).trans (RA_keep R0 Cert.ReferenceIdeal.main_arg5 (by decide))))))))),
    ((RD_keep R0 Cert.ReferenceIdeal.main_arg6 (by decide)).trans ((RM2_keep R0 Cert.ReferenceIdeal.main_arg6 (by decide)).trans ((RCh_keep R0 Cert.ReferenceIdeal.main_arg6 (by decide)).trans ((RC_keep R0 Cert.ReferenceIdeal.main_arg6 (by decide)).trans ((RM1_keep R0 Cert.ReferenceIdeal.main_arg6 (by decide)).trans ((RB_keep R0 Cert.ReferenceIdeal.main_arg6 (by decide)).trans ((RM0_keep R0 Cert.ReferenceIdeal.main_arg6 (by decide)).trans (RA_keep R0 Cert.ReferenceIdeal.main_arg6 (by decide))))))))),
    ((RD_keep R0 Cert.ReferenceIdeal.main_arg7 (by decide)).trans ((RM2_keep R0 Cert.ReferenceIdeal.main_arg7 (by decide)).trans ((RCh_keep R0 Cert.ReferenceIdeal.main_arg7 (by decide)).trans ((RC_keep R0 Cert.ReferenceIdeal.main_arg7 (by decide)).trans ((RM1_keep R0 Cert.ReferenceIdeal.main_arg7 (by decide)).trans ((RB_keep R0 Cert.ReferenceIdeal.main_arg7 (by decide)).trans ((RM0_keep R0 Cert.ReferenceIdeal.main_arg7 (by decide)).trans (RA_keep R0 Cert.ReferenceIdeal.main_arg7 (by decide))))))))),
    ((RD_keep R0 Cert.ReferenceIdeal.main_arg8 (by decide)).trans ((RM2_keep R0 Cert.ReferenceIdeal.main_arg8 (by decide)).trans ((RCh_keep R0 Cert.ReferenceIdeal.main_arg8 (by decide)).trans ((RC_keep R0 Cert.ReferenceIdeal.main_arg8 (by decide)).trans ((RM1_keep R0 Cert.ReferenceIdeal.main_arg8 (by decide)).trans ((RB_keep R0 Cert.ReferenceIdeal.main_arg8 (by decide)).trans ((RM0_keep R0 Cert.ReferenceIdeal.main_arg8 (by decide)).trans (RA_keep R0 Cert.ReferenceIdeal.main_arg8 (by decide))))))))),
    ((RD_keep R0 Cert.ReferenceIdeal.main_arg9 (by decide)).trans ((RM2_keep R0 Cert.ReferenceIdeal.main_arg9 (by decide)).trans ((RCh_keep R0 Cert.ReferenceIdeal.main_arg9 (by decide)).trans ((RC_keep R0 Cert.ReferenceIdeal.main_arg9 (by decide)).trans ((RM1_keep R0 Cert.ReferenceIdeal.main_arg9 (by decide)).trans ((RB_keep R0 Cert.ReferenceIdeal.main_arg9 (by decide)).trans ((RM0_keep R0 Cert.ReferenceIdeal.main_arg9 (by decide)).trans (RA_keep R0 Cert.ReferenceIdeal.main_arg9 (by decide))))))))),
    ((RD_keep R0 Cert.ReferenceIdeal.main_arg10 (by decide)).trans ((RM2_keep R0 Cert.ReferenceIdeal.main_arg10 (by decide)).trans ((RCh_keep R0 Cert.ReferenceIdeal.main_arg10 (by decide)).trans ((RC_keep R0 Cert.ReferenceIdeal.main_arg10 (by decide)).trans ((RM1_keep R0 Cert.ReferenceIdeal.main_arg10 (by decide)).trans ((RB_keep R0 Cert.ReferenceIdeal.main_arg10 (by decide)).trans ((RM0_keep R0 Cert.ReferenceIdeal.main_arg10 (by decide)).trans (RA_keep R0 Cert.ReferenceIdeal.main_arg10 (by decide))))))))),
    ((RD_keep R0 Cert.ReferenceIdeal.main_arg11 (by decide)).trans ((RM2_keep R0 Cert.ReferenceIdeal.main_arg11 (by decide)).trans ((RCh_keep R0 Cert.ReferenceIdeal.main_arg11 (by decide)).trans ((RC_keep R0 Cert.ReferenceIdeal.main_arg11 (by decide)).trans ((RM1_keep R0 Cert.ReferenceIdeal.main_arg11 (by decide)).trans ((RB_keep R0 Cert.ReferenceIdeal.main_arg11 (by decide)).trans ((RM0_keep R0 Cert.ReferenceIdeal.main_arg11 (by decide)).trans (RA_keep R0 Cert.ReferenceIdeal.main_arg11 (by decide))))))))),
    ((RD_keep R0 Cert.ReferenceIdeal.main_arg12 (by decide)).trans ((RM2_keep R0 Cert.ReferenceIdeal.main_arg12 (by decide)).trans ((RCh_keep R0 Cert.ReferenceIdeal.main_arg12 (by decide)).trans ((RC_keep R0 Cert.ReferenceIdeal.main_arg12 (by decide)).trans ((RM1_keep R0 Cert.ReferenceIdeal.main_arg12 (by decide)).trans ((RB_keep R0 Cert.ReferenceIdeal.main_arg12 (by decide)).trans ((RM0_keep R0 Cert.ReferenceIdeal.main_arg12 (by decide)).trans (RA_keep R0 Cert.ReferenceIdeal.main_arg12 (by decide))))))))),
    ((RD_keep R0 Cert.ReferenceIdeal.main_arg13 (by decide)).trans ((RM2_keep R0 Cert.ReferenceIdeal.main_arg13 (by decide)).trans ((RCh_keep R0 Cert.ReferenceIdeal.main_arg13 (by decide)).trans ((RC_keep R0 Cert.ReferenceIdeal.main_arg13 (by decide)).trans ((RM1_keep R0 Cert.ReferenceIdeal.main_arg13 (by decide)).trans ((RB_keep R0 Cert.ReferenceIdeal.main_arg13 (by decide)).trans ((RM0_keep R0 Cert.ReferenceIdeal.main_arg13 (by decide)).trans (RA_keep R0 Cert.ReferenceIdeal.main_arg13 (by decide))))))))),
    ((RD_keep R0 Cert.ReferenceIdeal.main_arg14 (by decide)).trans ((RM2_keep R0 Cert.ReferenceIdeal.main_arg14 (by decide)).trans ((RCh_keep R0 Cert.ReferenceIdeal.main_arg14 (by decide)).trans ((RC_keep R0 Cert.ReferenceIdeal.main_arg14 (by decide)).trans ((RM1_keep R0 Cert.ReferenceIdeal.main_arg14 (by decide)).trans ((RB_keep R0 Cert.ReferenceIdeal.main_arg14 (by decide)).trans ((RM0_keep R0 Cert.ReferenceIdeal.main_arg14 (by decide)).trans (RA_keep R0 Cert.ReferenceIdeal.main_arg14 (by decide))))))))),
    ((RD_keep R0 Cert.ReferenceIdeal.main_arg15 (by decide)).trans ((RM2_keep R0 Cert.ReferenceIdeal.main_arg15 (by decide)).trans ((RCh_keep R0 Cert.ReferenceIdeal.main_arg15 (by decide)).trans ((RC_keep R0 Cert.ReferenceIdeal.main_arg15 (by decide)).trans ((RM1_keep R0 Cert.ReferenceIdeal.main_arg15 (by decide)).trans ((RB_keep R0 Cert.ReferenceIdeal.main_arg15 (by decide)).trans ((RM0_keep R0 Cert.ReferenceIdeal.main_arg15 (by decide)).trans (RA_keep R0 Cert.ReferenceIdeal.main_arg15 (by decide))))))))),
    ((RD_keep R0 Cert.ReferenceIdeal.main_arg16 (by decide)).trans ((RM2_keep R0 Cert.ReferenceIdeal.main_arg16 (by decide)).trans ((RCh_keep R0 Cert.ReferenceIdeal.main_arg16 (by decide)).trans ((RC_keep R0 Cert.ReferenceIdeal.main_arg16 (by decide)).trans ((RM1_keep R0 Cert.ReferenceIdeal.main_arg16 (by decide)).trans ((RB_keep R0 Cert.ReferenceIdeal.main_arg16 (by decide)).trans ((RM0_keep R0 Cert.ReferenceIdeal.main_arg16 (by decide)).trans (RA_keep R0 Cert.ReferenceIdeal.main_arg16 (by decide))))))))),
    ((RD_keep R0 Cert.ReferenceIdeal.main_arg17 (by decide)).trans ((RM2_keep R0 Cert.ReferenceIdeal.main_arg17 (by decide)).trans ((RCh_keep R0 Cert.ReferenceIdeal.main_arg17 (by decide)).trans ((RC_keep R0 Cert.ReferenceIdeal.main_arg17 (by decide)).trans ((RM1_keep R0 Cert.ReferenceIdeal.main_arg17 (by decide)).trans ((RB_keep R0 Cert.ReferenceIdeal.main_arg17 (by decide)).trans ((RM0_keep R0 Cert.ReferenceIdeal.main_arg17 (by decide)).trans (RA_keep R0 Cert.ReferenceIdeal.main_arg17 (by decide))))))))),
    ((RD_keep R0 Cert.ReferenceIdeal.main_arg18 (by decide)).trans ((RM2_keep R0 Cert.ReferenceIdeal.main_arg18 (by decide)).trans ((RCh_keep R0 Cert.ReferenceIdeal.main_arg18 (by decide)).trans ((RC_keep R0 Cert.ReferenceIdeal.main_arg18 (by decide)).trans ((RM1_keep R0 Cert.ReferenceIdeal.main_arg18 (by decide)).trans ((RB_keep R0 Cert.ReferenceIdeal.main_arg18 (by decide)).trans ((RM0_keep R0 Cert.ReferenceIdeal.main_arg18 (by decide)).trans (RA_keep R0 Cert.ReferenceIdeal.main_arg18 (by decide)))))))))⟩

end Cert.Bridge

end
-- ==== Proof.lean ====
/-
  The certificate: a two-layer graph-convolution encoder with three decoders, whose three dense products (x·w1, h·w2
  and z·zᵀ) the kernel program runs as tiled matrix-unit products and the reference as host products.

  Frames. The kernel program is @main as fifteen items — twelve host stretches and three pipelined regions —; each region
  is entered with every unscoped buffer held at a known valuation and left with its output array replaced by the fold
  of its grid points' write-backs (the third region reads one array through two windows, which share it half and half);
  no item writes an argument. The word-level program is the same text. The reference is a straight line of 247 host
  operations.

  Values, over the extended reals. Before, between and after the products the two programs apply the same host
  operations to equal inputs, so they stay equal stage by stage; a tiled product into a zero accumulator is the
  whole product (a change of float format is the identity, the blocks tile the array); z·zᵀ contracted on both last
  axes is the product with the transpose; and the edge decoder's "project by each half of the weight, gather, add" is
  "gather, concatenate, project" because a 128-term sum splits into two 64-term sums and a row gather commutes with
  a row-wise product. No finiteness is used.
-/
import proofs.«422874_j81398220194430_3_alg».proof.Defs
import proofs.«422874_j81398220194430_3_alg».proof.Proof.Gen.Kernel
import proofs.«422874_j81398220194430_3_alg».proof.Proof.Gen.KernelIdeal
import proofs.«422874_j81398220194430_3_alg».proof.Proof.Gen.ReferenceIdeal
import proofs.«422874_j81398220194430_3_alg».proof.Proof.Gen.Pre_finite_inputs
import proofs.«422874_j81398220194430_3_alg».proof.Proof.KB.Frame
import proofs.«422874_j81398220194430_3_alg».proof.Proof.KI.Frame
import proofs.«422874_j81398220194430_3_alg».proof.Proof.RI.Run
import proofs.«422874_j81398220194430_3_alg».proof.Proof.Bridge.All
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference runs, and writes none of its arguments. -/
theorem frame_ri : Cert.frame_ReferenceIdeal := fun m ρ _ =>
  (θ_run Cert.ReferenceIdeal.defs _ _).mono (fun r h c => by
    obtain ⟨k0, k1, k2, k3, k4, k5, k6, k7, k8, k9, k10, k11, k12, k13, k14, k15, k16, k17, k18⟩ := Cert.Bridge.ref_arg_keep (StableHlo.launchContents m c)
    exact ⟨(h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12, (h c Cert.ReferenceIdeal.main_arg13).trans k13, (h c Cert.ReferenceIdeal.main_arg14).trans k14, (h c Cert.ReferenceIdeal.main_arg15).trans k15, (h c Cert.ReferenceIdeal.main_arg16).trans k16, (h c Cert.ReferenceIdeal.main_arg17).trans k17, (h c Cert.ReferenceIdeal.main_arg18).trans k18⟩)
    (Cert.ReferenceIdeal.Hand.run (F := Ideal) m ρ)

/-- Both idealized programs run from memories that agree on the arguments, and end with the same three results. -/
theorem algebraic : Cert.algebraic_KernelIdeal_ReferenceIdeal := by
  intro m ρ m' ρ' _ hagree
  refine ⟨fun c => Cert.KernelIdeal.Gen.V15 m (Cert.KernelIdeal.Hand.outs m) c Cert.KernelIdeal.main_v147,
    fun c => Cert.KernelIdeal.Gen.V15 m (Cert.KernelIdeal.Hand.outs m) c Cert.KernelIdeal.main_v149,
    fun c => Cert.KernelIdeal.Gen.V15 m (Cert.KernelIdeal.Hand.outs m) c Cert.KernelIdeal.main_v175,
    Cert.KernelIdeal.Hand.run_values (F := Ideal) m ρ, ?_⟩
  refine (θ_run Cert.ReferenceIdeal.defs _ _).mono (fun r h c => ?_) (Cert.ReferenceIdeal.Hand.run (F := Ideal) m' ρ')
  obtain ⟨g0, g1, g2, g3, g4, g5, g6, g7, g8, g9, g10, g11, g12, g13, g14, g15, g16, g17, g18⟩ := hagree c
  obtain ⟨k0, k1, k2, k3, k4, k5, k6, k7, k8, k9, k10, k11, k12, k13, k14, k15, k16, k17, k18⟩ := Cert.Bridge.ref_arg_keep (StableHlo.launchContents m' c)
  obtain ⟨r0, r1, r2⟩ := Cert.Bridge.results_agree m (StableHlo.launchContents m' c) c g0 g1 g3 g4 g5 g6 g7 g8 g9 g10 g11 g12 g13 g14 g15 g16 g17 g18
  have e := Cert.Bridge.after_ops_eq (StableHlo.launchContents m' c)
  exact ⟨(h c Cert.ReferenceIdeal.main_v143).trans ((congrFun e _).trans r0),
    (h c Cert.ReferenceIdeal.main_v145).trans ((congrFun e _).trans r1),
    (h c Cert.ReferenceIdeal.main_v168).trans ((congrFun e _).trans r2),
    (h c Cert.ReferenceIdeal.main_arg0).trans k0, (h c Cert.ReferenceIdeal.main_arg1).trans k1, (h c Cert.ReferenceIdeal.main_arg2).trans k2, (h c Cert.ReferenceIdeal.main_arg3).trans k3, (h c Cert.ReferenceIdeal.main_arg4).trans k4, (h c Cert.ReferenceIdeal.main_arg5).trans k5, (h c Cert.ReferenceIdeal.main_arg6).trans k6, (h c Cert.ReferenceIdeal.main_arg7).trans k7, (h c Cert.ReferenceIdeal.main_arg8).trans k8, (h c Cert.ReferenceIdeal.main_arg9).trans k9, (h c Cert.ReferenceIdeal.main_arg10).trans k10, (h c Cert.ReferenceIdeal.main_arg11).trans k11, (h c Cert.ReferenceIdeal.main_arg12).trans k12, (h c Cert.ReferenceIdeal.main_arg13).trans k13, (h c Cert.ReferenceIdeal.main_arg14).trans k14, (h c Cert.ReferenceIdeal.main_arg15).trans k15, (h c Cert.ReferenceIdeal.main_arg16).trans k16, (h c Cert.ReferenceIdeal.main_arg17).trans k17, (h c Cert.ReferenceIdeal.main_arg18).trans k18⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
